-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x3 : Shape := ⟨2, ![100000, 3]⟩
abbrev S2x2000000 : Shape := ⟨2, ![2, 2000000]⟩
abbrev S2000000x4 : Shape := ⟨2, ![2000000, 4]⟩
abbrev S40x10 : Shape := ⟨2, ![40, 10]⟩
abbrev S40 : Shape := ⟨1, ![40]⟩
abbrev S40x40 : Shape := ⟨2, ![40, 40]⟩
abbrev S4x40 : Shape := ⟨2, ![4, 40]⟩
abbrev S4 : Shape := ⟨1, ![4]⟩
abbrev S40x7 : Shape := ⟨2, ![40, 7]⟩
abbrev S3x40 : Shape := ⟨2, ![3, 40]⟩
abbrev S3 : Shape := ⟨1, ![3]⟩
abbrev S1x40 : Shape := ⟨2, ![1, 40]⟩
abbrev S1 : Shape := ⟨1, ![1]⟩
abbrev S_ : Shape := ⟨0, ![]⟩

class Facts : Prop where
  bcast_S_S100000x3 : S_.BroadcastsInDim S100000x3 (![] : Fin 0 → Fin S100000x3.rank)
  reducesTo_S100000x3_S_d0_1 : S100000x3.ReducesTo [0, 1] S_
  h_S_ : 0 < S_.numel
  bcast_S_S2000000x4 : S_.BroadcastsInDim S2000000x4 (![] : Fin 0 → Fin S2000000x4.rank)
  reducesTo_S2000000x4_S_d0_1 : S2000000x4.ReducesTo [0, 1] S_
  bcast_S_S40x10 : S_.BroadcastsInDim S40x10 (![] : Fin 0 → Fin S40x10.rank)
  reducesTo_S40x10_S_d0_1 : S40x10.ReducesTo [0, 1] S_
  bcast_S_S40 : S_.BroadcastsInDim S40 (![] : Fin 0 → Fin S40.rank)
  reducesTo_S40_S_d0 : S40.ReducesTo [0] S_
  bcast_S_S40x40 : S_.BroadcastsInDim S40x40 (![] : Fin 0 → Fin S40x40.rank)
  reducesTo_S40x40_S_d0_1 : S40x40.ReducesTo [0, 1] S_
  bcast_S_S4x40 : S_.BroadcastsInDim S4x40 (![] : Fin 0 → Fin S4x40.rank)
  reducesTo_S4x40_S_d0_1 : S4x40.ReducesTo [0, 1] S_
  bcast_S_S4 : S_.BroadcastsInDim S4 (![] : Fin 0 → Fin S4.rank)
  reducesTo_S4_S_d0 : S4.ReducesTo [0] S_
  bcast_S_S40x7 : S_.BroadcastsInDim S40x7 (![] : Fin 0 → Fin S40x7.rank)
  reducesTo_S40x7_S_d0_1 : S40x7.ReducesTo [0, 1] S_
  bcast_S_S3x40 : S_.BroadcastsInDim S3x40 (![] : Fin 0 → Fin S3x40.rank)
  reducesTo_S3x40_S_d0_1 : S3x40.ReducesTo [0, 1] S_
  bcast_S_S3 : S_.BroadcastsInDim S3 (![] : Fin 0 → Fin S3.rank)
  reducesTo_S3_S_d0 : S3.ReducesTo [0] S_
  bcast_S_S1x40 : S_.BroadcastsInDim S1x40 (![] : Fin 0 → Fin S1x40.rank)
  reducesTo_S1x40_S_d0_1 : S1x40.ReducesTo [0, 1] S_
  bcast_S_S1 : S_.BroadcastsInDim S1 (![] : Fin 0 → Fin S1.rank)
  reducesTo_S1_S_d0 : S1.ReducesTo [0] S_
  bcast_S_S2x2000000 : S_.BroadcastsInDim S2x2000000 (![] : Fin 0 → Fin S2x2000000.rank)
  reducesTo_S2x2000000_S_d0_1 : S2x2000000.ReducesTo [0, 1] S_

variable [Facts]

def fn_part6 {F : FTy → Type} [FloatOps F] (main_arg1 : IVec S2x2000000 32) (main_v98 : IVec S_ 1) (main_v101 : IVec S_ 1) : IVec S_ 1 :=
  let main_v102 : IVec S_ 1 := andi main_v98 main_v101
  let main_c_40 : IVec S_ 32 := constantI S_ 32 100000#32
  let main_v103 : IVec S2x2000000 32 := broadcastInDim S2x2000000 ![] bcast_S_S2x2000000 main_c_40
  let main_v104 : IVec S2x2000000 1 := cmpi .slt main_arg1 main_v103
  let main_c_41 : IVec S_ 1 := constantI S_ 1 1#1
  let main_v105 : IVec S_ 1 := (fun x v => Host.reduce IntOp.andi x v reducesTo_S2x2000000_S_d0_1 h_S_) main_v104 main_c_41
  let main_v106 : IVec S_ 1 := andi main_v102 main_v105
  main_v106

def fn_part5 {F : FTy → Type} [FloatOps F] (main_arg1 : IVec S2x2000000 32) (main_arg19 : FVec F S1x40 .f32) (main_arg20 : FVec F S1 .f32) (main_v83 : IVec S_ 1) (main_v84 : FVec F S40 .f32) (main_cst_32 : FVec F S_ .f32) : IVec S_ 1 :=
  let main_v85 : FVec F S40 .f32 := broadcastInDim S40 ![] bcast_S_S40 main_cst_32
  let main_v86 : IVec S40 1 := cmpf .olt main_v84 main_v85
  let main_c_33 : IVec S_ 1 := constantI S_ 1 1#1
  let main_v87 : IVec S_ 1 := (fun x v => Host.reduce IntOp.andi x v reducesTo_S40_S_d0 h_S_) main_v86 main_c_33
  let main_v88 : IVec S_ 1 := andi main_v83 main_v87
  let main_v89 : FVec F S1x40 .f32 := Host.absf main_arg19
  let main_cst_34 : FVec F S_ .f32 := constant S_ .f32 0x7F800000#32
  let main_v90 : FVec F S1x40 .f32 := broadcastInDim S1x40 ![] bcast_S_S1x40 main_cst_34
  let main_v91 : IVec S1x40 1 := cmpf .olt main_v89 main_v90
  let main_c_35 : IVec S_ 1 := constantI S_ 1 1#1
  let main_v92 : IVec S_ 1 := (fun x v => Host.reduce IntOp.andi x v reducesTo_S1x40_S_d0_1 h_S_) main_v91 main_c_35
  let main_v93 : IVec S_ 1 := andi main_v88 main_v92
  let main_v94 : FVec F S1 .f32 := Host.absf main_arg20
  let main_cst_36 : FVec F S_ .f32 := constant S_ .f32 0x7F800000#32
  let main_v95 : FVec F S1 .f32 := broadcastInDim S1 ![] bcast_S_S1 main_cst_36
  let main_v96 : IVec S1 1 := cmpf .olt main_v94 main_v95
  let main_c_37 : IVec S_ 1 := constantI S_ 1 1#1
  let main_v97 : IVec S_ 1 := (fun x v => Host.reduce IntOp.andi x v reducesTo_S1_S_d0 h_S_) main_v96 main_c_37
  let main_v98 : IVec S_ 1 := andi main_v93 main_v97
  let main_c_38 : IVec S_ 32 := constantI S_ 32 0#32
  let main_v99 : IVec S2x2000000 32 := broadcastInDim S2x2000000 ![] bcast_S_S2x2000000 main_c_38
  let main_v100 : IVec S2x2000000 1 := cmpi .sge main_arg1 main_v99
  let main_c_39 : IVec S_ 1 := constantI S_ 1 1#1
  let main_v101 : IVec S_ 1 := (fun x v => Host.reduce IntOp.andi x v reducesTo_S2x2000000_S_d0_1 h_S_) main_v100 main_c_39
  fn_part6 (F := F) main_arg1 main_v98 main_v101

def fn_part4 {F : FTy → Type} [FloatOps F] (main_arg1 : IVec S2x2000000 32) (main_arg15 : FVec F S40x10 .f32) (main_arg16 : FVec F S40 .f32) (main_arg17 : FVec F S40x40 .f32) (main_arg18 : FVec F S40 .f32) (main_arg19 : FVec F S1x40 .f32) (main_arg20 : FVec F S1 .f32) (main_v63 : IVec S_ 1) (main_v67 : IVec S_ 1) : IVec S_ 1 :=
  let main_v68 : IVec S_ 1 := andi main_v63 main_v67
  let main_v69 : FVec F S40x10 .f32 := Host.absf main_arg15
  let main_cst_26 : FVec F S_ .f32 := constant S_ .f32 0x7F800000#32
  let main_v70 : FVec F S40x10 .f32 := broadcastInDim S40x10 ![] bcast_S_S40x10 main_cst_26
  let main_v71 : IVec S40x10 1 := cmpf .olt main_v69 main_v70
  let main_c_27 : IVec S_ 1 := constantI S_ 1 1#1
  let main_v72 : IVec S_ 1 := (fun x v => Host.reduce IntOp.andi x v reducesTo_S40x10_S_d0_1 h_S_) main_v71 main_c_27
  let main_v73 : IVec S_ 1 := andi main_v68 main_v72
  let main_v74 : FVec F S40 .f32 := Host.absf main_arg16
  let main_cst_28 : FVec F S_ .f32 := constant S_ .f32 0x7F800000#32
  let main_v75 : FVec F S40 .f32 := broadcastInDim S40 ![] bcast_S_S40 main_cst_28
  let main_v76 : IVec S40 1 := cmpf .olt main_v74 main_v75
  let main_c_29 : IVec S_ 1 := constantI S_ 1 1#1
  let main_v77 : IVec S_ 1 := (fun x v => Host.reduce IntOp.andi x v reducesTo_S40_S_d0 h_S_) main_v76 main_c_29
  let main_v78 : IVec S_ 1 := andi main_v73 main_v77
  let main_v79 : FVec F S40x40 .f32 := Host.absf main_arg17
  let main_cst_30 : FVec F S_ .f32 := constant S_ .f32 0x7F800000#32
  let main_v80 : FVec F S40x40 .f32 := broadcastInDim S40x40 ![] bcast_S_S40x40 main_cst_30
  let main_v81 : IVec S40x40 1 := cmpf .olt main_v79 main_v80
  let main_c_31 : IVec S_ 1 := constantI S_ 1 1#1
  let main_v82 : IVec S_ 1 := (fun x v => Host.reduce IntOp.andi x v reducesTo_S40x40_S_d0_1 h_S_) main_v81 main_c_31
  let main_v83 : IVec S_ 1 := andi main_v78 main_v82
  let main_v84 : FVec F S40 .f32 := Host.absf main_arg18
  let main_cst_32 : FVec F S_ .f32 := constant S_ .f32 0x7F800000#32
  fn_part5 (F := F) main_arg1 main_arg19 main_arg20 main_v83 main_v84 main_cst_32

def fn_part3 {F : FTy → Type} [FloatOps F] (main_arg1 : IVec S2x2000000 32) (main_arg12 : FVec F S40 .f32) (main_arg13 : FVec F S3x40 .f32) (main_arg14 : FVec F S3 .f32) (main_arg15 : FVec F S40x10 .f32) (main_arg16 : FVec F S40 .f32) (main_arg17 : FVec F S40x40 .f32) (main_arg18 : FVec F S40 .f32) (main_arg19 : FVec F S1x40 .f32) (main_arg20 : FVec F S1 .f32) (main_v48 : IVec S_ 1) (main_v49 : FVec F S40x40 .f32) (main_v50 : FVec F S40x40 .f32) : IVec S_ 1 :=
  let main_v51 : IVec S40x40 1 := cmpf .olt main_v49 main_v50
  let main_c_19 : IVec S_ 1 := constantI S_ 1 1#1
  let main_v52 : IVec S_ 1 := (fun x v => Host.reduce IntOp.andi x v reducesTo_S40x40_S_d0_1 h_S_) main_v51 main_c_19
  let main_v53 : IVec S_ 1 := andi main_v48 main_v52
  let main_v54 : FVec F S40 .f32 := Host.absf main_arg12
  let main_cst_20 : FVec F S_ .f32 := constant S_ .f32 0x7F800000#32
  let main_v55 : FVec F S40 .f32 := broadcastInDim S40 ![] bcast_S_S40 main_cst_20
  let main_v56 : IVec S40 1 := cmpf .olt main_v54 main_v55
  let main_c_21 : IVec S_ 1 := constantI S_ 1 1#1
  let main_v57 : IVec S_ 1 := (fun x v => Host.reduce IntOp.andi x v reducesTo_S40_S_d0 h_S_) main_v56 main_c_21
  let main_v58 : IVec S_ 1 := andi main_v53 main_v57
  let main_v59 : FVec F S3x40 .f32 := Host.absf main_arg13
  let main_cst_22 : FVec F S_ .f32 := constant S_ .f32 0x7F800000#32
  let main_v60 : FVec F S3x40 .f32 := broadcastInDim S3x40 ![] bcast_S_S3x40 main_cst_22
  let main_v61 : IVec S3x40 1 := cmpf .olt main_v59 main_v60
  let main_c_23 : IVec S_ 1 := constantI S_ 1 1#1
  let main_v62 : IVec S_ 1 := (fun x v => Host.reduce IntOp.andi x v reducesTo_S3x40_S_d0_1 h_S_) main_v61 main_c_23
  let main_v63 : IVec S_ 1 := andi main_v58 main_v62
  let main_v64 : FVec F S3 .f32 := Host.absf main_arg14
  let main_cst_24 : FVec F S_ .f32 := constant S_ .f32 0x7F800000#32
  let main_v65 : FVec F S3 .f32 := broadcastInDim S3 ![] bcast_S_S3 main_cst_24
  let main_v66 : IVec S3 1 := cmpf .olt main_v64 main_v65
  let main_c_25 : IVec S_ 1 := constantI S_ 1 1#1
  let main_v67 : IVec S_ 1 := (fun x v => Host.reduce IntOp.andi x v reducesTo_S3_S_d0 h_S_) main_v66 main_c_25
  fn_part4 (F := F) main_arg1 main_arg15 main_arg16 main_arg17 main_arg18 main_arg19 main_arg20 main_v63 main_v67

def fn_part2 {F : FTy → Type} [FloatOps F] (main_arg1 : IVec S2x2000000 32) (main_arg8 : FVec F S4 .f32) (main_arg9 : FVec F S40x7 .f32) (main_arg10 : FVec F S40 .f32) (main_arg11 : FVec F S40x40 .f32) (main_arg12 : FVec F S40 .f32) (main_arg13 : FVec F S3x40 .f32) (main_arg14 : FVec F S3 .f32) (main_arg15 : FVec F S40x10 .f32) (main_arg16 : FVec F S40 .f32) (main_arg17 : FVec F S40x40 .f32) (main_arg18 : FVec F S40 .f32) (main_arg19 : FVec F S1x40 .f32) (main_arg20 : FVec F S1 .f32) (main_v33 : IVec S_ 1) : IVec S_ 1 :=
  let main_v34 : FVec F S4 .f32 := Host.absf main_arg8
  let main_cst_12 : FVec F S_ .f32 := constant S_ .f32 0x7F800000#32
  let main_v35 : FVec F S4 .f32 := broadcastInDim S4 ![] bcast_S_S4 main_cst_12
  let main_v36 : IVec S4 1 := cmpf .olt main_v34 main_v35
  let main_c_13 : IVec S_ 1 := constantI S_ 1 1#1
  let main_v37 : IVec S_ 1 := (fun x v => Host.reduce IntOp.andi x v reducesTo_S4_S_d0 h_S_) main_v36 main_c_13
  let main_v38 : IVec S_ 1 := andi main_v33 main_v37
  let main_v39 : FVec F S40x7 .f32 := Host.absf main_arg9
  let main_cst_14 : FVec F S_ .f32 := constant S_ .f32 0x7F800000#32
  let main_v40 : FVec F S40x7 .f32 := broadcastInDim S40x7 ![] bcast_S_S40x7 main_cst_14
  let main_v41 : IVec S40x7 1 := cmpf .olt main_v39 main_v40
  let main_c_15 : IVec S_ 1 := constantI S_ 1 1#1
  let main_v42 : IVec S_ 1 := (fun x v => Host.reduce IntOp.andi x v reducesTo_S40x7_S_d0_1 h_S_) main_v41 main_c_15
  let main_v43 : IVec S_ 1 := andi main_v38 main_v42
  let main_v44 : FVec F S40 .f32 := Host.absf main_arg10
  let main_cst_16 : FVec F S_ .f32 := constant S_ .f32 0x7F800000#32
  let main_v45 : FVec F S40 .f32 := broadcastInDim S40 ![] bcast_S_S40 main_cst_16
  let main_v46 : IVec S40 1 := cmpf .olt main_v44 main_v45
  let main_c_17 : IVec S_ 1 := constantI S_ 1 1#1
  let main_v47 : IVec S_ 1 := (fun x v => Host.reduce IntOp.andi x v reducesTo_S40_S_d0 h_S_) main_v46 main_c_17
  let main_v48 : IVec S_ 1 := andi main_v43 main_v47
  let main_v49 : FVec F S40x40 .f32 := Host.absf main_arg11
  let main_cst_18 : FVec F S_ .f32 := constant S_ .f32 0x7F800000#32
  let main_v50 : FVec F S40x40 .f32 := broadcastInDim S40x40 ![] bcast_S_S40x40 main_cst_18
  fn_part3 (F := F) main_arg1 main_arg12 main_arg13 main_arg14 main_arg15 main_arg16 main_arg17 main_arg18 main_arg19 main_arg20 main_v48 main_v49 main_v50

def fn_part1 {F : FTy → Type} [FloatOps F] (main_arg1 : IVec S2x2000000 32) (main_arg5 : FVec F S40x40 .f32) (main_arg6 : FVec F S40 .f32) (main_arg7 : FVec F S4x40 .f32) (main_arg8 : FVec F S4 .f32) (main_arg9 : FVec F S40x7 .f32) (main_arg10 : FVec F S40 .f32) (main_arg11 : FVec F S40x40 .f32) (main_arg12 : FVec F S40 .f32) (main_arg13 : FVec F S3x40 .f32) (main_arg14 : FVec F S3 .f32) (main_arg15 : FVec F S40x10 .f32) (main_arg16 : FVec F S40 .f32) (main_arg17 : FVec F S40x40 .f32) (main_arg18 : FVec F S40 .f32) (main_arg19 : FVec F S1x40 .f32) (main_arg20 : FVec F S1 .f32) (main_v13 : IVec S_ 1) (main_v16 : IVec S40 1) : IVec S_ 1 :=
  let main_c_5 : IVec S_ 1 := constantI S_ 1 1#1
  let main_v17 : IVec S_ 1 := (fun x v => Host.reduce IntOp.andi x v reducesTo_S40_S_d0 h_S_) main_v16 main_c_5
  let main_v18 : IVec S_ 1 := andi main_v13 main_v17
  let main_v19 : FVec F S40x40 .f32 := Host.absf main_arg5
  let main_cst_6 : FVec F S_ .f32 := constant S_ .f32 0x7F800000#32
  let main_v20 : FVec F S40x40 .f32 := broadcastInDim S40x40 ![] bcast_S_S40x40 main_cst_6
  let main_v21 : IVec S40x40 1 := cmpf .olt main_v19 main_v20
  let main_c_7 : IVec S_ 1 := constantI S_ 1 1#1
  let main_v22 : IVec S_ 1 := (fun x v => Host.reduce IntOp.andi x v reducesTo_S40x40_S_d0_1 h_S_) main_v21 main_c_7
  let main_v23 : IVec S_ 1 := andi main_v18 main_v22
  let main_v24 : FVec F S40 .f32 := Host.absf main_arg6
  let main_cst_8 : FVec F S_ .f32 := constant S_ .f32 0x7F800000#32
  let main_v25 : FVec F S40 .f32 := broadcastInDim S40 ![] bcast_S_S40 main_cst_8
  let main_v26 : IVec S40 1 := cmpf .olt main_v24 main_v25
  let main_c_9 : IVec S_ 1 := constantI S_ 1 1#1
  let main_v27 : IVec S_ 1 := (fun x v => Host.reduce IntOp.andi x v reducesTo_S40_S_d0 h_S_) main_v26 main_c_9
  let main_v28 : IVec S_ 1 := andi main_v23 main_v27
  let main_v29 : FVec F S4x40 .f32 := Host.absf main_arg7
  let main_cst_10 : FVec F S_ .f32 := constant S_ .f32 0x7F800000#32
  let main_v30 : FVec F S4x40 .f32 := broadcastInDim S4x40 ![] bcast_S_S4x40 main_cst_10
  let main_v31 : IVec S4x40 1 := cmpf .olt main_v29 main_v30
  let main_c_11 : IVec S_ 1 := constantI S_ 1 1#1
  let main_v32 : IVec S_ 1 := (fun x v => Host.reduce IntOp.andi x v reducesTo_S4x40_S_d0_1 h_S_) main_v31 main_c_11
  let main_v33 : IVec S_ 1 := andi main_v28 main_v32
  fn_part2 (F := F) main_arg1 main_arg8 main_arg9 main_arg10 main_arg11 main_arg12 main_arg13 main_arg14 main_arg15 main_arg16 main_arg17 main_arg18 main_arg19 main_arg20 main_v33

def fn {F : FTy → Type} [FloatOps F] (main_arg0 : FVec F S100000x3 .f32) (main_arg1 : IVec S2x2000000 32) (main_arg2 : FVec F S2000000x4 .f32) (main_arg3 : FVec F S40x10 .f32) (main_arg4 : FVec F S40 .f32) (main_arg5 : FVec F S40x40 .f32) (main_arg6 : FVec F S40 .f32) (main_arg7 : FVec F S4x40 .f32) (main_arg8 : FVec F S4 .f32) (main_arg9 : FVec F S40x7 .f32) (main_arg10 : FVec F S40 .f32) (main_arg11 : FVec F S40x40 .f32) (main_arg12 : FVec F S40 .f32) (main_arg13 : FVec F S3x40 .f32) (main_arg14 : FVec F S3 .f32) (main_arg15 : FVec F S40x10 .f32) (main_arg16 : FVec F S40 .f32) (main_arg17 : FVec F S40x40 .f32) (main_arg18 : FVec F S40 .f32) (main_arg19 : FVec F S1x40 .f32) (main_arg20 : FVec F S1 .f32) : IVec S_ 1 :=
  let main_v0 : FVec F S100000x3 .f32 := Host.absf main_arg0
  let main_cst : FVec F S_ .f32 := constant S_ .f32 0x7F800000#32
  let main_v1 : FVec F S100000x3 .f32 := broadcastInDim S100000x3 ![] bcast_S_S100000x3 main_cst
  let main_v2 : IVec S100000x3 1 := cmpf .olt main_v0 main_v1
  let main_c : IVec S_ 1 := constantI S_ 1 1#1
  let main_v3 : IVec S_ 1 := (fun x v => Host.reduce IntOp.andi x v reducesTo_S100000x3_S_d0_1 h_S_) main_v2 main_c
  let main_v4 : FVec F S2000000x4 .f32 := Host.absf main_arg2
  let main_cst_0 : FVec F S_ .f32 := constant S_ .f32 0x7F800000#32
  let main_v5 : FVec F S2000000x4 .f32 := broadcastInDim S2000000x4 ![] bcast_S_S2000000x4 main_cst_0
  let main_v6 : IVec S2000000x4 1 := cmpf .olt main_v4 main_v5
  let main_c_1 : IVec S_ 1 := constantI S_ 1 1#1
  let main_v7 : IVec S_ 1 := (fun x v => Host.reduce IntOp.andi x v reducesTo_S2000000x4_S_d0_1 h_S_) main_v6 main_c_1
  let main_v8 : IVec S_ 1 := andi main_v3 main_v7
  let main_v9 : FVec F S40x10 .f32 := Host.absf main_arg3
  let main_cst_2 : FVec F S_ .f32 := constant S_ .f32 0x7F800000#32
  let main_v10 : FVec F S40x10 .f32 := broadcastInDim S40x10 ![] bcast_S_S40x10 main_cst_2
  let main_v11 : IVec S40x10 1 := cmpf .olt main_v9 main_v10
  let main_c_3 : IVec S_ 1 := constantI S_ 1 1#1
  let main_v12 : IVec S_ 1 := (fun x v => Host.reduce IntOp.andi x v reducesTo_S40x10_S_d0_1 h_S_) main_v11 main_c_3
  let main_v13 : IVec S_ 1 := andi main_v8 main_v12
  let main_v14 : FVec F S40 .f32 := Host.absf main_arg4
  let main_cst_4 : FVec F S_ .f32 := constant S_ .f32 0x7F800000#32
  let main_v15 : FVec F S40 .f32 := broadcastInDim S40 ![] bcast_S_S40 main_cst_4
  let main_v16 : IVec S40 1 := cmpf .olt main_v14 main_v15
  fn_part1 (F := F) main_arg1 main_arg5 main_arg6 main_arg7 main_arg8 main_arg9 main_arg10 main_arg11 main_arg12 main_arg13 main_arg14 main_arg15 main_arg16 main_arg17 main_arg18 main_arg19 main_arg20 main_v13 main_v16
-- ==== Kernel.lean ====
abbrev S100000x3 : Shape := ⟨2, ![100000, 3]⟩
abbrev S2x2000000 : Shape := ⟨2, ![2, 2000000]⟩
abbrev S2000000x4 : Shape := ⟨2, ![2000000, 4]⟩
abbrev S40x10 : Shape := ⟨2, ![40, 10]⟩
abbrev S40 : Shape := ⟨1, ![40]⟩
abbrev S40x40 : Shape := ⟨2, ![40, 40]⟩
abbrev S4x40 : Shape := ⟨2, ![4, 40]⟩
abbrev S4 : Shape := ⟨1, ![4]⟩
abbrev S40x7 : Shape := ⟨2, ![40, 7]⟩
abbrev S3x40 : Shape := ⟨2, ![3, 40]⟩
abbrev S3 : Shape := ⟨1, ![3]⟩
abbrev S1x40 : Shape := ⟨2, ![1, 40]⟩
abbrev S1 : Shape := ⟨1, ![1]⟩
abbrev S1x2000000 : Shape := ⟨2, ![1, 2000000]⟩
abbrev S2000000 : Shape := ⟨1, ![2000000]⟩
abbrev S_ : Shape := ⟨0, ![]⟩
abbrev S2000000x1 : Shape := ⟨2, ![2000000, 1]⟩
abbrev S1x1 : Shape := ⟨2, ![1, 1]⟩
abbrev S2000000x3 : Shape := ⟨2, ![2000000, 3]⟩
abbrev S10x40 : Shape := ⟨2, ![10, 40]⟩
abbrev S40x4 : Shape := ⟨2, ![40, 4]⟩
abbrev S5000x3 : Shape := ⟨2, ![5000, 3]⟩
abbrev S5000x4 : Shape := ⟨2, ![5000, 4]⟩
abbrev S5000x40 : Shape := ⟨2, ![5000, 40]⟩
abbrev S1x4 : Shape := ⟨2, ![1, 4]⟩
abbrev S100000x4 : Shape := ⟨2, ![100000, 4]⟩
abbrev S7x40 : Shape := ⟨2, ![7, 40]⟩
abbrev S40x3 : Shape := ⟨2, ![40, 3]⟩
abbrev S2000x3 : Shape := ⟨2, ![2000, 3]⟩
abbrev S2000x4 : Shape := ⟨2, ![2000, 4]⟩
abbrev S2000x40 : Shape := ⟨2, ![2000, 40]⟩
abbrev S1x3 : Shape := ⟨2, ![1, 3]⟩
abbrev S40x1 : Shape := ⟨2, ![40, 1]⟩
abbrev S5000x1 : Shape := ⟨2, ![5000, 1]⟩

abbrev nBuf : Space → Nat
  | .hbm => 141
  | .vmem => 45
  | .smem => 0
  | _ => 0

abbrev hbmTy0_0 (i : Nat) : BufTy := match i % 128 with
  | 0 => ⟨S100000x3, .f32⟩
  | 1 => ⟨S2x2000000, .i32⟩
  | 2 => ⟨S2000000x4, .f32⟩
  | 3 => ⟨S40x10, .f32⟩
  | 4 => ⟨S40, .f32⟩
  | 5 => ⟨S40x40, .f32⟩
  | 6 => ⟨S40, .f32⟩
  | 7 => ⟨S4x40, .f32⟩
  | 8 => ⟨S4, .f32⟩
  | 9 => ⟨S40x7, .f32⟩
  | 10 => ⟨S40, .f32⟩
  | 11 => ⟨S40x40, .f32⟩
  | 12 => ⟨S40, .f32⟩
  | 13 => ⟨S3x40, .f32⟩
  | 14 => ⟨S3, .f32⟩
  | 15 => ⟨S40x10, .f32⟩
  | 16 => ⟨S40, .f32⟩
  | 17 => ⟨S40x40, .f32⟩
  | 18 => ⟨S40, .f32⟩
  | 19 => ⟨S1x40, .f32⟩
  | 20 => ⟨S1, .f32⟩
  | 21 => ⟨S1x2000000, .i32⟩
  | 22 => ⟨S2000000, .i32⟩
  | 23 => ⟨S1x2000000, .i32⟩
  | 24 => ⟨S2000000, .i32⟩
  | 25 => ⟨S_, .i32⟩
  | 26 => ⟨S2000000, .i32⟩
  | 27 => ⟨S2000000, .i1⟩
  | 28 => ⟨S_, .i32⟩
  | 29 => ⟨S2000000, .i32⟩
  | 30 => ⟨S2000000, .i32⟩
  | 31 => ⟨S2000000, .i32⟩
  | 32 => ⟨S2000000x1, .i32⟩
  | 33 => ⟨S1, .i32⟩
  | 34 => ⟨S_, .i32⟩
  | 35 => ⟨S2000000x1, .i32⟩
  | 36 => ⟨S2000000x1, .i1⟩
  | 37 => ⟨S1x1, .i32⟩
  | 38 => ⟨S2000000x1, .i32⟩
  | 39 => ⟨S2000000x1, .i1⟩
  | 40 => ⟨S2000000x1, .i1⟩
  | 41 => ⟨S_, .i1⟩
  | 42 => ⟨S2000000, .i1⟩
  | 43 => ⟨S2000000x3, .f32⟩
  | 44 => ⟨S2000000x3, .i1⟩
  | 45 => ⟨S_, .f32⟩
  | 46 => ⟨S2000000x3, .f32⟩
  | 47 => ⟨S2000000x3, .f32⟩
  | 48 => ⟨S_, .i32⟩
  | 49 => ⟨S2000000, .i32⟩
  | 50 => ⟨S2000000, .i1⟩
  | 51 => ⟨S_, .i32⟩
  | 52 => ⟨S2000000, .i32⟩
  | 53 => ⟨S2000000, .i32⟩
  | 54 => ⟨S2000000, .i32⟩
  | 55 => ⟨S2000000x1, .i32⟩
  | 56 => ⟨S1, .i32⟩
  | 57 => ⟨S_, .i32⟩
  | 58 => ⟨S2000000x1, .i32⟩
  | 59 => ⟨S2000000x1, .i1⟩
  | 60 => ⟨S1x1, .i32⟩
  | 61 => ⟨S2000000x1, .i32⟩
  | 62 => ⟨S2000000x1, .i1⟩
  | 63 => ⟨S2000000x1, .i1⟩
  | 64 => ⟨S_, .i1⟩
  | 65 => ⟨S2000000, .i1⟩
  | 66 => ⟨S2000000x3, .f32⟩
  | 67 => ⟨S2000000x3, .i1⟩
  | 68 => ⟨S_, .f32⟩
  | 69 => ⟨S2000000x3, .f32⟩
  | 70 => ⟨S2000000x3, .f32⟩
  | 71 => ⟨S10x40, .f32⟩
  | 72 => ⟨S3x40, .f32⟩
  | 73 => ⟨S3x40, .f32⟩
  | 74 => ⟨S4x40, .f32⟩
  | 75 => ⟨S40x40, .f32⟩
  | 76 => ⟨S40x4, .f32⟩
  | 77 => ⟨S2000000x4, .f32⟩
  | 78 => ⟨S_, .f32⟩
  | 79 => ⟨S100000x4, .f32⟩
  | 80 => ⟨S2000000x1, .i32⟩
  | 81 => ⟨S100000x4, .f32⟩
  | 82 => ⟨S7x40, .f32⟩
  | 83 => ⟨S3x40, .f32⟩
  | 84 => ⟨S4x40, .f32⟩
  | 85 => ⟨S40x40, .f32⟩
  | 86 => ⟨S40x3, .f32⟩
  | 87 => ⟨S100000x3, .f32⟩
  | 88 => ⟨S_, .i32⟩
  | 89 => ⟨S2000000, .i32⟩
  | 90 => ⟨S2000000, .i1⟩
  | 91 => ⟨S_, .i32⟩
  | 92 => ⟨S2000000, .i32⟩
  | 93 => ⟨S2000000, .i32⟩
  | 94 => ⟨S2000000, .i32⟩
  | 95 => ⟨S2000000x1, .i32⟩
  | 96 => ⟨S1, .i32⟩
  | 97 => ⟨S_, .i32⟩
  | 98 => ⟨S2000000x1, .i32⟩
  | 99 => ⟨S2000000x1, .i1⟩
  | 100 => ⟨S1x1, .i32⟩
  | 101 => ⟨S2000000x1, .i32⟩
  | 102 => ⟨S2000000x1, .i1⟩
  | 103 => ⟨S2000000x1, .i1⟩
  | 104 => ⟨S_, .i1⟩
  | 105 => ⟨S2000000, .i1⟩
  | 106 => ⟨S2000000x3, .f32⟩
  | 107 => ⟨S2000000x3, .i1⟩
  | 108 => ⟨S_, .f32⟩
  | 109 => ⟨S2000000x3, .f32⟩
  | 110 => ⟨S2000000x3, .f32⟩
  | 111 => ⟨S_, .i32⟩
  | 112 => ⟨S2000000, .i32⟩
  | 113 => ⟨S2000000, .i1⟩
  | 114 => ⟨S_, .i32⟩
  | 115 => ⟨S2000000, .i32⟩
  | 116 => ⟨S2000000, .i32⟩
  | 117 => ⟨S2000000, .i32⟩
  | 118 => ⟨S2000000x1, .i32⟩
  | 119 => ⟨S1, .i32⟩
  | 120 => ⟨S_, .i32⟩
  | 121 => ⟨S2000000x1, .i32⟩
  | 122 => ⟨S2000000x1, .i1⟩
  | 123 => ⟨S1x1, .i32⟩
  | 124 => ⟨S2000000x1, .i32⟩
  | 125 => ⟨S2000000x1, .i1⟩
  | 126 => ⟨S2000000x1, .i1⟩
  | 127 => ⟨S_, .i1⟩
  | _ => ⟨S100000x3, .f32⟩

abbrev hbmTy0_1 (i : Nat) : BufTy := match i % 128 with
  | 0 => ⟨S2000000, .i1⟩
  | 1 => ⟨S2000000x3, .f32⟩
  | 2 => ⟨S2000000x3, .i1⟩
  | 3 => ⟨S_, .f32⟩
  | 4 => ⟨S2000000x3, .f32⟩
  | 5 => ⟨S2000000x3, .f32⟩
  | 6 => ⟨S10x40, .f32⟩
  | 7 => ⟨S3x40, .f32⟩
  | 8 => ⟨S3x40, .f32⟩
  | 9 => ⟨S4x40, .f32⟩
  | 10 => ⟨S40x40, .f32⟩
  | 11 => ⟨S40x1, .f32⟩
  | 12 => ⟨S2000000x1, .f32⟩
  | _ => ⟨S100000x3, .f32⟩

abbrev hbmTy (i : Nat) : BufTy := match i / 128 with
  | 0 => hbmTy0_0 i
  | 1 => hbmTy0_1 i
  | _ => ⟨S100000x3, .f32⟩

abbrev bufTy : (tb : Table) → Fin (tcTables nBuf tb) → BufTy
  | .hbm, ⟨i, _⟩ => hbmTy i
  | .local _ .vmem, ⟨0, _⟩ => ⟨S5000x3, .f32⟩
  | .local _ .vmem, ⟨1, _⟩ => ⟨S5000x3, .f32⟩
  | .local _ .vmem, ⟨2, _⟩ => ⟨S5000x3, .f32⟩
  | .local _ .vmem, ⟨3, _⟩ => ⟨S5000x3, .f32⟩
  | .local _ .vmem, ⟨4, _⟩ => ⟨S5000x4, .f32⟩
  | .local _ .vmem, ⟨5, _⟩ => ⟨S5000x4, .f32⟩
  | .local _ .vmem, ⟨6, _⟩ => ⟨S3x40, .f32⟩
  | .local _ .vmem, ⟨7, _⟩ => ⟨S3x40, .f32⟩
  | .local _ .vmem, ⟨8, _⟩ => ⟨S4x40, .f32⟩
  | .local _ .vmem, ⟨9, _⟩ => ⟨S40, .f32⟩
  | .local _ .vmem, ⟨10, _⟩ => ⟨S40x40, .f32⟩
  | .local _ .vmem, ⟨11, _⟩ => ⟨S40, .f32⟩
  | .local _ .vmem, ⟨12, _⟩ => ⟨S40x4, .f32⟩
  | .local _ .vmem, ⟨13, _⟩ => ⟨S4, .f32⟩
  | .local _ .vmem, ⟨14, _⟩ => ⟨S5000x4, .f32⟩
  | .local _ .vmem, ⟨15, _⟩ => ⟨S5000x4, .f32⟩
  | .local _ .vmem, ⟨16, _⟩ => ⟨S2000x3, .f32⟩
  | .local _ .vmem, ⟨17, _⟩ => ⟨S2000x3, .f32⟩
  | .local _ .vmem, ⟨18, _⟩ => ⟨S2000x4, .f32⟩
  | .local _ .vmem, ⟨19, _⟩ => ⟨S2000x4, .f32⟩
  | .local _ .vmem, ⟨20, _⟩ => ⟨S3x40, .f32⟩
  | .local _ .vmem, ⟨21, _⟩ => ⟨S4x40, .f32⟩
  | .local _ .vmem, ⟨22, _⟩ => ⟨S40, .f32⟩
  | .local _ .vmem, ⟨23, _⟩ => ⟨S40x40, .f32⟩
  | .local _ .vmem, ⟨24, _⟩ => ⟨S40, .f32⟩
  | .local _ .vmem, ⟨25, _⟩ => ⟨S40x3, .f32⟩
  | .local _ .vmem, ⟨26, _⟩ => ⟨S3, .f32⟩
  | .local _ .vmem, ⟨27, _⟩ => ⟨S2000x3, .f32⟩
  | .local _ .vmem, ⟨28, _⟩ => ⟨S2000x3, .f32⟩
  | .local _ .vmem, ⟨29, _⟩ => ⟨S5000x3, .f32⟩
  | .local _ .vmem, ⟨30, _⟩ => ⟨S5000x3, .f32⟩
  | .local _ .vmem, ⟨31, _⟩ => ⟨S5000x3, .f32⟩
  | .local _ .vmem, ⟨32, _⟩ => ⟨S5000x3, .f32⟩
  | .local _ .vmem, ⟨33, _⟩ => ⟨S5000x4, .f32⟩
  | .local _ .vmem, ⟨34, _⟩ => ⟨S5000x4, .f32⟩
  | .local _ .vmem, ⟨35, _⟩ => ⟨S3x40, .f32⟩
  | .local _ .vmem, ⟨36, _⟩ => ⟨S3x40, .f32⟩
  | .local _ .vmem, ⟨37, _⟩ => ⟨S4x40, .f32⟩
  | .local _ .vmem, ⟨38, _⟩ => ⟨S40, .f32⟩
  | .local _ .vmem, ⟨39, _⟩ => ⟨S40x40, .f32⟩
  | .local _ .vmem, ⟨40, _⟩ => ⟨S40, .f32⟩
  | .local _ .vmem, ⟨41, _⟩ => ⟨S40x1, .f32⟩
  | .local _ .vmem, ⟨42, _⟩ => ⟨S1, .f32⟩
  | .local _ .vmem, ⟨43, _⟩ => ⟨S5000x1, .f32⟩
  | .local _ .vmem, ⟨44, _⟩ => ⟨S5000x1, .f32⟩
  | _, _ => ⟨S100000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTc nBuf bufTy 0 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_call0_c : Ref sig .tc := ⟨.hbm, 25, rfl⟩
abbrev main_call0_v0 : Ref sig .tc := ⟨.hbm, 26, rfl⟩
abbrev main_call0_v1 : Ref sig .tc := ⟨.hbm, 27, rfl⟩
abbrev main_call0_c_0 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_call0_v5 : Ref sig .tc := ⟨.hbm, 32, rfl⟩
abbrev main_call0_c_1 : Ref sig .tc := ⟨.hbm, 33, rfl⟩
abbrev main_call0_c_2 : Ref sig .tc := ⟨.hbm, 34, rfl⟩
abbrev main_call0_v6 : Ref sig .tc := ⟨.hbm, 35, rfl⟩
abbrev main_call0_v7 : Ref sig .tc := ⟨.hbm, 36, rfl⟩
abbrev main_call0_v8 : Ref sig .tc := ⟨.hbm, 37, rfl⟩
abbrev main_call0_v9 : Ref sig .tc := ⟨.hbm, 38, rfl⟩
abbrev main_call0_v10 : Ref sig .tc := ⟨.hbm, 39, rfl⟩
abbrev main_call0_v11 : Ref sig .tc := ⟨.hbm, 40, rfl⟩
abbrev main_call0_c_3 : Ref sig .tc := ⟨.hbm, 41, rfl⟩
abbrev main_call0_v12 : Ref sig .tc := ⟨.hbm, 42, rfl⟩
abbrev main_call0_v13 : Ref sig .tc := ⟨.hbm, 43, rfl⟩
abbrev main_call0_v14 : Ref sig .tc := ⟨.hbm, 44, rfl⟩
abbrev main_call0_cst : Ref sig .tc := ⟨.hbm, 45, rfl⟩
abbrev main_call0_v15 : Ref sig .tc := ⟨.hbm, 46, rfl⟩
abbrev main_v4 : Ref sig .tc := ⟨.hbm, 47, rfl⟩
abbrev main_call1_c : Ref sig .tc := ⟨.hbm, 48, rfl⟩
abbrev main_call1_v0 : Ref sig .tc := ⟨.hbm, 49, rfl⟩
abbrev main_call1_v1 : Ref sig .tc := ⟨.hbm, 50, rfl⟩
abbrev main_call1_c_0 : Ref sig .tc := ⟨.hbm, 51, rfl⟩
abbrev main_call1_v2 : Ref sig .tc := ⟨.hbm, 52, rfl⟩
abbrev main_call1_v3 : Ref sig .tc := ⟨.hbm, 53, rfl⟩
abbrev main_call1_v4 : Ref sig .tc := ⟨.hbm, 54, rfl⟩
abbrev main_call1_v5 : Ref sig .tc := ⟨.hbm, 55, rfl⟩
abbrev main_call1_c_1 : Ref sig .tc := ⟨.hbm, 56, rfl⟩
abbrev main_call1_c_2 : Ref sig .tc := ⟨.hbm, 57, rfl⟩
abbrev main_call1_v6 : Ref sig .tc := ⟨.hbm, 58, rfl⟩
abbrev main_call1_v7 : Ref sig .tc := ⟨.hbm, 59, rfl⟩
abbrev main_call1_v8 : Ref sig .tc := ⟨.hbm, 60, rfl⟩
abbrev main_call1_v9 : Ref sig .tc := ⟨.hbm, 61, rfl⟩
abbrev main_call1_v10 : Ref sig .tc := ⟨.hbm, 62, rfl⟩
abbrev main_call1_v11 : Ref sig .tc := ⟨.hbm, 63, rfl⟩
abbrev main_call1_c_3 : Ref sig .tc := ⟨.hbm, 64, rfl⟩
abbrev main_call1_v12 : Ref sig .tc := ⟨.hbm, 65, rfl⟩
abbrev main_call1_v13 : Ref sig .tc := ⟨.hbm, 66, rfl⟩
abbrev main_call1_v14 : Ref sig .tc := ⟨.hbm, 67, rfl⟩
abbrev main_call1_cst : Ref sig .tc := ⟨.hbm, 68, rfl⟩
abbrev main_call1_v15 : Ref sig .tc := ⟨.hbm, 69, rfl⟩
abbrev main_v5 : Ref sig .tc := ⟨.hbm, 70, rfl⟩
abbrev main_v6 : Ref sig .tc := ⟨.hbm, 71, rfl⟩
abbrev main_v7 : Ref sig .tc := ⟨.hbm, 72, rfl⟩
abbrev main_v8 : Ref sig .tc := ⟨.hbm, 73, rfl⟩
abbrev main_v9 : Ref sig .tc := ⟨.hbm, 74, rfl⟩
abbrev main_v10 : Ref sig .tc := ⟨.hbm, 75, rfl⟩
abbrev main_v11 : Ref sig .tc := ⟨.hbm, 76, rfl⟩
abbrev main_v12 : Ref sig .tc := ⟨.hbm, 77, rfl⟩
abbrev main_cst : Ref sig .tc := ⟨.hbm, 78, rfl⟩
abbrev main_v13 : Ref sig .tc := ⟨.hbm, 79, rfl⟩
abbrev main_v14 : Ref sig .tc := ⟨.hbm, 80, rfl⟩
abbrev main_v15 : Ref sig .tc := ⟨.hbm, 81, rfl⟩
abbrev main_v16 : Ref sig .tc := ⟨.hbm, 82, rfl⟩
abbrev main_v17 : Ref sig .tc := ⟨.hbm, 83, rfl⟩
abbrev main_v18 : Ref sig .tc := ⟨.hbm, 84, rfl⟩
abbrev main_v19 : Ref sig .tc := ⟨.hbm, 85, rfl⟩
abbrev main_v20 : Ref sig .tc := ⟨.hbm, 86, rfl⟩
abbrev main_v21 : Ref sig .tc := ⟨.hbm, 87, rfl⟩
abbrev main_call2_c : Ref sig .tc := ⟨.hbm, 88, rfl⟩
abbrev main_call2_v0 : Ref sig .tc := ⟨.hbm, 89, rfl⟩
abbrev main_call2_v1 : Ref sig .tc := ⟨.hbm, 90, rfl⟩
abbrev main_call2_c_0 : Ref sig .tc := ⟨.hbm, 91, rfl⟩
abbrev main_call2_v2 : Ref sig .tc := ⟨.hbm, 92, rfl⟩
abbrev main_call2_v3 : Ref sig .tc := ⟨.hbm, 93, rfl⟩
abbrev main_call2_v4 : Ref sig .tc := ⟨.hbm, 94, rfl⟩
abbrev main_call2_v5 : Ref sig .tc := ⟨.hbm, 95, rfl⟩
abbrev main_call2_c_1 : Ref sig .tc := ⟨.hbm, 96, rfl⟩
abbrev main_call2_c_2 : Ref sig .tc := ⟨.hbm, 97, rfl⟩
abbrev main_call2_v6 : Ref sig .tc := ⟨.hbm, 98, rfl⟩
abbrev main_call2_v7 : Ref sig .tc := ⟨.hbm, 99, rfl⟩
abbrev main_call2_v8 : Ref sig .tc := ⟨.hbm, 100, rfl⟩
abbrev main_call2_v9 : Ref sig .tc := ⟨.hbm, 101, rfl⟩
abbrev main_call2_v10 : Ref sig .tc := ⟨.hbm, 102, rfl⟩
abbrev main_call2_v11 : Ref sig .tc := ⟨.hbm, 103, rfl⟩
abbrev main_call2_c_3 : Ref sig .tc := ⟨.hbm, 104, rfl⟩
abbrev main_call2_v12 : Ref sig .tc := ⟨.hbm, 105, rfl⟩
abbrev main_call2_v13 : Ref sig .tc := ⟨.hbm, 106, rfl⟩
abbrev main_call2_v14 : Ref sig .tc := ⟨.hbm, 107, rfl⟩
abbrev main_call2_cst : Ref sig .tc := ⟨.hbm, 108, rfl⟩
abbrev main_call2_v15 : Ref sig .tc := ⟨.hbm, 109, rfl⟩
abbrev main_v22 : Ref sig .tc := ⟨.hbm, 110, rfl⟩
abbrev main_call3_c : Ref sig .tc := ⟨.hbm, 111, rfl⟩
abbrev main_call3_v0 : Ref sig .tc := ⟨.hbm, 112, rfl⟩
abbrev main_call3_v1 : Ref sig .tc := ⟨.hbm, 113, rfl⟩
abbrev main_call3_c_0 : Ref sig .tc := ⟨.hbm, 114, rfl⟩
abbrev main_call3_v2 : Ref sig .tc := ⟨.hbm, 115, rfl⟩
abbrev main_call3_v3 : Ref sig .tc := ⟨.hbm, 116, rfl⟩
abbrev main_call3_v4 : Ref sig .tc := ⟨.hbm, 117, rfl⟩
abbrev main_call3_v5 : Ref sig .tc := ⟨.hbm, 118, rfl⟩
abbrev main_call3_c_1 : Ref sig .tc := ⟨.hbm, 119, rfl⟩
abbrev main_call3_c_2 : Ref sig .tc := ⟨.hbm, 120, rfl⟩
abbrev main_call3_v6 : Ref sig .tc := ⟨.hbm, 121, rfl⟩
abbrev main_call3_v7 : Ref sig .tc := ⟨.hbm, 122, rfl⟩
abbrev main_call3_v8 : Ref sig .tc := ⟨.hbm, 123, rfl⟩
abbrev main_call3_v9 : Ref sig .tc := ⟨.hbm, 124, rfl⟩
abbrev main_call3_v10 : Ref sig .tc := ⟨.hbm, 125, rfl⟩
abbrev main_call3_v11 : Ref sig .tc := ⟨.hbm, 126, rfl⟩
abbrev main_call3_c_3 : Ref sig .tc := ⟨.hbm, 127, rfl⟩
abbrev main_call3_v12 : Ref sig .tc := ⟨.hbm, 128, rfl⟩
abbrev main_call3_v13 : Ref sig .tc := ⟨.hbm, 129, rfl⟩
abbrev main_call3_v14 : Ref sig .tc := ⟨.hbm, 130, rfl⟩
abbrev main_call3_cst : Ref sig .tc := ⟨.hbm, 131, rfl⟩
abbrev main_call3_v15 : Ref sig .tc := ⟨.hbm, 132, rfl⟩
abbrev main_v23 : Ref sig .tc := ⟨.hbm, 133, rfl⟩
abbrev main_v24 : Ref sig .tc := ⟨.hbm, 134, rfl⟩
abbrev main_v25 : Ref sig .tc := ⟨.hbm, 135, rfl⟩
abbrev main_v26 : Ref sig .tc := ⟨.hbm, 136, rfl⟩
abbrev main_v27 : Ref sig .tc := ⟨.hbm, 137, rfl⟩
abbrev main_v28 : Ref sig .tc := ⟨.hbm, 138, rfl⟩
abbrev main_v29 : Ref sig .tc := ⟨.hbm, 139, rfl⟩
abbrev main_v30 : Ref sig .tc := ⟨.hbm, 140, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg3_0 : Ref sig .tc := ⟨.vmem, 21, rfl⟩
abbrev cc1_stg4_0 : Ref sig .tc := ⟨.vmem, 22, rfl⟩
abbrev cc1_stg5_0 : Ref sig .tc := ⟨.vmem, 23, rfl⟩
abbrev cc1_stg6_0 : Ref sig .tc := ⟨.vmem, 24, rfl⟩
abbrev cc1_stg7_0 : Ref sig .tc := ⟨.vmem, 25, rfl⟩
abbrev cc1_stg8_0 : Ref sig .tc := ⟨.vmem, 26, rfl⟩
abbrev cc1_stg9_0 : Ref sig .tc := ⟨.vmem, 27, rfl⟩
abbrev cc1_stg9_1 : Ref sig .tc := ⟨.vmem, 28, rfl⟩
abbrev cc2_stg0_0 : Ref sig .tc := ⟨.vmem, 29, rfl⟩
abbrev cc2_stg0_1 : Ref sig .tc := ⟨.vmem, 30, rfl⟩
abbrev cc2_stg1_0 : Ref sig .tc := ⟨.vmem, 31, rfl⟩
abbrev cc2_stg1_1 : Ref sig .tc := ⟨.vmem, 32, rfl⟩
abbrev cc2_stg2_0 : Ref sig .tc := ⟨.vmem, 33, rfl⟩
abbrev cc2_stg2_1 : Ref sig .tc := ⟨.vmem, 34, rfl⟩
abbrev cc2_stg3_0 : Ref sig .tc := ⟨.vmem, 35, rfl⟩
abbrev cc2_stg4_0 : Ref sig .tc := ⟨.vmem, 36, rfl⟩
abbrev cc2_stg5_0 : Ref sig .tc := ⟨.vmem, 37, rfl⟩
abbrev cc2_stg6_0 : Ref sig .tc := ⟨.vmem, 38, rfl⟩
abbrev cc2_stg7_0 : Ref sig .tc := ⟨.vmem, 39, rfl⟩
abbrev cc2_stg8_0 : Ref sig .tc := ⟨.vmem, 40, rfl⟩
abbrev cc2_stg9_0 : Ref sig .tc := ⟨.vmem, 41, rfl⟩
abbrev cc2_stg10_0 : Ref sig .tc := ⟨.vmem, 42, rfl⟩
abbrev cc2_stg11_0 : Ref sig .tc := ⟨.vmem, 43, rfl⟩
abbrev cc2_stg11_1 : Ref sig .tc := ⟨.vmem, 44, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem3_0 : DmaSem sig := 21
abbrev cc1_sem4_0 : DmaSem sig := 22
abbrev cc1_sem5_0 : DmaSem sig := 23
abbrev cc1_sem6_0 : DmaSem sig := 24
abbrev cc1_sem7_0 : DmaSem sig := 25
abbrev cc1_sem8_0 : DmaSem sig := 26
abbrev cc1_sem9_0 : DmaSem sig := 27
abbrev cc1_sem9_1 : DmaSem sig := 28
abbrev cc2_sem0_0 : DmaSem sig := 29
abbrev cc2_sem0_1 : DmaSem sig := 30
abbrev cc2_sem1_0 : DmaSem sig := 31
abbrev cc2_sem1_1 : DmaSem sig := 32
abbrev cc2_sem2_0 : DmaSem sig := 33
abbrev cc2_sem2_1 : DmaSem sig := 34
abbrev cc2_sem3_0 : DmaSem sig := 35
abbrev cc2_sem4_0 : DmaSem sig := 36
abbrev cc2_sem5_0 : DmaSem sig := 37
abbrev cc2_sem6_0 : DmaSem sig := 38
abbrev cc2_sem7_0 : DmaSem sig := 39
abbrev cc2_sem8_0 : DmaSem sig := 40
abbrev cc2_sem9_0 : DmaSem sig := 41
abbrev cc2_sem10_0 : DmaSem sig := 42
abbrev cc2_sem11_0 : DmaSem sig := 43
abbrev cc2_sem11_1 : DmaSem sig := 44

abbrev nD : Nat := 1
abbrev τ : Topo := Topo.v7x

variable {F : FTy → Type} [FloatOps F]

abbrev grid0 : Pipeline.Grid := ⟨1, ![400], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3x40 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x40 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x40 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S40 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S40x40 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S40 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S40x4 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S5000x4 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x3 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x4 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S3x40 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S4x40 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S40 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S40x40 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S40 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S40x3 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S3 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S2000x3 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![400], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_11 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x3 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x3 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x4 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S3x40 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S3x40 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S4x40 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S40 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S40x40 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S40 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S40x1 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S1 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 2 → Memref sig .tc .vmem S5000x1 .f32 := fun | 0 => Memref.whole cc2_stg11_0 | 1 => Memref.whole cc2_stg11_1 | ⟨_ + 2, h⟩ => absurd h (Nat.not_lt.2 (Nat.le_add_left _ _))
abbrev sem2_11 : Fin 2 → DmaSem sig := fun | 0 => cc2_sem11_0 | 1 => cc2_sem11_1 | ⟨_ + 2, h⟩ => absurd h (Nat.not_lt.2 (Nat.le_add_left _ _))
abbrev reads2_11 : Fin grid2.rank → Bool := ![true]

class Facts₀ : Prop where
  slices_S2x2000000_S1x2000000_0_0 : S2x2000000.Slices ![0, 0] S1x2000000
  shapeCasts_S1x2000000_S2000000 : S1x2000000.ShapeCasts S2000000
  slices_S2x2000000_S1x2000000_1_0 : S2x2000000.Slices ![1, 0] S1x2000000
  bcast_S_S2000000 : S_.BroadcastsInDim S2000000 (![] : Fin 0 → Fin S2000000.rank)
  bcast_S2000000_S2000000x1_0 : S2000000.BroadcastsInDim S2000000x1 (![0] : Fin 1 → Fin S2000000x1.rank)
  bcast_S_S2000000x1 : S_.BroadcastsInDim S2000000x1 (![] : Fin 0 → Fin S2000000x1.rank)
  bcast_S1_S1x1_1 : S1.BroadcastsInDim S1x1 (![1] : Fin 1 → Fin S1x1.rank)
  bcast_S1x1_S2000000x1_0_1 : S1x1.BroadcastsInDim S2000000x1 (![0, 1] : Fin 2 → Fin S2000000x1.rank)
  reducesTo_S2000000x1_S2000000_d1 : S2000000x1.ReducesTo [1] S2000000
  h_S_ : 0 < S_.numel
  bcast_S2000000_S2000000x3_0 : S2000000.BroadcastsInDim S2000000x3 (![0] : Fin 1 → Fin S2000000x3.rank)
  bcast_S_S2000000x3 : S_.BroadcastsInDim S2000000x3 (![] : Fin 0 → Fin S2000000x3.rank)
  transposes_S40x10_S10x40_1_0 : S40x10.Transposes [1, 0] S10x40
  slices_S10x40_S3x40_0_0 : S10x40.Slices ![0, 0] S3x40
  slices_S10x40_S3x40_3_0 : S10x40.Slices ![3, 0] S3x40
  slices_S10x40_S4x40_6_0 : S10x40.Slices ![6, 0] S4x40
  transposes_S40x40_S40x40_1_0 : S40x40.Transposes [1, 0] S40x40
  transposes_S4x40_S40x4_1_0 : S4x40.Transposes [1, 0] S40x4
  inb_S5000x3_S5000x3_0_0 : ∀ a, (![0, 0] : Fin 2 → Nat) a + S5000x3.size a ≤ S5000x3.size a
  h_S5000x3 : 0 < S5000x3.numel
  shapeCasts_S5000x3_S5000x3 : S5000x3.ShapeCasts S5000x3
  bitsLt_bf16_f32 : FTy.bits .bf16 < FTy.bits .f32
  inb_S5000x4_S5000x4_0_0 : ∀ a, (![0, 0] : Fin 2 → Nat) a + S5000x4.size a ≤ S5000x4.size a
  h_S5000x4 : 0 < S5000x4.numel
  inb_S3x40_S3x40_0_0 : ∀ a, (![0, 0] : Fin 2 → Nat) a + S3x40.size a ≤ S3x40.size a
  h_S3x40 : 0 < S3x40.numel
  shapeCasts_S3x40_S3x40 : S3x40.ShapeCasts S3x40
  inb_S4x40_S4x40_0_0 : ∀ a, (![0, 0] : Fin 2 → Nat) a + S4x40.size a ≤ S4x40.size a
  h_S4x40 : 0 < S4x40.numel
  shapeCasts_S4x40_S4x40 : S4x40.ShapeCasts S4x40
  inb_S40_S40_0 : ∀ a, (![0] : Fin 1 → Nat) a + S40.size a ≤ S40.size a
  h_S40 : 0 < S40.numel
  shapeCasts_S40_S1x40 : S40.ShapeCasts S1x40
  broadcasts_S1x40_S5000x40 : S1x40.Broadcasts S5000x40
  inb_S40x40_S40x40_0_0 : ∀ a, (![0, 0] : Fin 2 → Nat) a + S40x40.size a ≤ S40x40.size a
  h_S40x40 : 0 < S40x40.numel
  shapeCasts_S40x40_S40x40 : S40x40.ShapeCasts S40x40
  inb_S40x4_S40x4_0_0 : ∀ a, (![0, 0] : Fin 2 → Nat) a + S40x4.size a ≤ S40x4.size a
  h_S40x4 : 0 < S40x4.numel
  shapeCasts_S40x4_S40x4 : S40x4.ShapeCasts S40x4
  inb_S4_S4_0 : ∀ a, (![0] : Fin 1 → Nat) a + S4.size a ≤ S4.size a
  h_S4 : 0 < S4.numel
  shapeCasts_S4_S1x4 : S4.ShapeCasts S1x4
  broadcasts_S1x4_S5000x4 : S1x4.Broadcasts S5000x4
  bcast_S_S100000x4 : S_.BroadcastsInDim S100000x4 (![] : Fin 0 → Fin S100000x4.rank)
  transposes_S40x7_S7x40_1_0 : S40x7.Transposes [1, 0] S7x40
  slices_S7x40_S3x40_0_0 : S7x40.Slices ![0, 0] S3x40
  slices_S7x40_S4x40_3_0 : S7x40.Slices ![3, 0] S4x40
  transposes_S3x40_S40x3_1_0 : S3x40.Transposes [1, 0] S40x3
  inb_S2000x3_S2000x3_0_0 : ∀ a, (![0, 0] : Fin 2 → Nat) a + S2000x3.size a ≤ S2000x3.size a
  h_S2000x3 : 0 < S2000x3.numel
  inb_S2000x4_S2000x4_0_0 : ∀ a, (![0, 0] : Fin 2 → Nat) a + S2000x4.size a ≤ S2000x4.size a
  h_S2000x4 : 0 < S2000x4.numel
  shapeCasts_S2000x4_S2000x4 : S2000x4.ShapeCasts S2000x4
  broadcasts_S1x40_S2000x40 : S1x40.Broadcasts S2000x40
  inb_S40x3_S40x3_0_0 : ∀ a, (![0, 0] : Fin 2 → Nat) a + S40x3.size a ≤ S40x3.size a
  h_S40x3 : 0 < S40x3.numel
  shapeCasts_S40x3_S40x3 : S40x3.ShapeCasts S40x3
  inb_S3_S3_0 : ∀ a, (![0] : Fin 1 → Nat) a + S3.size a ≤ S3.size a
  h_S3 : 0 < S3.numel
  shapeCasts_S3_S1x3 : S3.ShapeCasts S1x3
  broadcasts_S1x3_S2000x3 : S1x3.Broadcasts S2000x3
  transposes_S1x40_S40x1_1_0 : S1x40.Transposes [1, 0] S40x1
  shapeCasts_S5000x4_S5000x4 : S5000x4.ShapeCasts S5000x4
  inb_S40x1_S40x1_0_0 : ∀ a, (![0, 0] : Fin 2 → Nat) a + S40x1.size a ≤ S40x1.size a
  h_S40x1 : 0 < S40x1.numel
  shapeCasts_S40x1_S40x1 : S40x1.ShapeCasts S40x1
  inb_S1_S1_0 : ∀ a, (![0] : Fin 1 → Nat) a + S1.size a ≤ S1.size a
  h_S1 : 0 < S1.numel
  shapeCasts_S1_S1x1 : S1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  gather_S100000x3_S2000000x1_S2000000x3_1_0_n_n_0_1_13_wf : GatherDims.WF S100000x3 S2000000x1 S2000000x3 [1] [0] [] [0] [] 1 ![1, 3]
  dot_S5000x3_S3x40_S5000x40_1_0_0_1_n_n_wf : DotDims.WF S5000x3 S3x40 S5000x40 [1] [0] [0] [1] [] []
  dot_S5000x4_S4x40_S5000x40_1_0_0_1_n_n_wf : DotDims.WF S5000x4 S4x40 S5000x40 [1] [0] [0] [1] [] []
  dot_S5000x40_S40x40_S5000x40_1_0_0_1_n_n_wf : DotDims.WF S5000x40 S40x40 S5000x40 [1] [0] [0] [1] [] []
  dot_S5000x40_S40x4_S5000x4_1_0_0_1_n_n_wf : DotDims.WF S5000x40 S40x4 S5000x4 [1] [0] [0] [1] [] []
  scatter_S100000x4_S2000000x1_S2000000x4_1_0_0_1_wf : ScatterDims.WF S100000x4 S2000000x1 S2000000x4 [1] [0] [0] 1
  dot_S2000x3_S3x40_S2000x40_1_0_0_1_n_n_wf : DotDims.WF S2000x3 S3x40 S2000x40 [1] [0] [0] [1] [] []
  dot_S2000x4_S4x40_S2000x40_1_0_0_1_n_n_wf : DotDims.WF S2000x4 S4x40 S2000x40 [1] [0] [0] [1] [] []
  dot_S2000x40_S40x40_S2000x40_1_0_0_1_n_n_wf : DotDims.WF S2000x40 S40x40 S2000x40 [1] [0] [0] [1] [] []
  dot_S2000x40_S40x3_S2000x3_1_0_0_1_n_n_wf : DotDims.WF S2000x40 S40x3 S2000x3 [1] [0] [0] [1] [] []
  dot_S5000x40_S40x1_S5000x1_1_0_0_1_n_n_wf : DotDims.WF S5000x40 S40x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x3.size a ≤ S2000000x3.size a
  hwx0_0 : ∀ i : grid0.Coords, EltTy.bits .f32 = 32 ∨ (Rect.block (s := S2000000x3) S5000x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x3.size a ≤ S2000000x3.size a
  hwx0_1 : ∀ i : grid0.Coords, EltTy.bits .f32 = 32 ∨ (Rect.block (s := S2000000x3) S5000x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x4.size a ≤ S2000000x4.size a
  hwx0_2 : ∀ i : grid0.Coords, EltTy.bits .f32 = 32 ∨ (Rect.block (s := S2000000x4) S5000x4.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3x40.size a ≤ S3x40.size a
  hwx0_3 : ∀ i : grid0.Coords, EltTy.bits .f32 = 32 ∨ (Rect.block (s := S3x40) S3x40.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S3x40.size a ≤ S3x40.size a
  hwx0_4 : ∀ i : grid0.Coords, EltTy.bits .f32 = 32 ∨ (Rect.block (s := S3x40) S3x40.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4x40.size a ≤ S4x40.size a
  hwx0_5 : ∀ i : grid0.Coords, EltTy.bits .f32 = 32 ∨ (Rect.block (s := S4x40) S4x40.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S40.size a ≤ S40.size a
  hwx0_6 : ∀ i : grid0.Coords, EltTy.bits .f32 = 32 ∨ (Rect.block (s := S40) S40.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S40x40.size a ≤ S40x40.size a
  hwx0_7 : ∀ i : grid0.Coords, EltTy.bits .f32 = 32 ∨ (Rect.block (s := S40x40) S40x40.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S40.size a ≤ S40.size a
  hwx0_8 : ∀ i : grid0.Coords, EltTy.bits .f32 = 32 ∨ (Rect.block (s := S40) S40.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S40x4.size a ≤ S40x4.size a
  hwx0_9 : ∀ i : grid0.Coords, EltTy.bits .f32 = 32 ∨ (Rect.block (s := S40x4) S40x4.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S4.size a ≤ S4.size a
  hwx0_10 : ∀ i : grid0.Coords, EltTy.bits .f32 = 32 ∨ (Rect.block (s := S4) S4.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S5000x4.size a ≤ S2000000x4.size a
  hwx0_11 : ∀ i : grid0.Coords, EltTy.bits .f32 = 32 ∨ (Rect.block (s := S2000000x4) S5000x4.size (cc0_transform_11 i) (hinb0_11 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x3.size a ≤ S100000x3.size a
  hwx1_0 : ∀ i : grid1.Coords, EltTy.bits .f32 = 32 ∨ (Rect.block (s := S100000x3) S2000x3.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x4.size a ≤ S100000x4.size a
  hwx1_1 : ∀ i : grid1.Coords, EltTy.bits .f32 = 32 ∨ (Rect.block (s := S100000x4) S2000x4.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S3x40.size a ≤ S3x40.size a
  hwx1_2 : ∀ i : grid1.Coords, EltTy.bits .f32 = 32 ∨ (Rect.block (s := S3x40) S3x40.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S4x40.size a ≤ S4x40.size a
  hwx1_3 : ∀ i : grid1.Coords, EltTy.bits .f32 = 32 ∨ (Rect.block (s := S4x40) S4x40.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S40.size a ≤ S40.size a
  hwx1_4 : ∀ i : grid1.Coords, EltTy.bits .f32 = 32 ∨ (Rect.block (s := S40) S40.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S40x40.size a ≤ S40x40.size a
  hwx1_5 : ∀ i : grid1.Coords, EltTy.bits .f32 = 32 ∨ (Rect.block (s := S40x40) S40x40.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S40.size a ≤ S40.size a
  hwx1_6 : ∀ i : grid1.Coords, EltTy.bits .f32 = 32 ∨ (Rect.block (s := S40) S40.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S40x3.size a ≤ S40x3.size a
  hwx1_7 : ∀ i : grid1.Coords, EltTy.bits .f32 = 32 ∨ (Rect.block (s := S40x3) S40x3.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S3.size a ≤ S3.size a
  hwx1_8 : ∀ i : grid1.Coords, EltTy.bits .f32 = 32 ∨ (Rect.block (s := S3) S3.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S2000x3.size a ≤ S100000x3.size a
  hwx1_9 : ∀ i : grid1.Coords, EltTy.bits .f32 = 32 ∨ (Rect.block (s := S100000x3) S2000x3.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x3.size a ≤ S2000000x3.size a
  hwx2_0 : ∀ i : grid2.Coords, EltTy.bits .f32 = 32 ∨ (Rect.block (s := S2000000x3) S5000x3.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x3.size a ≤ S2000000x3.size a
  hwx2_1 : ∀ i : grid2.Coords, EltTy.bits .f32 = 32 ∨ (Rect.block (s := S2000000x3) S5000x3.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x4.size a ≤ S2000000x4.size a
  hwx2_2 : ∀ i : grid2.Coords, EltTy.bits .f32 = 32 ∨ (Rect.block (s := S2000000x4) S5000x4.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S3x40.size a ≤ S3x40.size a
  hwx2_3 : ∀ i : grid2.Coords, EltTy.bits .f32 = 32 ∨ (Rect.block (s := S3x40) S3x40.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S3x40.size a ≤ S3x40.size a
  hwx2_4 : ∀ i : grid2.Coords, EltTy.bits .f32 = 32 ∨ (Rect.block (s := S3x40) S3x40.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S4x40.size a ≤ S4x40.size a
  hwx2_5 : ∀ i : grid2.Coords, EltTy.bits .f32 = 32 ∨ (Rect.block (s := S4x40) S4x40.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S40.size a ≤ S40.size a
  hwx2_6 : ∀ i : grid2.Coords, EltTy.bits .f32 = 32 ∨ (Rect.block (s := S40) S40.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S40x40.size a ≤ S40x40.size a
  hwx2_7 : ∀ i : grid2.Coords, EltTy.bits .f32 = 32 ∨ (Rect.block (s := S40x40) S40x40.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S40.size a ≤ S40.size a
  hwx2_8 : ∀ i : grid2.Coords, EltTy.bits .f32 = 32 ∨ (Rect.block (s := S40) S40.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S40x1.size a ≤ S40x1.size a
  hwx2_9 : ∀ i : grid2.Coords, EltTy.bits .f32 = 32 ∨ (Rect.block (s := S40x1) S40x1.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S1.size a ≤ S1.size a
  hwx2_10 : ∀ i : grid2.Coords, EltTy.bits .f32 = 32 ∨ (Rect.block (s := S1) S1.size (cc2_transform_10 i) (hinb2_10 i)).WholeWords (EltTy.packing .f32)
  hstage2_11 : ∀ j, (stage2_11 j).IsWhole
  nbuf2_11 : grid2.bufCount reads2_11 false = 2
  hreads2_11 : ∀ i i' : grid2.Coords, (∀ a, reads2_11 a = true → i a = i' a) → cc2_transform_11 i = cc2_transform_11 i'
  hinb2_11 : ∀ (i : grid2.Coords) a, (cc2_transform_11 i a + 1) * S5000x1.size a ≤ S2000000x1.size a
  hwx2_11 : ∀ i : grid2.Coords, EltTy.bits .f32 = 32 ∨ (Rect.block (s := S2000000x1) S5000x1.size (cc2_transform_11 i) (hinb2_11 i)).WholeWords (EltTy.packing .f32)

variable [Facts₀]

def gather_S100000x3_S2000000x1_S2000000x3_1_0_n_n_0_1_13 : GatherDims S100000x3 S2000000x1 S2000000x3 where
  offsetDims := [1]
  collapsedSliceDims := [0]
  operandBatchingDims := []
  startIndicesBatchingDims := []
  startIndexMap := [0]
  indexVectorDim := 1
  sliceSizes := ![1, 3]
  wf := gather_S100000x3_S2000000x1_S2000000x3_1_0_n_n_0_1_13_wf
def dot_S5000x3_S3x40_S5000x40_1_0_0_1_n_n : DotDims S5000x3 S3x40 S5000x40 where
  lhsContracting := [1]
  rhsContracting := [0]
  lhsNonContracting := [0]
  rhsNonContracting := [1]
  lhsBatch := []
  rhsBatch := []
  wf := dot_S5000x3_S3x40_S5000x40_1_0_0_1_n_n_wf
def dot_S5000x4_S4x40_S5000x40_1_0_0_1_n_n : DotDims S5000x4 S4x40 S5000x40 where
  lhsContracting := [1]
  rhsContracting := [0]
  lhsNonContracting := [0]
  rhsNonContracting := [1]
  lhsBatch := []
  rhsBatch := []
  wf := dot_S5000x4_S4x40_S5000x40_1_0_0_1_n_n_wf
def dot_S5000x40_S40x40_S5000x40_1_0_0_1_n_n : DotDims S5000x40 S40x40 S5000x40 where
  lhsContracting := [1]
  rhsContracting := [0]
  lhsNonContracting := [0]
  rhsNonContracting := [1]
  lhsBatch := []
  rhsBatch := []
  wf := dot_S5000x40_S40x40_S5000x40_1_0_0_1_n_n_wf
def dot_S5000x40_S40x4_S5000x4_1_0_0_1_n_n : DotDims S5000x40 S40x4 S5000x4 where
  lhsContracting := [1]
  rhsContracting := [0]
  lhsNonContracting := [0]
  rhsNonContracting := [1]
  lhsBatch := []
  rhsBatch := []
  wf := dot_S5000x40_S40x4_S5000x4_1_0_0_1_n_n_wf
def scatter_S100000x4_S2000000x1_S2000000x4_1_0_0_1 : ScatterDims S100000x4 S2000000x1 S2000000x4 where
  updateWindowDims := [1]
  insertedWindowDims := [0]
  scatterDimsToOperandDims := [0]
  indexVectorDim := 1
  wf := scatter_S100000x4_S2000000x1_S2000000x4_1_0_0_1_wf
def dot_S2000x3_S3x40_S2000x40_1_0_0_1_n_n : DotDims S2000x3 S3x40 S2000x40 where
  lhsContracting := [1]
  rhsContracting := [0]
  lhsNonContracting := [0]
  rhsNonContracting := [1]
  lhsBatch := []
  rhsBatch := []
  wf := dot_S2000x3_S3x40_S2000x40_1_0_0_1_n_n_wf
def dot_S2000x4_S4x40_S2000x40_1_0_0_1_n_n : DotDims S2000x4 S4x40 S2000x40 where
  lhsContracting := [1]
  rhsContracting := [0]
  lhsNonContracting := [0]
  rhsNonContracting := [1]
  lhsBatch := []
  rhsBatch := []
  wf := dot_S2000x4_S4x40_S2000x40_1_0_0_1_n_n_wf
def dot_S2000x40_S40x40_S2000x40_1_0_0_1_n_n : DotDims S2000x40 S40x40 S2000x40 where
  lhsContracting := [1]
  rhsContracting := [0]
  lhsNonContracting := [0]
  rhsNonContracting := [1]
  lhsBatch := []
  rhsBatch := []
  wf := dot_S2000x40_S40x40_S2000x40_1_0_0_1_n_n_wf
def dot_S2000x40_S40x3_S2000x3_1_0_0_1_n_n : DotDims S2000x40 S40x3 S2000x3 where
  lhsContracting := [1]
  rhsContracting := [0]
  lhsNonContracting := [0]
  rhsNonContracting := [1]
  lhsBatch := []
  rhsBatch := []
  wf := dot_S2000x40_S40x3_S2000x3_1_0_0_1_n_n_wf
def dot_S5000x40_S40x1_S5000x1_1_0_0_1_n_n : DotDims S5000x40 S40x1 S5000x1 where
  lhsContracting := [1]
  rhsContracting := [0]
  lhsNonContracting := [0]
  rhsNonContracting := [1]
  lhsBatch := []
  rhsBatch := []
  wf := dot_S5000x40_S40x1_S5000x1_1_0_0_1_n_n_wf

abbrev win0_0 : Pipeline.Window sig grid0 :=
  Pipeline.Window.ofSpec (Memref.whole main_v4) S5000x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S5000x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S5000x4.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S3x40.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S3x40.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S4x40.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg4) S40.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v10) S40x40.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg6) S40.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v11) S40x4.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg8) S4.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v12) S5000x4.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev win1_0 : Pipeline.Window sig grid1 :=
  Pipeline.Window.ofSpec (Memref.whole main_arg0) S2000x3.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S2000x4.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v17) S3x40.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v18) S4x40.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg10) S40.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v19) S40x40.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg12) S40.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v20) S40x3.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg14) S3.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v21) S2000x3.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v22) S5000x3.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v23) S5000x3.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v12) S5000x4.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v25) S3x40.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v26) S3x40.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v27) S4x40.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg16) S40.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v28) S40x40.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_arg18) S40.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v29) S40x1.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_arg20) S1.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_v30) S5000x1.size cc2_transform_11 reads2_11 true false 2 stage2_11 sem2_11
    hrank2 hreads2_11 hinb2_11 nbuf2_11 (Memref.isWhole_whole _) hwx2_11 hstage2_11

abbrev win2 : Fin 12 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | ⟨_ + 12, h⟩ => absurd h (Nat.not_lt.2 (Nat.le_add_left _ _))
abbrev spec2 : Fin 12 → Pipeline.WinSpec sig grid2.rank := fun w => (win2 w).toWinSpec

class Facts : Prop extends Facts₀ where

variable [Facts]
-- ==== ReferenceIdeal.lean ====
abbrev S100000x3 : Shape := ⟨2, ![100000, 3]⟩
abbrev S2x2000000 : Shape := ⟨2, ![2, 2000000]⟩
abbrev S2000000x4 : Shape := ⟨2, ![2000000, 4]⟩
abbrev S40x10 : Shape := ⟨2, ![40, 10]⟩
abbrev S40 : Shape := ⟨1, ![40]⟩
abbrev S40x40 : Shape := ⟨2, ![40, 40]⟩
abbrev S4x40 : Shape := ⟨2, ![4, 40]⟩
abbrev S4 : Shape := ⟨1, ![4]⟩
abbrev S40x7 : Shape := ⟨2, ![40, 7]⟩
abbrev S3x40 : Shape := ⟨2, ![3, 40]⟩
abbrev S3 : Shape := ⟨1, ![3]⟩
abbrev S1x40 : Shape := ⟨2, ![1, 40]⟩
abbrev S1 : Shape := ⟨1, ![1]⟩
abbrev S1x2000000 : Shape := ⟨2, ![1, 2000000]⟩
abbrev S2000000 : Shape := ⟨1, ![2000000]⟩
abbrev S_ : Shape := ⟨0, ![]⟩
abbrev S2000000x1 : Shape := ⟨2, ![2000000, 1]⟩
abbrev S2000000x3 : Shape := ⟨2, ![2000000, 3]⟩
abbrev S2000000x10 : Shape := ⟨2, ![2000000, 10]⟩
abbrev S10x40 : Shape := ⟨2, ![10, 40]⟩
abbrev S2000000x40 : Shape := ⟨2, ![2000000, 40]⟩
abbrev S40x4 : Shape := ⟨2, ![40, 4]⟩
abbrev S1x4 : Shape := ⟨2, ![1, 4]⟩
abbrev S100000x4 : Shape := ⟨2, ![100000, 4]⟩
abbrev S100000x7 : Shape := ⟨2, ![100000, 7]⟩
abbrev S7x40 : Shape := ⟨2, ![7, 40]⟩
abbrev S100000x40 : Shape := ⟨2, ![100000, 40]⟩
abbrev S40x3 : Shape := ⟨2, ![40, 3]⟩
abbrev S1x3 : Shape := ⟨2, ![1, 3]⟩
abbrev S40x1 : Shape := ⟨2, ![40, 1]⟩
abbrev S1x1 : Shape := ⟨2, ![1, 1]⟩

abbrev nBuf : Space → Nat
  | .hbm => 139
  | .vmem => 0
  | .smem => 0
  | _ => 0

abbrev hbmTy0_0 (i : Nat) : BufTy := match i % 128 with
  | 0 => ⟨S100000x3, .f32⟩
  | 1 => ⟨S2x2000000, .i32⟩
  | 2 => ⟨S2000000x4, .f32⟩
  | 3 => ⟨S40x10, .f32⟩
  | 4 => ⟨S40, .f32⟩
  | 5 => ⟨S40x40, .f32⟩
  | 6 => ⟨S40, .f32⟩
  | 7 => ⟨S4x40, .f32⟩
  | 8 => ⟨S4, .f32⟩
  | 9 => ⟨S40x7, .f32⟩
  | 10 => ⟨S40, .f32⟩
  | 11 => ⟨S40x40, .f32⟩
  | 12 => ⟨S40, .f32⟩
  | 13 => ⟨S3x40, .f32⟩
  | 14 => ⟨S3, .f32⟩
  | 15 => ⟨S40x10, .f32⟩
  | 16 => ⟨S40, .f32⟩
  | 17 => ⟨S40x40, .f32⟩
  | 18 => ⟨S40, .f32⟩
  | 19 => ⟨S1x40, .f32⟩
  | 20 => ⟨S1, .f32⟩
  | 21 => ⟨S1x2000000, .i32⟩
  | 22 => ⟨S2000000, .i32⟩
  | 23 => ⟨S1x2000000, .i32⟩
  | 24 => ⟨S2000000, .i32⟩
  | 25 => ⟨S_, .i32⟩
  | 26 => ⟨S2000000, .i32⟩
  | 27 => ⟨S2000000, .i1⟩
  | 28 => ⟨S_, .i32⟩
  | 29 => ⟨S2000000, .i32⟩
  | 30 => ⟨S2000000, .i32⟩
  | 31 => ⟨S2000000, .i32⟩
  | 32 => ⟨S2000000x1, .i32⟩
  | 33 => ⟨S2000000x3, .f32⟩
  | 34 => ⟨S_, .i32⟩
  | 35 => ⟨S2000000, .i32⟩
  | 36 => ⟨S2000000, .i1⟩
  | 37 => ⟨S_, .i32⟩
  | 38 => ⟨S2000000, .i32⟩
  | 39 => ⟨S2000000, .i32⟩
  | 40 => ⟨S2000000, .i32⟩
  | 41 => ⟨S2000000x1, .i32⟩
  | 42 => ⟨S2000000x3, .f32⟩
  | 43 => ⟨S2000000x10, .f32⟩
  | 44 => ⟨S10x40, .f32⟩
  | 45 => ⟨S2000000x40, .f32⟩
  | 46 => ⟨S1x40, .f32⟩
  | 47 => ⟨S2000000x40, .f32⟩
  | 48 => ⟨S2000000x40, .f32⟩
  | 49 => ⟨S_, .f32⟩
  | 50 => ⟨S2000000x40, .f32⟩
  | 51 => ⟨S2000000x40, .f32⟩
  | 52 => ⟨S40x40, .f32⟩
  | 53 => ⟨S2000000x40, .f32⟩
  | 54 => ⟨S1x40, .f32⟩
  | 55 => ⟨S2000000x40, .f32⟩
  | 56 => ⟨S2000000x40, .f32⟩
  | 57 => ⟨S_, .f32⟩
  | 58 => ⟨S2000000x40, .f32⟩
  | 59 => ⟨S2000000x40, .f32⟩
  | 60 => ⟨S40x4, .f32⟩
  | 61 => ⟨S2000000x4, .f32⟩
  | 62 => ⟨S1x4, .f32⟩
  | 63 => ⟨S2000000x4, .f32⟩
  | 64 => ⟨S2000000x4, .f32⟩
  | 65 => ⟨S_, .f32⟩
  | 66 => ⟨S100000x4, .f32⟩
  | 67 => ⟨S2000000x1, .i32⟩
  | 68 => ⟨S100000x4, .f32⟩
  | 69 => ⟨S100000x7, .f32⟩
  | 70 => ⟨S7x40, .f32⟩
  | 71 => ⟨S100000x40, .f32⟩
  | 72 => ⟨S1x40, .f32⟩
  | 73 => ⟨S100000x40, .f32⟩
  | 74 => ⟨S100000x40, .f32⟩
  | 75 => ⟨S_, .f32⟩
  | 76 => ⟨S100000x40, .f32⟩
  | 77 => ⟨S100000x40, .f32⟩
  | 78 => ⟨S40x40, .f32⟩
  | 79 => ⟨S100000x40, .f32⟩
  | 80 => ⟨S1x40, .f32⟩
  | 81 => ⟨S100000x40, .f32⟩
  | 82 => ⟨S100000x40, .f32⟩
  | 83 => ⟨S_, .f32⟩
  | 84 => ⟨S100000x40, .f32⟩
  | 85 => ⟨S100000x40, .f32⟩
  | 86 => ⟨S40x3, .f32⟩
  | 87 => ⟨S100000x3, .f32⟩
  | 88 => ⟨S1x3, .f32⟩
  | 89 => ⟨S100000x3, .f32⟩
  | 90 => ⟨S100000x3, .f32⟩
  | 91 => ⟨S_, .i32⟩
  | 92 => ⟨S2000000, .i32⟩
  | 93 => ⟨S2000000, .i1⟩
  | 94 => ⟨S_, .i32⟩
  | 95 => ⟨S2000000, .i32⟩
  | 96 => ⟨S2000000, .i32⟩
  | 97 => ⟨S2000000, .i32⟩
  | 98 => ⟨S2000000x1, .i32⟩
  | 99 => ⟨S2000000x3, .f32⟩
  | 100 => ⟨S_, .i32⟩
  | 101 => ⟨S2000000, .i32⟩
  | 102 => ⟨S2000000, .i1⟩
  | 103 => ⟨S_, .i32⟩
  | 104 => ⟨S2000000, .i32⟩
  | 105 => ⟨S2000000, .i32⟩
  | 106 => ⟨S2000000, .i32⟩
  | 107 => ⟨S2000000x1, .i32⟩
  | 108 => ⟨S2000000x3, .f32⟩
  | 109 => ⟨S2000000x10, .f32⟩
  | 110 => ⟨S10x40, .f32⟩
  | 111 => ⟨S2000000x40, .f32⟩
  | 112 => ⟨S1x40, .f32⟩
  | 113 => ⟨S2000000x40, .f32⟩
  | 114 => ⟨S2000000x40, .f32⟩
  | 115 => ⟨S_, .f32⟩
  | 116 => ⟨S2000000x40, .f32⟩
  | 117 => ⟨S2000000x40, .f32⟩
  | 118 => ⟨S40x40, .f32⟩
  | 119 => ⟨S2000000x40, .f32⟩
  | 120 => ⟨S1x40, .f32⟩
  | 121 => ⟨S2000000x40, .f32⟩
  | 122 => ⟨S2000000x40, .f32⟩
  | 123 => ⟨S_, .f32⟩
  | 124 => ⟨S2000000x40, .f32⟩
  | 125 => ⟨S2000000x40, .f32⟩
  | 126 => ⟨S40x1, .f32⟩
  | 127 => ⟨S2000000x1, .f32⟩
  | _ => ⟨S100000x3, .f32⟩

abbrev hbmTy0_1 (i : Nat) : BufTy := match i % 128 with
  | 0 => ⟨S1x1, .f32⟩
  | 1 => ⟨S2000000x1, .f32⟩
  | 2 => ⟨S2000000x1, .f32⟩
  | 3 => ⟨S2000000x1, .f32⟩
  | 4 => ⟨S2000000x1, .f32⟩
  | 5 => ⟨S_, .f32⟩
  | 6 => ⟨S2000000x1, .f32⟩
  | 7 => ⟨S2000000x1, .f32⟩
  | 8 => ⟨S_, .f32⟩
  | 9 => ⟨S2000000x1, .f32⟩
  | 10 => ⟨S2000000x1, .f32⟩
  | _ => ⟨S100000x3, .f32⟩

abbrev hbmTy (i : Nat) : BufTy := match i / 128 with
  | 0 => hbmTy0_0 i
  | 1 => hbmTy0_1 i
  | _ => ⟨S100000x3, .f32⟩

abbrev bufTy : (tb : Table) → Fin (tcTables nBuf tb) → BufTy
  | .hbm, ⟨i, _⟩ => hbmTy i
  | _, _ => ⟨S100000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_c : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_c_1 : Ref sig .tc := ⟨.hbm, 34, rfl⟩
abbrev main_v11 : Ref sig .tc := ⟨.hbm, 35, rfl⟩
abbrev main_v12 : Ref sig .tc := ⟨.hbm, 36, rfl⟩
abbrev main_c_2 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_call0_cst : Ref sig .tc := ⟨.hbm, 49, rfl⟩
abbrev main_call0_v0 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_call1_cst : Ref sig .tc := ⟨.hbm, 57, rfl⟩
abbrev main_call1_v0 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_cst : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_call2_cst : Ref sig .tc := ⟨.hbm, 75, rfl⟩
abbrev main_call2_v0 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_call3_cst : Ref sig .tc := ⟨.hbm, 83, rfl⟩
abbrev main_call3_v0 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_c_3 : Ref sig .tc := ⟨.hbm, 91, rfl⟩
abbrev main_v57 : Ref sig .tc := ⟨.hbm, 92, rfl⟩
abbrev main_v58 : Ref sig .tc := ⟨.hbm, 93, rfl⟩
abbrev main_c_4 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_c_5 : Ref sig .tc := ⟨.hbm, 100, rfl⟩
abbrev main_v64 : Ref sig .tc := ⟨.hbm, 101, rfl⟩
abbrev main_v65 : Ref sig .tc := ⟨.hbm, 102, rfl⟩
abbrev main_c_6 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_call4_cst : Ref sig .tc := ⟨.hbm, 115, rfl⟩
abbrev main_call4_v0 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_call5_cst : Ref sig .tc := ⟨.hbm, 123, rfl⟩
abbrev main_call5_v0 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_cst_7 : Ref sig .tc := ⟨.hbm, 133, rfl⟩
abbrev main_v91 : Ref sig .tc := ⟨.hbm, 134, rfl⟩
abbrev main_v92 : Ref sig .tc := ⟨.hbm, 135, rfl⟩
abbrev main_cst_8 : Ref sig .tc := ⟨.hbm, 136, rfl⟩
abbrev main_v93 : Ref sig .tc := ⟨.hbm, 137, rfl⟩
abbrev main_v94 : Ref sig .tc := ⟨.hbm, 138, rfl⟩

abbrev nD : Nat := 1
abbrev τ : Topo := Topo.v7x

variable {F : FTy → Type} [FloatOps F]

class Facts₀ : Prop where
  slices_S2x2000000_S1x2000000_0_0 : S2x2000000.Slices ![0, 0] S1x2000000
  shapeCasts_S1x2000000_S2000000 : S1x2000000.ShapeCasts S2000000
  slices_S2x2000000_S1x2000000_1_0 : S2x2000000.Slices ![1, 0] S1x2000000
  bcast_S_S2000000 : S_.BroadcastsInDim S2000000 (![] : Fin 0 → Fin S2000000.rank)
  bcast_S2000000_S2000000x1_0 : S2000000.BroadcastsInDim S2000000x1 (![0] : Fin 1 → Fin S2000000x1.rank)
  concatenates_S2000000x3_S2000000x3_S2000000x4_S2000000x10_d1 : Shape.Concatenates [S2000000x3, S2000000x3, S2000000x4] S2000000x10 1
  transposes_S40x10_S10x40_1_0 : S40x10.Transposes [1, 0] S10x40
  bcast_S40_S1x40_1 : S40.BroadcastsInDim S1x40 (![1] : Fin 1 → Fin S1x40.rank)
  bcast_S1x40_S2000000x40_0_1 : S1x40.BroadcastsInDim S2000000x40 (![0, 1] : Fin 2 → Fin S2000000x40.rank)
  bcast_S_S2000000x40 : S_.BroadcastsInDim S2000000x40 (![] : Fin 0 → Fin S2000000x40.rank)
  transposes_S40x40_S40x40_1_0 : S40x40.Transposes [1, 0] S40x40
  transposes_S4x40_S40x4_1_0 : S4x40.Transposes [1, 0] S40x4
  bcast_S4_S1x4_1 : S4.BroadcastsInDim S1x4 (![1] : Fin 1 → Fin S1x4.rank)
  bcast_S1x4_S2000000x4_0_1 : S1x4.BroadcastsInDim S2000000x4 (![0, 1] : Fin 2 → Fin S2000000x4.rank)
  bcast_S_S100000x4 : S_.BroadcastsInDim S100000x4 (![] : Fin 0 → Fin S100000x4.rank)
  concatenates_S100000x3_S100000x4_S100000x7_d1 : Shape.Concatenates [S100000x3, S100000x4] S100000x7 1
  transposes_S40x7_S7x40_1_0 : S40x7.Transposes [1, 0] S7x40
  bcast_S1x40_S100000x40_0_1 : S1x40.BroadcastsInDim S100000x40 (![0, 1] : Fin 2 → Fin S100000x40.rank)
  bcast_S_S100000x40 : S_.BroadcastsInDim S100000x40 (![] : Fin 0 → Fin S100000x40.rank)
  transposes_S3x40_S40x3_1_0 : S3x40.Transposes [1, 0] S40x3
  bcast_S3_S1x3_1 : S3.BroadcastsInDim S1x3 (![1] : Fin 1 → Fin S1x3.rank)
  bcast_S1x3_S100000x3_0_1 : S1x3.BroadcastsInDim S100000x3 (![0, 1] : Fin 2 → Fin S100000x3.rank)
  transposes_S1x40_S40x1_1_0 : S1x40.Transposes [1, 0] S40x1
  bcast_S1_S1x1_1 : S1.BroadcastsInDim S1x1 (![1] : Fin 1 → Fin S1x1.rank)
  bcast_S1x1_S2000000x1_0_1 : S1x1.BroadcastsInDim S2000000x1 (![0, 1] : Fin 2 → Fin S2000000x1.rank)
  bcast_S_S2000000x1 : S_.BroadcastsInDim S2000000x1 (![] : Fin 0 → Fin S2000000x1.rank)
  gather_S100000x3_S2000000x1_S2000000x3_1_0_n_n_0_1_13_wf : GatherDims.WF S100000x3 S2000000x1 S2000000x3 [1] [0] [] [0] [] 1 ![1, 3]
  dot_S2000000x10_S10x40_S2000000x40_1_0_0_1_n_n_wf : DotDims.WF S2000000x10 S10x40 S2000000x40 [1] [0] [0] [1] [] []
  dot_S2000000x40_S40x40_S2000000x40_1_0_0_1_n_n_wf : DotDims.WF S2000000x40 S40x40 S2000000x40 [1] [0] [0] [1] [] []
  dot_S2000000x40_S40x4_S2000000x4_1_0_0_1_n_n_wf : DotDims.WF S2000000x40 S40x4 S2000000x4 [1] [0] [0] [1] [] []
  scatter_S100000x4_S2000000x1_S2000000x4_1_0_0_1_wf : ScatterDims.WF S100000x4 S2000000x1 S2000000x4 [1] [0] [0] 1
  dot_S100000x7_S7x40_S100000x40_1_0_0_1_n_n_wf : DotDims.WF S100000x7 S7x40 S100000x40 [1] [0] [0] [1] [] []
  dot_S100000x40_S40x40_S100000x40_1_0_0_1_n_n_wf : DotDims.WF S100000x40 S40x40 S100000x40 [1] [0] [0] [1] [] []
  dot_S100000x40_S40x3_S100000x3_1_0_0_1_n_n_wf : DotDims.WF S100000x40 S40x3 S100000x3 [1] [0] [0] [1] [] []
  dot_S2000000x40_S40x1_S2000000x1_1_0_0_1_n_n_wf : DotDims.WF S2000000x40 S40x1 S2000000x1 [1] [0] [0] [1] [] []

variable [Facts₀]

def gather_S100000x3_S2000000x1_S2000000x3_1_0_n_n_0_1_13 : GatherDims S100000x3 S2000000x1 S2000000x3 where
  offsetDims := [1]
  collapsedSliceDims := [0]
  operandBatchingDims := []
  startIndicesBatchingDims := []
  startIndexMap := [0]
  indexVectorDim := 1
  sliceSizes := ![1, 3]
  wf := gather_S100000x3_S2000000x1_S2000000x3_1_0_n_n_0_1_13_wf
def dot_S2000000x10_S10x40_S2000000x40_1_0_0_1_n_n : DotDims S2000000x10 S10x40 S2000000x40 where
  lhsContracting := [1]
  rhsContracting := [0]
  lhsNonContracting := [0]
  rhsNonContracting := [1]
  lhsBatch := []
  rhsBatch := []
  wf := dot_S2000000x10_S10x40_S2000000x40_1_0_0_1_n_n_wf
def dot_S2000000x40_S40x40_S2000000x40_1_0_0_1_n_n : DotDims S2000000x40 S40x40 S2000000x40 where
  lhsContracting := [1]
  rhsContracting := [0]
  lhsNonContracting := [0]
  rhsNonContracting := [1]
  lhsBatch := []
  rhsBatch := []
  wf := dot_S2000000x40_S40x40_S2000000x40_1_0_0_1_n_n_wf
def dot_S2000000x40_S40x4_S2000000x4_1_0_0_1_n_n : DotDims S2000000x40 S40x4 S2000000x4 where
  lhsContracting := [1]
  rhsContracting := [0]
  lhsNonContracting := [0]
  rhsNonContracting := [1]
  lhsBatch := []
  rhsBatch := []
  wf := dot_S2000000x40_S40x4_S2000000x4_1_0_0_1_n_n_wf
def scatter_S100000x4_S2000000x1_S2000000x4_1_0_0_1 : ScatterDims S100000x4 S2000000x1 S2000000x4 where
  updateWindowDims := [1]
  insertedWindowDims := [0]
  scatterDimsToOperandDims := [0]
  indexVectorDim := 1
  wf := scatter_S100000x4_S2000000x1_S2000000x4_1_0_0_1_wf
def dot_S100000x7_S7x40_S100000x40_1_0_0_1_n_n : DotDims S100000x7 S7x40 S100000x40 where
  lhsContracting := [1]
  rhsContracting := [0]
  lhsNonContracting := [0]
  rhsNonContracting := [1]
  lhsBatch := []
  rhsBatch := []
  wf := dot_S100000x7_S7x40_S100000x40_1_0_0_1_n_n_wf
def dot_S100000x40_S40x40_S100000x40_1_0_0_1_n_n : DotDims S100000x40 S40x40 S100000x40 where
  lhsContracting := [1]
  rhsContracting := [0]
  lhsNonContracting := [0]
  rhsNonContracting := [1]
  lhsBatch := []
  rhsBatch := []
  wf := dot_S100000x40_S40x40_S100000x40_1_0_0_1_n_n_wf
def dot_S100000x40_S40x3_S100000x3_1_0_0_1_n_n : DotDims S100000x40 S40x3 S100000x3 where
  lhsContracting := [1]
  rhsContracting := [0]
  lhsNonContracting := [0]
  rhsNonContracting := [1]
  lhsBatch := []
  rhsBatch := []
  wf := dot_S100000x40_S40x3_S100000x3_1_0_0_1_n_n_wf
def dot_S2000000x40_S40x1_S2000000x1_1_0_0_1_n_n : DotDims S2000000x40 S40x1 S2000000x1 where
  lhsContracting := [1]
  rhsContracting := [0]
  lhsNonContracting := [0]
  rhsNonContracting := [1]
  lhsBatch := []
  rhsBatch := []
  wf := dot_S2000000x40_S40x1_S2000000x1_1_0_0_1_n_n_wf

class Facts : Prop extends Facts₀ where

variable [Facts]
-- ==== Proof.IndexRange.lean ====
/-
  The integer side of the certificate.

  (1) The printed precondition says that every entry of the edge-index array lies in [0, 100000).
  (2) Under that, a fill-mode take (gather, then a select against an in-range mask with a NaN fill)
      is the plain gather: no index is negative, so the wrap-around is the identity, and every wrapped
      index passes the range test, so the select always keeps the gathered row.
-/
import proofs.«423598_j5866925326701_3_alg».proof.KernelIdeal
import proofs.«423598_j5866925326701_3_alg».proof.Pre_finite_inputs
import Idealize.ShloMosaic.Lib.StableHlo.Predicate
import Idealize.ShloMosaic.Lib.ReduceAll
import Idealize.ShloMosaic.Lib.ValueIdx
import Idealize.ShloMosaic.Lib.Pipeline.Value

noncomputable section

namespace Cert.KernelIdeal.IndexRange

open Cert.KernelIdeal Idealize.ShloMosaic Idealize.ShloMosaic.ValueIdx

/-! ## Signed compares of 32-bit words against the three constants -/

theorem toInt_zero32 : (0#32 : BitVec 32).toInt = 0 := by decide
theorem toInt_100000 : (100000#32 : BitVec 32).toInt = 100000 := by decide
theorem toInt_99999 : (99999#32 : BitVec 32).toInt = 99999 := by decide

theorem ofBool_eq_one (b : Bool) : BitVec.ofBool b = 1#1 ↔ b = true := by cases b <;> decide

/-- A word that passes the signed test against zero is not negative. -/
theorem nonneg_of_sge {x : BitVec 32} (h : IntOp.cmpi .sge x 0#32 = 1#1) : 0 ≤ x.toInt := by
  unfold IntOp.cmpi at h
  rw [ofBool_eq_one, BitVec.sle_iff_toInt_le, toInt_zero32] at h
  exact h

/-- A word that passes the signed test below 100000 is below 100000. -/
theorem lt_of_slt {x : BitVec 32} (h : IntOp.cmpi .slt x 100000#32 = 1#1) : x.toInt < 100000 := by
  unfold IntOp.cmpi at h
  rw [ofBool_eq_one, BitVec.slt_iff_toInt_lt, toInt_100000] at h
  exact h

/-- A non-negative word passes the signed test against zero. -/
theorem sge_of_nonneg {x : BitVec 32} (h : 0 ≤ x.toInt) : IntOp.cmpi .sge x 0#32 = 1#1 := by
  unfold IntOp.cmpi
  rw [ofBool_eq_one, BitVec.sle_iff_toInt_le, toInt_zero32]
  exact h

/-- A word below 100000 is at most 99999. -/
theorem sle_of_lt {x : BitVec 32} (h : x.toInt < 100000) : IntOp.cmpi .sle x 99999#32 = 1#1 := by
  unfold IntOp.cmpi
  rw [ofBool_eq_one, BitVec.sle_iff_toInt_le, toInt_99999]
  omega

/-- A non-negative word fails the signed test below zero. -/
theorem slt_zero_of_nonneg {x : BitVec 32} (h : 0 ≤ x.toInt) : IntOp.cmpi .slt x 0#32 = 0#1 := by
  unfold IntOp.cmpi
  have e : x.slt 0#32 = false := by
    rw [Bool.eq_false_iff]; intro c
    rw [BitVec.slt_iff_toInt_lt, toInt_zero32] at c
    omega
  rw [e]; rfl

/-! ## An and-reduction of all ones is one -/

/-- A left fold by and over one-bit words that starts at 1 and meets only 1s is 1. -/
theorem foldl_andi_of_all {ι : Type} (f : ι → BitVec 1) :
    ∀ (l : List ι) (init : BitVec 1), init = 1#1 → (∀ n ∈ l, f n = 1#1) →
      l.foldl (fun r n => IntOp.andi r (f n)) init = 1#1
  | [], _, hi, _ => hi
  | a :: l, init, hi, hl => by
    refine foldl_andi_of_all f l _ ?_ (fun n hn => hl n (List.mem_cons_of_mem _ hn))
    show IntOp.andi init (f a) = 1#1
    rw [hi, hl a List.mem_cons_self]; rfl

/-- A reduce by and of an array of ones, from one, is one at every result index. -/
theorem reduce_andi_of_all {s t u : Shape} {axes : List (Fin s.rank)} (x : s.Idx → BitVec 1) (init : u.Idx → BitVec 1)
    (h : s.ReducesTo axes t) (hu : 0 < u.numel) (hinit : init (Shape.Idx.first hu) = 1#1) (hx : ∀ i, x i = 1#1)
    (j : t.Idx) : Host.reduce IntOp.andi x init h hu j = 1#1 := by
  rw [Host.reduce_eq_foldl]
  exact foldl_andi_of_all x _ _ hinit (fun n _ => hx n)

/-! ## The precondition, read at the edge-index array -/

/-- what the precondition says of the edge-index array: its last two conjuncts are the two range tests,
    each an and-reduction over the whole array of a signed compare against a constant -/
theorem idx_of_pre [Cert.Pre_finite_inputs.Facts]
    (a0 : FVec Ideal S100000x3 .f32) (a1 : IVec S2x2000000 32) (a2 : FVec Ideal S2000000x4 .f32)
    (a3 : FVec Ideal S40x10 .f32) (a4 : FVec Ideal S40 .f32) (a5 : FVec Ideal S40x40 .f32) (a6 : FVec Ideal S40 .f32)
    (a7 : FVec Ideal S4x40 .f32) (a8 : FVec Ideal S4 .f32) (a9 : FVec Ideal S40x7 .f32) (a10 : FVec Ideal S40 .f32)
    (a11 : FVec Ideal S40x40 .f32) (a12 : FVec Ideal S40 .f32) (a13 : FVec Ideal S3x40 .f32) (a14 : FVec Ideal S3 .f32)
    (a15 : FVec Ideal S40x10 .f32) (a16 : FVec Ideal S40 .f32) (a17 : FVec Ideal S40x40 .f32) (a18 : FVec Ideal S40 .f32)
    (a19 : FVec Ideal S1x40 .f32) (a20 : FVec Ideal S1 .f32)
    (h : Cert.Pre_finite_inputs.fn (F := Ideal) a0 a1 a2 a3 a4 a5 a6 a7 a8 a9 a10 a11 a12 a13 a14 a15 a16 a17 a18 a19 a20
      = fun _ => 1#1) :
    ∀ j : S2x2000000.Idx, 0 ≤ (a1 j).toInt ∧ (a1 j).toInt < 100000 := by
  haveI : Subsingleton Cert.Pre_finite_inputs.S_.Idx := ⟨fun a b => funext fun d => d.elim0⟩
  have e := congrFun h ValueIdx.ix0
  dsimp only [Cert.Pre_finite_inputs.fn, Cert.Pre_finite_inputs.fn_part1, Cert.Pre_finite_inputs.fn_part2,
    Cert.Pre_finite_inputs.fn_part3, Cert.Pre_finite_inputs.fn_part4, Cert.Pre_finite_inputs.fn_part5,
    Cert.Pre_finite_inputs.fn_part6] at e
  obtain ⟨e12, e3⟩ := IntOp.andi_eq_one.1 e
  obtain ⟨-, e2⟩ := IntOp.andi_eq_one.1 e12
  intro j
  exact ⟨nonneg_of_sge (Host.reduce_andi_all _ _ _ _ _ e2 j), lt_of_slt (Host.reduce_andi_all _ _ _ _ _ e3 j)⟩

variable [Facts]
open Facts₀ Facts

/-! ## The take -/

/-- the wrap of a negative index (the table's length is added to it), then the index column: what the take gathers with -/
def wrapIdx (d : IVec S2000000 32) : IVec S2000000x1 32 :=
  broadcastInDim S2000000x1 ![0] bcast_S2000000_S2000000x1_0
    (select (cmpi .slt d (broadcastInDim S2000000 ![] bcast_S_S2000000 (constantI S_ 32 0#32)))
            (addi d (broadcastInDim S2000000 ![] bcast_S_S2000000 (constantI S_ 32 100000#32))) d)

/-- the fill-mode mask: row r is kept iff 0 ≤ w r ≤ 99999 -/
def inRangeMask (w : IVec S2000000x1 32) : IVec S2000000x3 1 :=
  broadcastInDim S2000000x3 ![0] bcast_S2000000_S2000000x3_0
    (Host.reduce IntOp.andi
      (andi (cmpi .sge w (broadcastInDim S2000000x1 ![] bcast_S_S2000000x1 (constantI S_ 32 0#32)))
            (cmpi .sle w (broadcastInDim S2000000x1 ![0, 1] bcast_S1x1_S2000000x1_0_1 (broadcastInDim S1x1 ![1] bcast_S1_S1x1_1 (constantI S1 32 99999#32)))))
      (constantI S_ 1 1#1) reducesTo_S2000000x1_S2000000_d1 h_S_)

/-- the take's result -/
def takeK (X : FVec Ideal S100000x3 .f32) (d : IVec S2000000 32) : FVec Ideal S2000000x3 .f32 :=
  select (inRangeMask (wrapIdx d))
    (Host.gather gather_S100000x3_S2000000x1_S2000000x3_1_0_n_n_0_1_13 X (wrapIdx d))
    (broadcastInDim S2000000x3 ![] bcast_S_S2000000x3 (constant S_ .f32 0x7FC00000#32))

/-- an index vector all of whose entries name a row -/
def InRange (d : IVec S2000000 32) : Prop := ∀ j : S2000000.Idx, 0 ≤ (d j).toInt ∧ (d j).toInt < 100000

/-- The wrapped index column of an in-range vector holds, at each row, an entry of the vector itself. -/
theorem wrapIdx_mem (d : IVec S2000000 32) (hd : InRange d) (k : S2000000x1.Idx) :
    ∃ j : S2000000.Idx, wrapIdx d k = d j := by
  have key : ∀ j : S2000000.Idx,
      select (cmpi .slt d (broadcastInDim S2000000 ![] bcast_S_S2000000 (constantI S_ 32 0#32)))
        (addi d (broadcastInDim S2000000 ![] bcast_S_S2000000 (constantI S_ 32 100000#32))) d j = d j := by
    intro j
    have e : cmpi .slt d (broadcastInDim S2000000 ![] bcast_S_S2000000 (constantI S_ 32 0#32)) j = 0#1 :=
      slt_zero_of_nonneg (hd j).1
    rw [select_apply, e, select_zero]
  unfold wrapIdx
  exact ⟨_, key _⟩

/-- In range, the mask is one everywhere. -/
theorem inRangeMask_one (d : IVec S2000000 32) (hd : InRange d) (i : S2000000x3.Idx) :
    inRangeMask (wrapIdx d) i = 1#1 := by
  unfold inRangeMask
  show Host.reduce IntOp.andi _ _ _ _ _ = 1#1
  refine reduce_andi_of_all _ _ _ _ rfl (fun k => ?_) _
  obtain ⟨j, hj⟩ := wrapIdx_mem d hd k
  show IntOp.andi (IntOp.cmpi .sge (wrapIdx d k) 0#32) (IntOp.cmpi .sle (wrapIdx d k) 99999#32) = 1#1
  rw [hj, sge_of_nonneg (hd j).1, sle_of_lt (hd j).2]; rfl

theorem takeK_eq_gather (X : FVec Ideal S100000x3 .f32) (d : IVec S2000000 32) (hd : InRange d) :
    takeK X d = Host.gather gather_S100000x3_S2000000x1_S2000000x3_1_0_n_n_0_1_13 X (wrapIdx d) := by
  funext i
  unfold takeK
  rw [select_apply, inRangeMask_one d hd i, select_one]

/-! ## The two rows of the edge-index array -/

/-- the first row of the edge-index array, as the program slices it: a [1, 2000000] slice, reshaped to a vector -/
def srcOf (ei : IVec S2x2000000 32) : IVec S2000000 32 :=
  shapeCast S2000000 (extractStridedSlice S1x2000000 ![0, 0] ei slices_S2x2000000_S1x2000000_0_0) shapeCasts_S1x2000000_S2000000

/-- the second row, likewise -/
def dstOf (ei : IVec S2x2000000 32) : IVec S2000000 32 :=
  shapeCast S2000000 (extractStridedSlice S1x2000000 ![1, 0] ei slices_S2x2000000_S1x2000000_1_0) shapeCasts_S1x2000000_S2000000

/-- Each entry of a row is an entry of the array: a range that holds of the array holds of both rows. -/
theorem row_inRange (ei : IVec S2x2000000 32) :
    (∀ j : S2x2000000.Idx, 0 ≤ (ei j).toInt ∧ (ei j).toInt < 100000) → InRange (srcOf ei) ∧ InRange (dstOf ei) :=
  fun h => ⟨fun _ => h _, fun _ => h _⟩

end Cert.KernelIdeal.IndexRange

end
-- ==== Proof.KGlue.lean ====
/-
  The kernel program's host side, read off the buffer contents at each boundary between its stretches of host
  operations and its three regions.  Each stretch is first evaluated over an arbitrary valuation of the buffers (what one
  buffer holds after the stretch, as a function of what the buffers it reads held before); then the boundaries are walked
  from each region's entry back to the launch memory: a buffer no operation of a stretch writes keeps its contents, a
  region changes only its output array, and an array a region only reads ends as it was.
-/
import proofs.«423598_j5866925326701_3_alg».proof.Proof.Gen.KernelIdeal.Frame
import proofs.«423598_j5866925326701_3_alg».proof.Proof.IndexRange
import Idealize.ShloMosaic.Lib.StableHlo.Run
import Idealize.ShloMosaic.PureOps.Ideal

set_option maxRecDepth 16384

noncomputable section

namespace Cert.KernelIdeal.Glue

open Cert.KernelIdeal Cert.KernelIdeal.Gen Idealize.ShloMosaic Idealize.ShloMosaic.TcCoe Idealize.SL.Sem Idealize.ShloMosaic.StableHlo
open Cert.KernelIdeal.IndexRange

/-! ## Typed references: the transport along a buffer's type is the identity -/

theorem ofBuf_toBuf {T : BufTy} (x : TRef sig T) (v : T.Contents (Elt Ideal)) : x.ofBuf (x.toBuf v) = v := by
  obtain ⟨r, h, h2, h3⟩ := x
  subst h
  rfl

theorem rd_arg0 (v : FVec Ideal S100000x3 .f32) : (TRef.of (sig := sig) (T := ⟨S100000x3, .f32⟩) main_arg0).ofBuf (Val := Elt Ideal) v = v := rfl
theorem rd_v21 (v : FVec Ideal S100000x3 .f32) : (TRef.of (sig := sig) (T := ⟨S100000x3, .f32⟩) main_v21).ofBuf (Val := Elt Ideal) v = v := rfl
theorem rd_v1 (v : IVec S2000000 32) : (TRef.of (sig := sig) (T := ⟨S2000000, .i32⟩) main_v1).ofBuf (Val := Elt Ideal) v = v := rfl
theorem rd_v3 (v : IVec S2000000 32) : (TRef.of (sig := sig) (T := ⟨S2000000, .i32⟩) main_v3).ofBuf (Val := Elt Ideal) v = v := rfl
theorem wr_v4 (v : FVec Ideal S2000000x3 .f32) : (TRef.of (sig := sig) (T := ⟨S2000000x3, .f32⟩) main_v4).toBuf (Val := Elt Ideal) v = v := rfl
theorem wr_v5 (v : FVec Ideal S2000000x3 .f32) : (TRef.of (sig := sig) (T := ⟨S2000000x3, .f32⟩) main_v5).toBuf (Val := Elt Ideal) v = v := rfl
theorem wr_v22 (v : FVec Ideal S2000000x3 .f32) : (TRef.of (sig := sig) (T := ⟨S2000000x3, .f32⟩) main_v22).toBuf (Val := Elt Ideal) v = v := rfl
theorem wr_v23 (v : FVec Ideal S2000000x3 .f32) : (TRef.of (sig := sig) (T := ⟨S2000000x3, .f32⟩) main_v23).toBuf (Val := Elt Ideal) v = v := rfl

/-! ## Each stretch over an arbitrary valuation -/

section Stretches
variable (Vv : Valuation τ sig (Elt Ideal))

/-- The two rows of the edge-index array. -/
theorem st0_v1 (ei : IVec S2x2000000 32) (h : Vv (Proc.devRef .tc main_arg1) = ei) :
    StableHlo.after (hostOps0 (F := Ideal)) Vv (Proc.devRef .tc main_v1) = srcOf ei := by
  subst h; after_results <;> rfl
theorem st0_v3 (ei : IVec S2x2000000 32) (h : Vv (Proc.devRef .tc main_arg1) = ei) :
    StableHlo.after (hostOps0 (F := Ideal)) Vv (Proc.devRef .tc main_v3) = dstOf ei := by
  subst h; after_results <;> rfl

/-- The four takes: rows of a table named by an index vector. -/
theorem st01_v4 (X : FVec Ideal S100000x3 .f32) (d : IVec S2000000 32)
    (hX : Vv (Proc.devRef .tc main_arg0) = X) (hd : Vv (Proc.devRef .tc main_v3) = d) :
    StableHlo.after (hostOps0_1 (F := Ideal)) Vv (Proc.devRef .tc main_v4) = takeK X d := by
  after_results_simp
  simp only [ofBuf_toBuf]
  rw [hX, hd]
  simp only [rd_arg0, rd_v3, wr_v4]
  rfl
theorem st02_v5 (X : FVec Ideal S100000x3 .f32) (d : IVec S2000000 32)
    (hX : Vv (Proc.devRef .tc main_arg0) = X) (hd : Vv (Proc.devRef .tc main_v1) = d) :
    StableHlo.after (hostOps0_2 (F := Ideal)) Vv (Proc.devRef .tc main_v5) = takeK X d := by
  after_results_simp
  simp only [ofBuf_toBuf]
  rw [hX, hd]
  simp only [rd_arg0, rd_v1, wr_v5]
  rfl
theorem st2_v22 (X : FVec Ideal S100000x3 .f32) (d : IVec S2000000 32)
    (hX : Vv (Proc.devRef .tc main_v21) = X) (hd : Vv (Proc.devRef .tc main_v3) = d) :
    StableHlo.after (hostOps2 (F := Ideal)) Vv (Proc.devRef .tc main_v22) = takeK X d := by
  after_results_simp
  simp only [ofBuf_toBuf]
  rw [hX, hd]
  simp only [rd_v21, rd_v3, wr_v22]
  rfl
theorem st21_v23 (X : FVec Ideal S100000x3 .f32) (d : IVec S2000000 32)
    (hX : Vv (Proc.devRef .tc main_v21) = X) (hd : Vv (Proc.devRef .tc main_v1) = d) :
    StableHlo.after (hostOps2_1 (F := Ideal)) Vv (Proc.devRef .tc main_v23) = takeK X d := by
  after_results_simp
  simp only [ofBuf_toBuf]
  rw [hX, hd]
  simp only [rd_v21, rd_v1, wr_v23]
  rfl

end Stretches

/-! ## Plain stretches over an arbitrary valuation -/

section PlainStretches
variable (Vv : Valuation τ sig (Elt Ideal))

/-- The stretch before region 1: the scatter-add of the messages into a zero table, and the node network's weights. -/
theorem st1_v15 (d : IVec S2000000 32) (E : FVec Ideal S2000000x4 .f32)
    (hd : Vv (Proc.devRef .tc main_v3) = d) (hE : Vv (Proc.devRef .tc main_v12) = E) :
    StableHlo.after (hostOps1 (F := Ideal)) Vv (Proc.devRef .tc main_v15)
      = Host.scatterAdd scatter_S100000x4_S2000000x1_S2000000x4_1_0_0_1
          (broadcastInDim S100000x4 ![] bcast_S_S100000x4 (constant S_ .f32 0x00000000#32))
          (broadcastInDim S2000000x1 ![0] bcast_S2000000_S2000000x1_0 d) E := by
  subst hd hE; after_results <;> rfl
theorem st1_v17 (W : FVec Ideal S40x7 .f32) (h : Vv (Proc.devRef .tc main_arg9) = W) :
    StableHlo.after (hostOps1 (F := Ideal)) Vv (Proc.devRef .tc main_v17) = extractStridedSlice S3x40 ![0, 0] (transpose S7x40 [1, 0] W transposes_S40x7_S7x40_1_0) slices_S7x40_S3x40_0_0 := by
  subst h; after_results <;> rfl
theorem st1_v18 (W : FVec Ideal S40x7 .f32) (h : Vv (Proc.devRef .tc main_arg9) = W) :
    StableHlo.after (hostOps1 (F := Ideal)) Vv (Proc.devRef .tc main_v18) = extractStridedSlice S4x40 ![3, 0] (transpose S7x40 [1, 0] W transposes_S40x7_S7x40_1_0) slices_S7x40_S4x40_3_0 := by
  subst h; after_results <;> rfl
theorem st1_v19 (W : FVec Ideal S40x40 .f32) (h : Vv (Proc.devRef .tc main_arg11) = W) :
    StableHlo.after (hostOps1 (F := Ideal)) Vv (Proc.devRef .tc main_v19) = transpose S40x40 [1, 0] W transposes_S40x40_S40x40_1_0 := by
  subst h; after_results <;> rfl
theorem st1_v20 (W : FVec Ideal S3x40 .f32) (h : Vv (Proc.devRef .tc main_arg13) = W) :
    StableHlo.after (hostOps1 (F := Ideal)) Vv (Proc.devRef .tc main_v20) = transpose S40x3 [1, 0] W transposes_S3x40_S40x3_1_0 := by
  subst h; after_results <;> rfl

/-- The last stretch before region 2: the score network's weights. -/
theorem st22_v25 (W : FVec Ideal S40x10 .f32) (h : Vv (Proc.devRef .tc main_arg15) = W) :
    StableHlo.after (hostOps2_2 (F := Ideal)) Vv (Proc.devRef .tc main_v25) = extractStridedSlice S3x40 ![0, 0] (transpose S10x40 [1, 0] W transposes_S40x10_S10x40_1_0) slices_S10x40_S3x40_0_0 := by
  subst h; after_results <;> rfl
theorem st22_v26 (W : FVec Ideal S40x10 .f32) (h : Vv (Proc.devRef .tc main_arg15) = W) :
    StableHlo.after (hostOps2_2 (F := Ideal)) Vv (Proc.devRef .tc main_v26) = extractStridedSlice S3x40 ![3, 0] (transpose S10x40 [1, 0] W transposes_S40x10_S10x40_1_0) slices_S10x40_S3x40_3_0 := by
  subst h; after_results <;> rfl
theorem st22_v27 (W : FVec Ideal S40x10 .f32) (h : Vv (Proc.devRef .tc main_arg15) = W) :
    StableHlo.after (hostOps2_2 (F := Ideal)) Vv (Proc.devRef .tc main_v27) = extractStridedSlice S4x40 ![6, 0] (transpose S10x40 [1, 0] W transposes_S40x10_S10x40_1_0) slices_S10x40_S4x40_6_0 := by
  subst h; after_results <;> rfl
theorem st22_v28 (W : FVec Ideal S40x40 .f32) (h : Vv (Proc.devRef .tc main_arg17) = W) :
    StableHlo.after (hostOps2_2 (F := Ideal)) Vv (Proc.devRef .tc main_v28) = transpose S40x40 [1, 0] W transposes_S40x40_S40x40_1_0 := by
  subst h; after_results <;> rfl
theorem st22_v29 (W : FVec Ideal S1x40 .f32) (h : Vv (Proc.devRef .tc main_arg19) = W) :
    StableHlo.after (hostOps2_2 (F := Ideal)) Vv (Proc.devRef .tc main_v29) = transpose S40x1 [1, 0] W transposes_S1x40_S40x1_1_0 := by
  subst h; after_results <;> rfl

end PlainStretches

/-! ## The boundaries, walked back to the launch memory -/

macro "not_written" : tactic =>
  `(tactic| (refine List.forall_iff_forall_mem.mp ?_
             simp only [hostOps0, hostOps0_1, hostOps0_2, hostOps0_3, hostOps1, hostOps2, hostOps2_1, hostOps2_2, List.Forall, StableHlo.nullary_writes, StableHlo.unary_writes, StableHlo.binary_writes, StableHlo.ternary_writes, StableHlo.quaternary_writes, StableHlo.reshape_writes, StableHlo.binaryIndexed_writes, Finset.mem_singleton]
             repeat' apply And.intro
             all_goals exact StableHlo.devRef_ne_of_ne (by decide)))

/-- One step back at a time: across a stretch that does not write the buffer, and across a region whose arrays do not
    include it. -/
macro "walk" : tactic =>
  `(tactic| (repeat (first
      | (show StableHlo.after _ _ _ = _
         refine (StableHlo.after_of_forall_not_mem _ _ ?_).trans ?_
         · not_written)
      | (refine (W7_of_ne _ _ _ _ ?_).trans ?_
         · decide)
      | (refine (W5_of_ne _ _ _ _ ?_).trans ?_
         · decide)
      | fail)))

section Walk
variable (m : (ℓ : Loc nD τ sig) → Buf (Elt Ideal) ℓ) (ρ : Dev nD → PrngReg) (c : Dev nD)

/-- The messages: region 0's output array after its last grid point. -/
abbrev msgs : FVec Ideal S2000000x4 .f32 := (dat0 (V4 (F := Ideal) m ρ) c).arrAt 11 cfg0.N
/-- The updated node features: region 1's output array after its last grid point. -/
abbrev upd : FVec Ideal S100000x3 .f32 := (dat1 (V6 (F := Ideal) m ρ) c).arrAt 9 cfg1.N

/-! ### Region 0's eleven input arrays at its entry -/
theorem e0_v3 : W4 (F := Ideal) m ρ c (Proc.devRef .tc main_v3) = dstOf (m ((c : Thread nD τ).loc main_arg1)) := by
  walk; exact st0_v3 _ _ rfl
theorem e0_v1 : W4 (F := Ideal) m ρ c (Proc.devRef .tc main_v1) = srcOf (m ((c : Thread nD τ).loc main_arg1)) := by
  walk; exact st0_v1 _ _ rfl
theorem e0_in0 : W4 (F := Ideal) m ρ c (Proc.devRef .tc main_v4) = takeK (m ((c : Thread nD τ).loc main_arg0)) (dstOf (m ((c : Thread nD τ).loc main_arg1))) := by
  walk; exact st01_v4 _ _ _ (by walk; rfl) (st0_v3 _ _ rfl)
theorem e0_in1 : W4 (F := Ideal) m ρ c (Proc.devRef .tc main_v5) = takeK (m ((c : Thread nD τ).loc main_arg0)) (srcOf (m ((c : Thread nD τ).loc main_arg1))) := by
  walk; exact st02_v5 _ _ _ (by walk; rfl) (by walk; exact st0_v1 _ _ rfl)
theorem e0_in2 : W4 (F := Ideal) m ρ c (Proc.devRef .tc main_arg2) = m ((c : Thread nD τ).loc main_arg2) := by walk; rfl
theorem e0_in3 : W4 (F := Ideal) m ρ c (Proc.devRef .tc main_v7) = extractStridedSlice S3x40 ![0, 0] (transpose S10x40 [1, 0] (m ((c : Thread nD τ).loc main_arg3)) transposes_S40x10_S10x40_1_0) slices_S10x40_S3x40_0_0 := by
  after_results <;> rfl
theorem e0_in4 : W4 (F := Ideal) m ρ c (Proc.devRef .tc main_v8) = extractStridedSlice S3x40 ![3, 0] (transpose S10x40 [1, 0] (m ((c : Thread nD τ).loc main_arg3)) transposes_S40x10_S10x40_1_0) slices_S10x40_S3x40_3_0 := by
  after_results <;> rfl
theorem e0_in5 : W4 (F := Ideal) m ρ c (Proc.devRef .tc main_v9) = extractStridedSlice S4x40 ![6, 0] (transpose S10x40 [1, 0] (m ((c : Thread nD τ).loc main_arg3)) transposes_S40x10_S10x40_1_0) slices_S10x40_S4x40_6_0 := by
  after_results <;> rfl
theorem e0_in6 : W4 (F := Ideal) m ρ c (Proc.devRef .tc main_arg4) = m ((c : Thread nD τ).loc main_arg4) := by walk; rfl
theorem e0_in7 : W4 (F := Ideal) m ρ c (Proc.devRef .tc main_v10) = transpose S40x40 [1, 0] (m ((c : Thread nD τ).loc main_arg5)) transposes_S40x40_S40x40_1_0 := by
  after_results <;> rfl
theorem e0_in8 : W4 (F := Ideal) m ρ c (Proc.devRef .tc main_arg6) = m ((c : Thread nD τ).loc main_arg6) := by walk; rfl
theorem e0_in9 : W4 (F := Ideal) m ρ c (Proc.devRef .tc main_v11) = transpose S40x4 [1, 0] (m ((c : Thread nD τ).loc main_arg7)) transposes_S4x40_S40x4_1_0 := by
  after_results <;> rfl
theorem e0_in10 : W4 (F := Ideal) m ρ c (Proc.devRef .tc main_arg8) = m ((c : Thread nD τ).loc main_arg8) := by walk; rfl

/-! ### After region 0 -/
theorem x0_msgs : W5 (F := Ideal) m ρ c (Proc.devRef .tc main_v12) = msgs m ρ c := W5_arr m ρ c 11
theorem x0_v3 : W5 (F := Ideal) m ρ c (Proc.devRef .tc main_v3) = dstOf (m ((c : Thread nD τ).loc main_arg1)) := by
  walk; exact st0_v3 _ _ rfl
theorem x0_v1 : W5 (F := Ideal) m ρ c (Proc.devRef .tc main_v1) = srcOf (m ((c : Thread nD τ).loc main_arg1)) := by
  walk; exact st0_v1 _ _ rfl

/-! ### Region 1's nine input arrays at its entry -/
theorem e1_in0 : W6 (F := Ideal) m ρ c (Proc.devRef .tc main_arg0) = m ((c : Thread nD τ).loc main_arg0) := by walk; rfl
theorem e1_in1 : W6 (F := Ideal) m ρ c (Proc.devRef .tc main_v15)
    = Host.scatterAdd scatter_S100000x4_S2000000x1_S2000000x4_1_0_0_1
        (broadcastInDim S100000x4 ![] bcast_S_S100000x4 (constant S_ .f32 0x00000000#32))
        (broadcastInDim S2000000x1 ![0] bcast_S2000000_S2000000x1_0 (dstOf (m ((c : Thread nD τ).loc main_arg1)))) (msgs m ρ c) :=
  st1_v15 _ _ _ (x0_v3 m ρ c) (x0_msgs m ρ c)
theorem e1_in2 : W6 (F := Ideal) m ρ c (Proc.devRef .tc main_v17) = extractStridedSlice S3x40 ![0, 0] (transpose S7x40 [1, 0] (m ((c : Thread nD τ).loc main_arg9)) transposes_S40x7_S7x40_1_0) slices_S7x40_S3x40_0_0 :=
  st1_v17 _ _ (by walk; rfl)
theorem e1_in3 : W6 (F := Ideal) m ρ c (Proc.devRef .tc main_v18) = extractStridedSlice S4x40 ![3, 0] (transpose S7x40 [1, 0] (m ((c : Thread nD τ).loc main_arg9)) transposes_S40x7_S7x40_1_0) slices_S7x40_S4x40_3_0 :=
  st1_v18 _ _ (by walk; rfl)
theorem e1_in4 : W6 (F := Ideal) m ρ c (Proc.devRef .tc main_arg10) = m ((c : Thread nD τ).loc main_arg10) := by walk; rfl
theorem e1_in5 : W6 (F := Ideal) m ρ c (Proc.devRef .tc main_v19) = transpose S40x40 [1, 0] (m ((c : Thread nD τ).loc main_arg11)) transposes_S40x40_S40x40_1_0 :=
  st1_v19 _ _ (by walk; rfl)
theorem e1_in6 : W6 (F := Ideal) m ρ c (Proc.devRef .tc main_arg12) = m ((c : Thread nD τ).loc main_arg12) := by walk; rfl
theorem e1_in7 : W6 (F := Ideal) m ρ c (Proc.devRef .tc main_v20) = transpose S40x3 [1, 0] (m ((c : Thread nD τ).loc main_arg13)) transposes_S3x40_S40x3_1_0 :=
  st1_v20 _ _ (by walk; rfl)
theorem e1_in8 : W6 (F := Ideal) m ρ c (Proc.devRef .tc main_arg14) = m ((c : Thread nD τ).loc main_arg14) := by walk; rfl

/-! ### After region 1 -/
theorem x1_upd : W7 (F := Ideal) m ρ c (Proc.devRef .tc main_v21) = upd m ρ c := W7_arr m ρ c 9
theorem x1_v3 : W7 (F := Ideal) m ρ c (Proc.devRef .tc main_v3) = dstOf (m ((c : Thread nD τ).loc main_arg1)) := by
  walk; exact st0_v3 _ _ rfl
theorem x1_v1 : W7 (F := Ideal) m ρ c (Proc.devRef .tc main_v1) = srcOf (m ((c : Thread nD τ).loc main_arg1)) := by
  walk; exact st0_v1 _ _ rfl

/-! ### Region 2's eleven input arrays at its entry -/
theorem e2_in0 : W10 (F := Ideal) m ρ c (Proc.devRef .tc main_v22) = takeK (upd m ρ c) (dstOf (m ((c : Thread nD τ).loc main_arg1))) := by
  walk; exact st2_v22 _ _ _ (x1_upd m ρ c) (x1_v3 m ρ c)
theorem e2_in1 : W10 (F := Ideal) m ρ c (Proc.devRef .tc main_v23) = takeK (upd m ρ c) (srcOf (m ((c : Thread nD τ).loc main_arg1))) := by
  walk; exact st21_v23 _ _ _ (by walk; exact x1_upd m ρ c) (by walk; exact st0_v1 _ _ rfl)
theorem e2_in2 : W10 (F := Ideal) m ρ c (Proc.devRef .tc main_v12) = msgs m ρ c := by
  walk; exact x0_msgs m ρ c
theorem e2_in3 : W10 (F := Ideal) m ρ c (Proc.devRef .tc main_v25) = extractStridedSlice S3x40 ![0, 0] (transpose S10x40 [1, 0] (m ((c : Thread nD τ).loc main_arg15)) transposes_S40x10_S10x40_1_0) slices_S10x40_S3x40_0_0 :=
  st22_v25 _ _ (by walk; rfl)
theorem e2_in4 : W10 (F := Ideal) m ρ c (Proc.devRef .tc main_v26) = extractStridedSlice S3x40 ![3, 0] (transpose S10x40 [1, 0] (m ((c : Thread nD τ).loc main_arg15)) transposes_S40x10_S10x40_1_0) slices_S10x40_S3x40_3_0 :=
  st22_v26 _ _ (by walk; rfl)
theorem e2_in5 : W10 (F := Ideal) m ρ c (Proc.devRef .tc main_v27) = extractStridedSlice S4x40 ![6, 0] (transpose S10x40 [1, 0] (m ((c : Thread nD τ).loc main_arg15)) transposes_S40x10_S10x40_1_0) slices_S10x40_S4x40_6_0 :=
  st22_v27 _ _ (by walk; rfl)
theorem e2_in6 : W10 (F := Ideal) m ρ c (Proc.devRef .tc main_arg16) = m ((c : Thread nD τ).loc main_arg16) := by walk; rfl
theorem e2_in7 : W10 (F := Ideal) m ρ c (Proc.devRef .tc main_v28) = transpose S40x40 [1, 0] (m ((c : Thread nD τ).loc main_arg17)) transposes_S40x40_S40x40_1_0 :=
  st22_v28 _ _ (by walk; rfl)
theorem e2_in8 : W10 (F := Ideal) m ρ c (Proc.devRef .tc main_arg18) = m ((c : Thread nD τ).loc main_arg18) := by walk; rfl
theorem e2_in9 : W10 (F := Ideal) m ρ c (Proc.devRef .tc main_v29) = transpose S40x1 [1, 0] (m ((c : Thread nD τ).loc main_arg19)) transposes_S1x40_S40x1_1_0 :=
  st22_v29 _ _ (by walk; rfl)
theorem e2_in10 : W10 (F := Ideal) m ρ c (Proc.devRef .tc main_arg20) = m ((c : Thread nD τ).loc main_arg20) := by walk; rfl

/-- The result buffer after region 2: its output array after its last grid point. -/
theorem x2_out : W11 (F := Ideal) m ρ c (Proc.devRef .tc main_v30) = (dat2 (V10 (F := Ideal) m ρ) c).arrAt 11 cfg2.N := W11_arr m ρ c 11

end Walk

end Cert.KernelIdeal.Glue

end
-- ==== Proof.Spec.lean ====
/-
  The mathematics of the three small networks, row by row, over the extended reals.

  Every network here maps one row of inputs to one row of outputs: a first affine layer whose input is the
  concatenation of two or three short rows (written as the sum of the partial products, one per part), a rectifier,
  a second affine layer of width 40, a rectifier, and a last affine layer.  Weights are given "input-major": the
  entry `w l j` multiplies input coordinate `l` into output coordinate `j`.  Sums are over the extended reals, where
  addition is commutative and associative (that is all the splitting lemmas below use).
-/
import Mathlib.Data.EReal.Basic
import Mathlib.Algebra.BigOperators.Fin

open scoped BigOperators

noncomputable section

namespace Cert.Spec

/-- First layer over three parts of widths 3, 3, 4: the three partial products added in order, then the bias. -/
def lin3 (a b : Fin 3 → EReal) (c : Fin 4 → EReal) (wa wb : Fin 3 → Fin 40 → EReal) (wc : Fin 4 → Fin 40 → EReal)
    (b1 : Fin 40 → EReal) (j : Fin 40) : EReal :=
  (((∑ l : Fin 3, a l * wa l j) + (∑ l : Fin 3, b l * wb l j)) + (∑ l : Fin 4, c l * wc l j)) + b1 j

/-- First layer over two parts of widths 3, 4. -/
def lin2 (a : Fin 3 → EReal) (b : Fin 4 → EReal) (wa : Fin 3 → Fin 40 → EReal) (wb : Fin 4 → Fin 40 → EReal)
    (b1 : Fin 40 → EReal) (j : Fin 40) : EReal :=
  ((∑ l : Fin 3, a l * wa l j) + (∑ l : Fin 4, b l * wb l j)) + b1 j

/-- From the first layer's pre-activations `h` to the output row: rectify, second layer, rectify, last layer. -/
def tail {o : Nat} (h : Fin 40 → EReal) (w2 : Fin 40 → Fin 40 → EReal) (b2 : Fin 40 → EReal)
    (w3 : Fin 40 → Fin o → EReal) (b3 : Fin o → EReal) (q : Fin o) : EReal :=
  (∑ k : Fin 40, max ((∑ j : Fin 40, max (h j) 0 * w2 j k) + b2 k) 0 * w3 k q) + b3 q

/-- The edge network on one row: parts of widths 3, 3, 4. -/
def edge {o : Nat} (a b : Fin 3 → EReal) (c : Fin 4 → EReal) (wa wb : Fin 3 → Fin 40 → EReal)
    (wc : Fin 4 → Fin 40 → EReal) (b1 : Fin 40 → EReal) (w2 : Fin 40 → Fin 40 → EReal) (b2 : Fin 40 → EReal)
    (w3 : Fin 40 → Fin o → EReal) (b3 : Fin o → EReal) : Fin o → EReal :=
  tail (lin3 a b c wa wb wc b1) w2 b2 w3 b3

/-- The node network on one row: parts of widths 3, 4. -/
def node {o : Nat} (a : Fin 3 → EReal) (b : Fin 4 → EReal) (wa : Fin 3 → Fin 40 → EReal)
    (wb : Fin 4 → Fin 40 → EReal) (b1 : Fin 40 → EReal) (w2 : Fin 40 → Fin 40 → EReal) (b2 : Fin 40 → EReal)
    (w3 : Fin 40 → Fin o → EReal) (b3 : Fin o → EReal) : Fin o → EReal :=
  tail (lin2 a b wa wb b1) w2 b2 w3 b3

/-- A sum over ten coordinates is the sum over the first three, the next three and the last four. -/
theorem sum10_split (f : Fin 10 → EReal) :
    ∑ l : Fin 10, f l
      = ((∑ l : Fin 3, f ⟨l.val, by omega⟩) + (∑ l : Fin 3, f ⟨3 + l.val, by omega⟩)) + ∑ l : Fin 4, f ⟨6 + l.val, by omega⟩ := by
  have h := Fin.sum_univ_add (a := 6) (b := 4) f
  have h2 := Fin.sum_univ_add (a := 3) (b := 3) (fun i : Fin (3 + 3) => f (Fin.castAdd 4 i))
  rw [h, h2]
  rfl

/-- A sum over seven coordinates is the sum over the first three and the last four. -/
theorem sum7_split (f : Fin 7 → EReal) :
    ∑ l : Fin 7, f l = (∑ l : Fin 3, f ⟨l.val, by omega⟩) + ∑ l : Fin 4, f ⟨3 + l.val, by omega⟩ := by
  have h := Fin.sum_univ_add (a := 3) (b := 4) f
  rw [h]
  rfl

end Cert.Spec

end
-- ==== Proof.Net.lean ====
/-
  The three networks applied to whole arrays: every row of the output is the row network (Spec) of the same row of
  the inputs.  Two spellings of the weights are given.  The "K" forms take each part's weight block as its own array,
  input-major (entry (l, j) multiplies input coordinate l into output coordinate j).  The plain forms take the weight
  matrices as the operator stores them, output-major and unsplit (entry (j, l)), and are DEFINED as the K forms at the
  transposed blocks; so the two agree by definition once the blocks are read off the stored matrices.
-/
import Idealize.ShloMosaic.Lib.ValueIdx
import proofs.«423598_j5866925326701_3_alg».proof.Proof.Spec

noncomputable section

namespace Cert.Net

open Idealize.ShloMosaic Idealize.ShloMosaic.ValueIdx

/-- A matrix of extended reals with `r` rows and `c` columns, and a vector of length `n`. -/
abbrev Mat (r c : Nat) : Type := (⟨2, ![r, c]⟩ : Shape).Idx → EReal
abbrev Row (n : Nat) : Type := (⟨1, ![n]⟩ : Shape).Idx → EReal

/-- The matrix with entry `f r q` at (r, q). -/
def mk2 {n o : Nat} (f : Fin n → Fin o → EReal) : Mat n o := fun i => f (i 0) (i 1)
theorem mk2_ix2 {n o : Nat} (f : Fin n → Fin o → EReal) (r : Fin n) (q : Fin o) : mk2 f (ix2 r q) = f r q := rfl
theorem mk2_apply {n o : Nat} (f : Fin n → Fin o → EReal) (i : (⟨2, ![n, o]⟩ : Shape).Idx) : mk2 f i = f (i 0) (i 1) := rfl

/-- Row `r` of a matrix, and a matrix or vector as a plain function of its coordinates. -/
def row {n k : Nat} (X : Mat n k) (r : Fin n) : Fin k → EReal := fun l => X (ix2 r l)
def ent {n k : Nat} (W : Mat n k) : Fin n → Fin k → EReal := fun a b => W (ix2 a b)
def vec {n : Nat} (b : Row n) : Fin n → EReal := fun j => b (ix1 j)

/-- The edge network on every row; weight blocks as separate input-major arrays. -/
def edgeArrK {n o : Nat} (A B : Mat n 3) (C : Mat n 4) (wa wb : Mat 3 40) (wc : Mat 4 40) (b1 : Row 40)
    (w2 : Mat 40 40) (b2 : Row 40) (w3 : Mat 40 o) (b3 : Row o) : Mat n o :=
  mk2 fun r q => Spec.edge (row A r) (row B r) (row C r) (ent wa) (ent wb) (ent wc) (vec b1) (ent w2) (vec b2) (ent w3) (vec b3) q

/-- The node network on every row; weight blocks as separate input-major arrays. -/
def nodeArrK {n o : Nat} (A : Mat n 3) (B : Mat n 4) (wa : Mat 3 40) (wb : Mat 4 40) (b1 : Row 40)
    (w2 : Mat 40 40) (b2 : Row 40) (w3 : Mat 40 o) (b3 : Row o) : Mat n o :=
  mk2 fun r q => Spec.node (row A r) (row B r) (ent wa) (ent wb) (vec b1) (ent w2) (vec b2) (ent w3) (vec b3) q

/-- The transpose of a stored matrix, and a block of consecutive rows of it starting at row `s`. -/
def tr {a b : Nat} (W : Mat a b) : Mat b a := mk2 fun l j => W (ix2 j l)
def trBlock {a b : Nat} (W : Mat a b) (s k : Nat) (h : s + k ≤ b) : Mat k a :=
  mk2 fun l j => W (ix2 j ⟨s + l.val, by have := l.isLt; omega⟩)

/-- The edge network on every row, weights as stored: W1 is 40 × 10 with columns 0–2, 3–5, 6–9 for the three parts. -/
def edgeArr {n o : Nat} (A B : Mat n 3) (C : Mat n 4) (W1 : Mat 40 10) (b1 : Row 40) (W2 : Mat 40 40) (b2 : Row 40)
    (W3 : Mat o 40) (b3 : Row o) : Mat n o :=
  edgeArrK A B C (trBlock W1 0 3 (by omega)) (trBlock W1 3 3 (by omega)) (trBlock W1 6 4 (by omega)) b1 (tr W2) b2 (tr W3) b3

/-- The node network on every row, weights as stored: W1 is 40 × 7 with columns 0–2, 3–6 for the two parts. -/
def nodeArr {n o : Nat} (A : Mat n 3) (B : Mat n 4) (W1 : Mat 40 7) (b1 : Row 40) (W2 : Mat 40 40) (b2 : Row 40)
    (W3 : Mat o 40) (b3 : Row o) : Mat n o :=
  nodeArrK A B (trBlock W1 0 3 (by omega)) (trBlock W1 3 4 (by omega)) b1 (tr W2) b2 (tr W3) b3

end Cert.Net

end
-- ==== Proof.LibPlainDot.lean ====
/-
  The plain matrix product, rows times contraction by contraction times columns, read at an entry.

  For the dimension numbers "contract the left operand's axis 1 with the right operand's axis 0, no batch axis", the
  product of an M-by-K and a K-by-N matrix has at entry (p, q) the sum over k of left (p, k) times right (k, q).  At the
  exact values this holds of the host's product and of a kernel's product accumulated into a zero splat alike, on all
  extended reals, because only 0 + x = x is used.
-/
import Idealize.ShloMosaic.Lib.ValueIdx
import Idealize.ShloMosaic.Lib.KernelVsHost
import Idealize.ShloMosaic.PureOps.Ideal.Laws

noncomputable section

namespace Idealize.ShloMosaic.PlainDot

open Idealize.ShloMosaic.ValueIdx

variable {M K N : Nat} {φ₁ φ₂ : FTy}

/-- The left operand's index at output entry j and contraction step k: row of j, column k. -/
theorem lhsIdx_plain (j : (⟨2, ![M, N]⟩ : Shape).Idx) (k : Fin K) :
    (DotDims.plain M K N).lhsIdx j ((contrEquiv1 (DotDims.plain M K N) K rfl rfl).symm k) = ix2 (j 0) k := by
  have hk := contrEquiv1_symm_val (DotDims.plain M K N) K rfl rfl k
  funext a
  apply Fin.ext
  match a with
  | ⟨0, _⟩ => rfl
  | ⟨1, _⟩ => exact ((DotDims.plain M K N).lhsIdx_val_of_single rfl j _).trans hk

/-- The right operand's index at output entry j and contraction step k: row k, column of j. -/
theorem rhsIdx_plain (j : (⟨2, ![M, N]⟩ : Shape).Idx) (k : Fin K) :
    (DotDims.plain M K N).rhsIdx j ((contrEquiv1 (DotDims.plain M K N) K rfl rfl).symm k) = ix2 k (j 1) := by
  have hk := contrEquiv1_symm_val (DotDims.plain M K N) K rfl rfl k
  funext a
  apply Fin.ext
  match a with
  | ⟨0, _⟩ => exact ((DotDims.plain M K N).rhsIdx_val_of_single rfl j _).trans hk
  | ⟨1, _⟩ => rfl

/-- The host's plain product at an entry is the sum over the contraction of left (row, k) times right (k, column). -/
theorem dotGeneral_plain_apply (prec : Option ContractPrecision) (l : FVec Ideal ⟨2, ![M, K]⟩ φ₁)
    (r : FVec Ideal ⟨2, ![K, N]⟩ φ₂) (j : (⟨2, ![M, N]⟩ : Shape).Idx) :
    Host.dotGeneral (DotDims.plain M K N) prec l r j = ∑ k : Fin K, l (ix2 (j 0) k) * r (ix2 k (j 1)) := by
  simp only [Host.dotGeneral]
  rw [Ideal.dotGeneral_apply, ← Equiv.sum_comp (contrEquiv1 (DotDims.plain M K N) K rfl rfl).symm]
  refine Finset.sum_congr rfl fun k _ => ?_
  rw [lhsIdx_plain, rhsIdx_plain]
  rfl

/-- A kernel's plain product accumulated into a zero splat, at an entry: the same sum. -/
theorem matmul_zero_plain_apply (prec : Option ContractPrecision) (l : FVec Ideal ⟨2, ![M, K]⟩ φ₁)
    (r : FVec Ideal ⟨2, ![K, N]⟩ φ₂) (j : (⟨2, ![M, N]⟩ : Shape).Idx) :
    matmul (DotDims.plain M K N) prec l r (constant ⟨2, ![M, N]⟩ .f32 0x00000000#32) j
      = ∑ k : Fin K, l (ix2 (j 0) k) * r (ix2 k (j 1)) := by
  rw [matmul_zero_eq_dotGeneral, dotGeneral_plain_apply]

end Idealize.ShloMosaic.PlainDot
-- ==== Proof.KVal0.lean ====
/-
  The edge network computed block by block: the output array after all 400 grid points.

  Point t of the grid reads rows 5000 t … 5000 t + 4999 of the three row-blocked inputs (widths 3, 3, 4) and the whole of
  every weight and bias array, and writes rows 5000 t … of the output (width 4).  On one block the stored value at entry
  (p, q) is the edge network (Spec.edge) of row p of the three input blocks: the first layer is the three partial products
  added in order plus the bias, each product into a zero accumulator being the plain sum over the contraction; the
  rectifier is the maximum with the zero word, which is the real zero; a bias of length n is viewed [1, n] and repeated
  down the rows; the narrowing of the operands before each product is the identity on the extended reals.  Since a block's
  coordinate in its array is always (block index) × (block size) + (coordinate inside the block), row p of point t's block is
  row 5000 t + p of the array, and a window whose block index is 0 on every axis holds its whole array.  The blocks of the
  400 points cover the output (row r lies in the block of point r / 5000), so the output array is the edge network applied
  to every row.
-/
import proofs.«423598_j5866925326701_3_alg».proof.Proof.Gen.KernelIdeal.Frame
import proofs.«423598_j5866925326701_3_alg».proof.Proof.Net
import proofs.«423598_j5866925326701_3_alg».proof.Proof.LibPlainDot
import Idealize.ShloMosaic.Lib.Pipeline.Value
import Idealize.ShloMosaic.Lib.ValueIdx
import Idealize.ShloMosaic.Lib.ValueLayout
import Idealize.ShloMosaic.PureOps.Ideal.Laws
set_option maxRecDepth 16384
noncomputable section
namespace Cert.KernelIdeal.KVal0
open Cert.KernelIdeal Cert.KernelIdeal.Gen Cert.Net Idealize.ShloMosaic Idealize.ShloMosaic.ValueIdx Idealize.ShloMosaic.TcCoe
open Idealize.ShloMosaic.Pipeline (Dat)
open scoped BigOperators

/-! ## The stored value at an entry of a block -/

/-- The rectifier's zero word is the real zero. -/
theorem zero_word : (Scalar.ofBits (F := Ideal) .f32 0x00000000#32 : EReal) = 0 := Ideal.ofBits_zero_f32

/-- A bias added to every row of a block: a vector [n] viewed [1, n] and repeated down the rows reads, at (p, q),
    the bias at q. -/
theorem bias_rows {rows n : Nat} (b : (⟨1, ![n]⟩ : Shape).Idx → EReal)
    (hc : (⟨1, ![n]⟩ : Shape).ShapeCasts ⟨2, ![1, n]⟩) (hb : (⟨2, ![1, n]⟩ : Shape).Broadcasts ⟨2, ![rows, n]⟩)
    (p : Fin rows) (q : Fin n) :
    broadcastTo ⟨2, ![rows, n]⟩ (shapeCast ⟨2, ![1, n]⟩ b hc) hb (ix2 p q) = b (ix1 q) := by
  refine (broadcastTo_apply _ hb (ix2 p q) (ix2 (0 : Fin 1) q) ?_).trans ?_
  · intro a
    match a with
    | ⟨0, _⟩ => rfl
    | ⟨1, _⟩ =>
      show q.val = if n = 1 then 0 else q.val
      split_ifs with h
      · subst h; omega
      · rfl
  · refine (shapeCast_addUnit_apply ![n] b hc (ix2 (0 : Fin 1) q)).trans ?_
    refine congrArg b (funext fun a => ?_)
    match a with
    | ⟨0, _⟩ => rfl

/-- A product accumulated into the zero splat, at an entry: the sum over the contraction of left (row, k) times
    right (k, column), for any record of dimension numbers that is the plain one. -/
theorem prod_entry {M K N : Nat} {φ₁ φ₂ : FTy} (D : DotDims ⟨2, ![M, K]⟩ ⟨2, ![K, N]⟩ ⟨2, ![M, N]⟩) (hD : D = DotDims.plain M K N)
    (l : FVec Ideal ⟨2, ![M, K]⟩ φ₁) (r : FVec Ideal ⟨2, ![K, N]⟩ φ₂) (p : Fin M) (q : Fin N) :
    matmul D none l r (constant (F := Ideal) ⟨2, ![M, N]⟩ .f32 0x00000000#32) (ix2 p q) = ∑ k : Fin K, l (ix2 p k) * r (ix2 k q) := by
  subst hD
  exact PlainDot.matmul_zero_plain_apply none l r (ix2 p q)

/-- The first two layers at an entry of the block: the first layer's three partial products added in order and its
    bias, rectified, through the second layer's weights, plus its bias. -/
theorem layers12 (x0 x1 : Vec Ideal S5000x3 .f32) (x2 : Vec Ideal S5000x4 .f32) (x3 x4 : Vec Ideal S3x40 .f32)
    (x5 : Vec Ideal S4x40 .f32) (x6 : Vec Ideal S40 .f32) (x7 : Vec Ideal S40x40 .f32) (x8 : Vec Ideal S40 .f32)
    (p : Fin 5000) (k : Fin 40) :
    k0_pay2 x0 x1 x2 x3 x4 x5 x6 x7 x8 (ix2 p k)
      = (∑ j : Fin 40, max (Spec.lin3 (row (n := 5000) (k := 3) x0 p) (row (n := 5000) (k := 3) x1 p) (row (n := 5000) (k := 4) x2 p)
            (ent (n := 3) (k := 40) x3) (ent (n := 3) (k := 40) x4) (ent (n := 4) (k := 40) x5) (vec (n := 40) x6) j) 0 * x7 (ix2 j k)) + x8 (ix1 k) := by
  unfold k0_pay2
  rw [addf_apply, bias_rows, prod_entry dot_S5000x40_S40x40_S5000x40_1_0_0_1_n_n rfl]
  congr 1
  refine Finset.sum_congr rfl fun j _ => ?_
  rw [truncf_apply, truncf_apply, shapeCast_self, maximumf_apply, broadcast_apply, zero_word, addf_apply, bias_rows,
    addf_apply, addf_apply, prod_entry dot_S5000x3_S3x40_S5000x40_1_0_0_1_n_n rfl,
    prod_entry dot_S5000x3_S3x40_S5000x40_1_0_0_1_n_n rfl, prod_entry dot_S5000x4_S4x40_S5000x40_1_0_0_1_n_n rfl]
  simp only [truncf_apply, shapeCast_self]
  rfl

/-- The last layer at an entry of the block. -/
theorem layer3 (h : FVec Ideal S5000x40 .f32) (w3 : Vec Ideal S40x4 .f32) (b3 : Vec Ideal S4 .f32) (p : Fin 5000) (q : Fin 4) :
    k0_pay1 h (Scalar.ofBits .f32 0x00000000#32) w3 b3 (ix2 p q)
      = (∑ k : Fin 40, max (h (ix2 p k)) 0 * w3 (ix2 k q)) + b3 (ix1 q) := by
  unfold k0_pay1
  rw [addf_apply, bias_rows, prod_entry dot_S5000x40_S40x4_S5000x4_1_0_0_1_n_n rfl]
  congr 1
  refine Finset.sum_congr rfl fun k _ => ?_
  rw [truncf_apply, truncf_apply, shapeCast_self, maximumf_apply, broadcast_apply, zero_word]

/-- The block's stored value at entry (p, q) is the edge network of row p of the three row-blocked inputs. -/
theorem entry_value (x0 x1 : Vec Ideal S5000x3 .f32) (x2 : Vec Ideal S5000x4 .f32) (x3 x4 : Vec Ideal S3x40 .f32)
    (x5 : Vec Ideal S4x40 .f32) (x6 : Vec Ideal S40 .f32) (x7 : Vec Ideal S40x40 .f32) (x8 : Vec Ideal S40 .f32)
    (x9 : Vec Ideal S40x4 .f32) (x10 : Vec Ideal S4 .f32) (p : Fin 5000) (q : Fin 4) :
    k0_pay1 (k0_pay2 x0 x1 x2 x3 x4 x5 x6 x7 x8) (Scalar.ofBits .f32 0x00000000#32) x9 x10 (ix2 p q)
      = Spec.edge (row (n := 5000) (k := 3) x0 p) (row (n := 5000) (k := 3) x1 p) (row (n := 5000) (k := 4) x2 p)
          (ent (n := 3) (k := 40) x3) (ent (n := 3) (k := 40) x4) (ent (n := 4) (k := 40) x5) (vec (n := 40) x6)
          (ent (n := 40) (k := 40) x7) (vec (n := 40) x8) (ent (n := 40) (k := 4) x9) (vec (n := 4) x10) q := by
  rw [layer3]
  simp only [layers12]
  rfl

variable (V : (c : Dev nD) → (b : Ref sig .tc) → Buf (Elt Ideal) ((c : Thread nD τ).loc b))

/- the region's input arrays as the region finds them, each at its literal type -/
abbrev inA (c : Dev nD) : Mat 2000000 3 := V c (Pipeline.arrRef spec0 0)
abbrev inB (c : Dev nD) : Mat 2000000 3 := V c (Pipeline.arrRef spec0 1)
abbrev inC (c : Dev nD) : Mat 2000000 4 := V c (Pipeline.arrRef spec0 2)
abbrev wA (c : Dev nD) : Mat 3 40 := V c (Pipeline.arrRef spec0 3)
abbrev wB (c : Dev nD) : Mat 3 40 := V c (Pipeline.arrRef spec0 4)
abbrev wC (c : Dev nD) : Mat 4 40 := V c (Pipeline.arrRef spec0 5)
abbrev bb1 (c : Dev nD) : Row 40 := V c (Pipeline.arrRef spec0 6)
abbrev ww2 (c : Dev nD) : Mat 40 40 := V c (Pipeline.arrRef spec0 7)
abbrev bb2 (c : Dev nD) : Row 40 := V c (Pipeline.arrRef spec0 8)
abbrev ww3 (c : Dev nD) : Mat 40 4 := V c (Pipeline.arrRef spec0 9)
abbrev bb3 (c : Dev nD) : Row 4 := V c (Pipeline.arrRef spec0 10)

/-! ## Where each window's block sits in its array -/

theorem zeros2 : (![0, 0] : Fin 2 → Nat) = fun _ => 0 := funext fun a => by fin_cases a <;> rfl
theorem zeros1 : (![0] : Fin 1 → Nat) = fun _ => 0 := funext fun a => by fin_cases a <;> rfl

/-- The grid has 400 points. -/
theorem gridN : cfg0.N = 400 := by decide +kernel

/- The block indices, decided over the grid: the three row-blocked inputs and the output move with the point along the
   rows and stay at column block 0; every weight and bias window stays at block 0. -/
theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 1) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)
theorem idx8 : ∀ t : Fin cfg0.N, win0_8.index t (0 : Fin 1) = 0 :=
  (by decide +kernel : ∀ t : Fin grid0.N, _)
theorem idx9 : ∀ t : Fin cfg0.N, win0_9.index t (0 : Fin 2) = 0 ∧ win0_9.index t (1 : Fin 2) = 0 :=
  (by decide +kernel : ∀ t : Fin grid0.N, _)
theorem idx10 : ∀ t : Fin cfg0.N, win0_10.index t (0 : Fin 1) = 0 :=
  (by decide +kernel : ∀ t : Fin grid0.N, _)
theorem idx11 : ∀ t : Fin cfg0.N, win0_11.index t (0 : Fin 2) = t.val ∧ win0_11.index t (1 : Fin 2) = 0 :=
  (by decide +kernel : ∀ t : Fin grid0.N, _)

/-- Row p of the first input's block at point t is row 5000 t + p of the array. -/
theorem rowA_eq (c : Dev nD) (t : Fin cfg0.N) (p : Fin 5000) (r : Fin 2000000) (hr : r.val = 5000 * t.val + p.val) :
    row (n := 5000) (k := 3) (iblk0 V c 0 t) p = row (inA V c) r := by
  obtain ⟨e0, e1⟩ := idx0 t
  funext l
  show (V c (Pipeline.arrRef spec0 0) : S2000000x3.Idx → EReal) (((cfg0.win 0).blk t).view.emb (ix2 p l))
    = (V c (Pipeline.arrRef spec0 0) : S2000000x3.Idx → EReal) (ix2 r l)
  refine congrArg (V c (Pipeline.arrRef spec0 0) : S2000000x3.Idx → EReal) (funext fun a => Fin.ext ?_)
  match a with
  | ⟨0, _⟩ => show win0_0.index t (0 : Fin 2) * 5000 + 1 * p.val = r.val; rw [e0, hr]; omega
  | ⟨1, _⟩ => show win0_0.index t (1 : Fin 2) * 3 + 1 * l.val = l.val; rw [e1]; omega

/-- Row p of the second input's block at point t is row 5000 t + p of the array. -/
theorem rowB_eq (c : Dev nD) (t : Fin cfg0.N) (p : Fin 5000) (r : Fin 2000000) (hr : r.val = 5000 * t.val + p.val) :
    row (n := 5000) (k := 3) (iblk0 V c 1 t) p = row (inB V c) r := by
  obtain ⟨e0, e1⟩ := idx1 t
  funext l
  show (V c (Pipeline.arrRef spec0 1) : S2000000x3.Idx → EReal) (((cfg0.win 1).blk t).view.emb (ix2 p l))
    = (V c (Pipeline.arrRef spec0 1) : S2000000x3.Idx → EReal) (ix2 r l)
  refine congrArg (V c (Pipeline.arrRef spec0 1) : S2000000x3.Idx → EReal) (funext fun a => Fin.ext ?_)
  match a with
  | ⟨0, _⟩ => show win0_1.index t (0 : Fin 2) * 5000 + 1 * p.val = r.val; rw [e0, hr]; omega
  | ⟨1, _⟩ => show win0_1.index t (1 : Fin 2) * 3 + 1 * l.val = l.val; rw [e1]; omega

/-- Row p of the third input's block at point t is row 5000 t + p of the array. -/
theorem rowC_eq (c : Dev nD) (t : Fin cfg0.N) (p : Fin 5000) (r : Fin 2000000) (hr : r.val = 5000 * t.val + p.val) :
    row (n := 5000) (k := 4) (iblk0 V c 2 t) p = row (inC V c) r := by
  obtain ⟨e0, e1⟩ := idx2 t
  funext l
  show (V c (Pipeline.arrRef spec0 2) : S2000000x4.Idx → EReal) (((cfg0.win 2).blk t).view.emb (ix2 p l))
    = (V c (Pipeline.arrRef spec0 2) : S2000000x4.Idx → EReal) (ix2 r l)
  refine congrArg (V c (Pipeline.arrRef spec0 2) : S2000000x4.Idx → EReal) (funext fun a => Fin.ext ?_)
  match a with
  | ⟨0, _⟩ => show win0_2.index t (0 : Fin 2) * 5000 + 1 * p.val = r.val; rw [e0, hr]; omega
  | ⟨1, _⟩ => show win0_2.index t (1 : Fin 2) * 4 + 1 * l.val = l.val; rw [e1]; omega

/-- The first weight block's block at every point is the whole array. -/
theorem entWA_eq (c : Dev nD) (t : Fin cfg0.N) : ent (n := 3) (k := 40) (iblk0 V c 3 t) = ent (wA V c) := by
  obtain ⟨e0, e1⟩ := idx3 t
  funext a b
  show (V c (Pipeline.arrRef spec0 3) : S3x40.Idx → EReal) (((cfg0.win 3).blk t).view.emb (ix2 a b))
    = (V c (Pipeline.arrRef spec0 3) : S3x40.Idx → EReal) (ix2 a b)
  refine congrArg (V c (Pipeline.arrRef spec0 3) : S3x40.Idx → EReal) (funext fun d => Fin.ext ?_)
  match d with
  | ⟨0, _⟩ => show win0_3.index t (0 : Fin 2) * 3 + 1 * a.val = a.val; rw [e0]; omega
  | ⟨1, _⟩ => show win0_3.index t (1 : Fin 2) * 40 + 1 * b.val = b.val; rw [e1]; omega

/-- The second weight block's block at every point is the whole array. -/
theorem entWB_eq (c : Dev nD) (t : Fin cfg0.N) : ent (n := 3) (k := 40) (iblk0 V c 4 t) = ent (wB V c) := by
  obtain ⟨e0, e1⟩ := idx4 t
  funext a b
  show (V c (Pipeline.arrRef spec0 4) : S3x40.Idx → EReal) (((cfg0.win 4).blk t).view.emb (ix2 a b))
    = (V c (Pipeline.arrRef spec0 4) : S3x40.Idx → EReal) (ix2 a b)
  refine congrArg (V c (Pipeline.arrRef spec0 4) : S3x40.Idx → EReal) (funext fun d => Fin.ext ?_)
  match d with
  | ⟨0, _⟩ => show win0_4.index t (0 : Fin 2) * 3 + 1 * a.val = a.val; rw [e0]; omega
  | ⟨1, _⟩ => show win0_4.index t (1 : Fin 2) * 40 + 1 * b.val = b.val; rw [e1]; omega

/-- The third weight block's block at every point is the whole array. -/
theorem entWC_eq (c : Dev nD) (t : Fin cfg0.N) : ent (n := 4) (k := 40) (iblk0 V c 5 t) = ent (wC V c) := by
  obtain ⟨e0, e1⟩ := idx5 t
  funext a b
  show (V c (Pipeline.arrRef spec0 5) : S4x40.Idx → EReal) (((cfg0.win 5).blk t).view.emb (ix2 a b))
    = (V c (Pipeline.arrRef spec0 5) : S4x40.Idx → EReal) (ix2 a b)
  refine congrArg (V c (Pipeline.arrRef spec0 5) : S4x40.Idx → EReal) (funext fun d => Fin.ext ?_)
  match d with
  | ⟨0, _⟩ => show win0_5.index t (0 : Fin 2) * 4 + 1 * a.val = a.val; rw [e0]; omega
  | ⟨1, _⟩ => show win0_5.index t (1 : Fin 2) * 40 + 1 * b.val = b.val; rw [e1]; omega

/-- The first bias's block at every point is the whole vector. -/
theorem vecB1_eq (c : Dev nD) (t : Fin cfg0.N) : vec (n := 40) (iblk0 V c 6 t) = vec (bb1 V c) := by
  have e0 := idx6 t
  funext j
  show (V c (Pipeline.arrRef spec0 6) : S40.Idx → EReal) (((cfg0.win 6).blk t).view.emb (ix1 j))
    = (V c (Pipeline.arrRef spec0 6) : S40.Idx → EReal) (ix1 j)
  refine congrArg (V c (Pipeline.arrRef spec0 6) : S40.Idx → EReal) (funext fun d => Fin.ext ?_)
  match d with
  | ⟨0, _⟩ => show win0_6.index t (0 : Fin 1) * 40 + 1 * j.val = j.val; rw [e0]; omega

/-- The second layer's weights's block at every point is the whole array. -/
theorem entW2_eq (c : Dev nD) (t : Fin cfg0.N) : ent (n := 40) (k := 40) (iblk0 V c 7 t) = ent (ww2 V c) := by
  obtain ⟨e0, e1⟩ := idx7 t
  funext a b
  show (V c (Pipeline.arrRef spec0 7) : S40x40.Idx → EReal) (((cfg0.win 7).blk t).view.emb (ix2 a b))
    = (V c (Pipeline.arrRef spec0 7) : S40x40.Idx → EReal) (ix2 a b)
  refine congrArg (V c (Pipeline.arrRef spec0 7) : S40x40.Idx → EReal) (funext fun d => Fin.ext ?_)
  match d with
  | ⟨0, _⟩ => show win0_7.index t (0 : Fin 2) * 40 + 1 * a.val = a.val; rw [e0]; omega
  | ⟨1, _⟩ => show win0_7.index t (1 : Fin 2) * 40 + 1 * b.val = b.val; rw [e1]; omega

/-- The second bias's block at every point is the whole vector. -/
theorem vecB2_eq (c : Dev nD) (t : Fin cfg0.N) : vec (n := 40) (iblk0 V c 8 t) = vec (bb2 V c) := by
  have e0 := idx8 t
  funext j
  show (V c (Pipeline.arrRef spec0 8) : S40.Idx → EReal) (((cfg0.win 8).blk t).view.emb (ix1 j))
    = (V c (Pipeline.arrRef spec0 8) : S40.Idx → EReal) (ix1 j)
  refine congrArg (V c (Pipeline.arrRef spec0 8) : S40.Idx → EReal) (funext fun d => Fin.ext ?_)
  match d with
  | ⟨0, _⟩ => show win0_8.index t (0 : Fin 1) * 40 + 1 * j.val = j.val; rw [e0]; omega

/-- The last layer's weights's block at every point is the whole array. -/
theorem entW3_eq (c : Dev nD) (t : Fin cfg0.N) : ent (n := 40) (k := 4) (iblk0 V c 9 t) = ent (ww3 V c) := by
  obtain ⟨e0, e1⟩ := idx9 t
  funext a b
  show (V c (Pipeline.arrRef spec0 9) : S40x4.Idx → EReal) (((cfg0.win 9).blk t).view.emb (ix2 a b))
    = (V c (Pipeline.arrRef spec0 9) : S40x4.Idx → EReal) (ix2 a b)
  refine congrArg (V c (Pipeline.arrRef spec0 9) : S40x4.Idx → EReal) (funext fun d => Fin.ext ?_)
  match d with
  | ⟨0, _⟩ => show win0_9.index t (0 : Fin 2) * 40 + 1 * a.val = a.val; rw [e0]; omega
  | ⟨1, _⟩ => show win0_9.index t (1 : Fin 2) * 4 + 1 * b.val = b.val; rw [e1]; omega

/-- The last bias's block at every point is the whole vector. -/
theorem vecB3_eq (c : Dev nD) (t : Fin cfg0.N) : vec (n := 4) (iblk0 V c 10 t) = vec (bb3 V c) := by
  have e0 := idx10 t
  funext j
  show (V c (Pipeline.arrRef spec0 10) : S4.Idx → EReal) (((cfg0.win 10).blk t).view.emb (ix1 j))
    = (V c (Pipeline.arrRef spec0 10) : S4.Idx → EReal) (ix1 j)
  refine congrArg (V c (Pipeline.arrRef spec0 10) : S4.Idx → EReal) (funext fun d => Fin.ext ?_)
  match d with
  | ⟨0, _⟩ => show win0_10.index t (0 : Fin 1) * 4 + 1 * j.val = j.val; rw [e0]; omega

/-- Entry (p, q) of the output's block at point t is entry (5000 t + p, q) of the output array. -/
theorem out_entry (t : Fin cfg0.N) (p : Fin 5000) (q : Fin 4) (r : Fin 2000000) (hr : r.val = 5000 * t.val + p.val) :
    (((cfg0.win 11).blk t).view.emb (ix2 p q) : S2000000x4.Idx) = ix2 r q := by
  obtain ⟨e0, e1⟩ := idx11 t
  refine funext fun a => Fin.ext ?_
  match a with
  | ⟨0, _⟩ => show win0_11.index t (0 : Fin 2) * 5000 + 1 * p.val = r.val; rw [e0, hr]; omega
  | ⟨1, _⟩ => show win0_11.index t (1 : Fin 2) * 4 + 1 * q.val = q.val; rw [e1]; omega

/-! ## What a point writes back, and the whole array -/

/-- What point t writes back is block t of the edge network applied to every row of the inputs. -/
theorem flushed_eq (c : Dev nD) (t : Fin cfg0.N) :
    (dat0 (F := Ideal) V c).flushed 11 t = ((cfg0.win 11).blk t).view.read (Elt Ideal)
      (edgeArrK (inA V c) (inB V c) (inC V c) (wA V c) (wB V c) (wC V c) (bb1 V c) (ww2 V c) (bb2 V c) (ww3 V c) (bb3 V c)) := by
  show (cfg0.win 11).cut (grid0.coords t) ((dat0 V c).after 11 t) = _
  rw [after0_11]
  unfold out0_11
  rw [View.canon_unit_zero zeros2]
  simp only [View.ld_unit_zero (S := S5000x3) zeros2, View.ld_unit_zero (S := S5000x4) zeros2, View.ld_unit_zero (S := S3x40) zeros2,
    View.ld_unit_zero (S := S4x40) zeros2, View.ld_unit_zero (S := S40) zeros1, View.ld_unit_zero (S := S40x40) zeros2,
    View.ld_unit_zero (S := S40x4) zeros2, View.ld_unit_zero (S := S4) zeros1]
  funext j
  obtain ⟨p, q, rfl⟩ : ∃ (p : Fin 5000) (q : Fin 4), j = ix2 p q := ⟨j 0, j 1, eq_ix2 j⟩
  have hN := gridN
  have ht := t.isLt
  obtain ⟨r, hr⟩ : ∃ r : Fin 2000000, r.val = 5000 * t.val + p.val := ⟨⟨5000 * t.val + p.val, by omega⟩, rfl⟩
  show k0_pay1 (k0_pay2 (iblk0 V c 0 t) (iblk0 V c 1 t) (iblk0 V c 2 t) (iblk0 V c 3 t) (iblk0 V c 4 t) (iblk0 V c 5 t)
        (iblk0 V c 6 t) (iblk0 V c 7 t) (iblk0 V c 8 t)) (Scalar.ofBits .f32 0x00000000#32) (iblk0 V c 9 t) (iblk0 V c 10 t) (ix2 p q)
      = edgeArrK (inA V c) (inB V c) (inC V c) (wA V c) (wB V c) (wC V c) (bb1 V c) (ww2 V c) (bb2 V c) (ww3 V c) (bb3 V c)
          (((cfg0.win 11).blk t).view.emb (ix2 p q))
  rw [out_entry t p q r hr]
  refine (entry_value _ _ _ _ _ _ _ _ _ _ _ p q).trans ?_
  show Spec.edge (row (n := 5000) (k := 3) (iblk0 V c 0 t) p) (row (n := 5000) (k := 3) (iblk0 V c 1 t) p)
        (row (n := 5000) (k := 4) (iblk0 V c 2 t) p) (ent (n := 3) (k := 40) (iblk0 V c 3 t)) (ent (n := 3) (k := 40) (iblk0 V c 4 t))
        (ent (n := 4) (k := 40) (iblk0 V c 5 t)) (vec (n := 40) (iblk0 V c 6 t)) (ent (n := 40) (k := 40) (iblk0 V c 7 t))
        (vec (n := 40) (iblk0 V c 8 t)) (ent (n := 40) (k := 4) (iblk0 V c 9 t)) (vec (n := 4) (iblk0 V c 10 t)) q
      = Spec.edge (row (inA V c) r) (row (inB V c) r) (row (inC V c) r) (ent (wA V c)) (ent (wB V c)) (ent (wC V c)) (vec (bb1 V c))
          (ent (ww2 V c)) (vec (bb2 V c)) (ent (ww3 V c)) (vec (bb3 V c)) q
  rw [rowA_eq V c t p r hr, rowB_eq V c t p r hr, rowC_eq V c t p r hr, entWA_eq V c t, entWB_eq V c t, entWC_eq V c t,
    vecB1_eq V c t, entW2_eq V c t, vecB2_eq V c t, entW3_eq V c t, vecB3_eq V c t]

/-- An index of the output array is in point t's block iff each coordinate is in the block's range on its axis. -/
theorem mem_block (t : Fin cfg0.N) (i : S2000000x4.Idx) :
    i ∈ ((cfg0.win 11).blk t).view.set ↔ ∀ a : Fin 2, win0_11.index t a * S5000x4.size a ≤ (i a).val
      ∧ (i a).val < win0_11.index t a * S5000x4.size a + S5000x4.size a := by
  show i ∈ ((View.whole main_v12).slice (win0_11.rect t)).set ↔ _
  rw [View.set_slice_whole, Rect.mem_set_unit]
  exact Iff.rfl

/-- Every entry of the output array is written: row r by the point r / 5000. -/
theorem covered (i : S2000000x4.Idx) :
    ∃ t : Fin cfg0.N, (cfg0.win 11).flush t = true ∧ i ∈ ((cfg0.win 11).blk t).view.set := by
  have h0 : (i 0).val < 2000000 := idx2_lt0 i
  have h1 : (i 1).val < 4 := idx2_lt1 i
  have hN := gridN
  obtain ⟨t, ht⟩ : ∃ t : Fin cfg0.N, t.val = (i 0).val / 5000 := ⟨⟨(i 0).val / 5000, by omega⟩, rfl⟩
  obtain ⟨e0, e1⟩ := idx11 t
  refine ⟨t, flush0_11 t, ?_⟩
  rw [mem_block]
  intro a
  match a with
  | ⟨0, _⟩ =>
    show win0_11.index t (0 : Fin 2) * 5000 ≤ (i 0).val ∧ (i 0).val < win0_11.index t (0 : Fin 2) * 5000 + 5000
    rw [e0, ht]; omega
  | ⟨1, _⟩ =>
    show win0_11.index t (1 : Fin 2) * 4 ≤ (i 1).val ∧ (i 1).val < win0_11.index t (1 : Fin 2) * 4 + 4
    rw [e1]; omega

/-- After all 400 points the output array is the edge network applied to every row of the inputs. -/
theorem final0 (c : Dev nD) :
    (dat0 (F := Ideal) V c).arrAt 11 cfg0.N
      = edgeArrK (inA V c) (inB V c) (inC V c) (wA V c) (wB V c) (wC V c) (bb1 V c) (ww2 V c) (bb2 V c) (ww3 V c) (bb3 V c) :=
  (dat0 (F := Ideal) V c).arrAt_eq_of_cover 11 _ (fun t _ => flushed_eq V c t) covered

end Cert.KernelIdeal.KVal0
end
-- ==== Proof.KVal1.lean ====
/-
  The value of the second pallas region (the node network) of the idealized kernel program.

  The region's grid has 50 points.  Point t stages rows 2000 t … 2000 t + 1999 of the two row-blocked inputs and the
  whole of every weight and bias array, computes the node network (Spec.node) of each staged row, and writes the 2000
  result rows back to rows 2000 t … of the output array.  So after the 50 points the output array is the node network of
  every row of the inputs: one whole-array function (Net.nodeArrK) of the nine input arrays as the region finds them.

  Steps: the body's stored value read at a block entry (p, q) is Spec.node of row p of the staged blocks
  (body_entry, entry_of_rows, entry_of_block); where each window's block sits (block_origin), hence what each staged block holds (rows_of_A,
  rows_of_B, whole_*); what point t writes back is block t of the whole-array function (written_back); the blocks cover
  every row (rows_covered); the final array (final1).
-/
import proofs.«423598_j5866925326701_3_alg».proof.Proof.Gen.KernelIdeal.Frame
import proofs.«423598_j5866925326701_3_alg».proof.Proof.Net
import proofs.«423598_j5866925326701_3_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.KVal1

open Cert.KernelIdeal Cert.KernelIdeal.Gen Cert.Net Idealize.ShloMosaic Idealize.ShloMosaic.ValueIdx Idealize.ShloMosaic.TcCoe
open Idealize.ShloMosaic.PlainDot
open Idealize.ShloMosaic.Pipeline (Dat)
open scoped BigOperators

variable (V : (c : Dev nD) → (b : Ref sig .tc) → Buf (Elt Ideal) ((c : Thread nD τ).loc b))

/- The region's input arrays as the region finds them, each at its literal type. -/
abbrev inA (c : Dev nD) : Mat 100000 3 := V c (Pipeline.arrRef spec1 0)
abbrev inB (c : Dev nD) : Mat 100000 4 := V c (Pipeline.arrRef spec1 1)
abbrev wA (c : Dev nD) : Mat 3 40 := V c (Pipeline.arrRef spec1 2)
abbrev wB (c : Dev nD) : Mat 4 40 := V c (Pipeline.arrRef spec1 3)
abbrev bb1 (c : Dev nD) : Row 40 := V c (Pipeline.arrRef spec1 4)
abbrev ww2 (c : Dev nD) : Mat 40 40 := V c (Pipeline.arrRef spec1 5)
abbrev bb2 (c : Dev nD) : Row 40 := V c (Pipeline.arrRef spec1 6)
abbrev ww3 (c : Dev nD) : Mat 40 3 := V c (Pipeline.arrRef spec1 7)
abbrev bb3 (c : Dev nD) : Row 3 := V c (Pipeline.arrRef spec1 8)

/-! ## The body's stored value at a block entry -/

/- The four products of the body contract the left operand's columns with the right operand's rows, no batch axis. -/
theorem dims_first_a : dot_S2000x3_S3x40_S2000x40_1_0_0_1_n_n = DotDims.plain 2000 3 40 := rfl
theorem dims_first_b : dot_S2000x4_S4x40_S2000x40_1_0_0_1_n_n = DotDims.plain 2000 4 40 := rfl
theorem dims_second : dot_S2000x40_S40x40_S2000x40_1_0_0_1_n_n = DotDims.plain 2000 40 40 := rfl
theorem dims_last : dot_S2000x40_S40x3_S2000x3_1_0_0_1_n_n = DotDims.plain 2000 40 3 := rfl

/-- A plain product accumulated into the zero splat, read at row p and column q: the sum over the contraction. -/
theorem matmul_entry {M K N : Nat} {φ₁ φ₂ : FTy} (l : FVec Ideal ⟨2, ![M, K]⟩ φ₁) (r : FVec Ideal ⟨2, ![K, N]⟩ φ₂)
    (p : Fin M) (q : Fin N) :
    matmul (DotDims.plain M K N) none l r (constant (F := Ideal) ⟨2, ![M, N]⟩ .f32 0x00000000#32) (ix2 p q)
      = ∑ k : Fin K, l (ix2 p k) * r (ix2 k q) :=
  matmul_zero_plain_apply none l r (ix2 p q)

/-- The rectifier's threshold, the all-zero word, is the extended real 0. -/
theorem zero_word : (FloatOps.ofBits (F := Ideal) .f32 0x00000000#32) = (0 : EReal) := Ideal.ofBits_zero_f32

/-- The value the body stores, read at entry (p, q) of the block, is the node network of row p of the two staged input
    blocks at output coordinate q: three affine layers, the first over the two parts, with a rectifier after the first
    two; every rounding step and same-shape cast is the identity on extended reals. -/
theorem body_entry (x0 : Vec Ideal S2000x3 .f32) (x1 : Vec Ideal S2000x4 .f32) (x2 : Vec Ideal S3x40 .f32)
    (x3 : Vec Ideal S4x40 .f32) (x4 : Vec Ideal S40 .f32) (x5 : Vec Ideal S40x40 .f32) (x6 : Vec Ideal S40 .f32)
    (x7 : Vec Ideal S40x3 .f32) (x8 : Vec Ideal S3 .f32) (p : Fin 2000) (q : Fin 3) :
    k1_pay1 (k1_pay2 x0 x1 x2 x3 x4 x5 x6 x7) (k1_pay3 x8) (ix2 p q)
      = Spec.node (row x0 p) (row x1 p) (ent x2) (ent x3) (vec x4) (ent x5) (vec x6) (ent x7) (vec x8) q := by
  unfold k1_pay1 k1_pay2 k1_pay3
  dsimp only
  simp only [shapeCast_self, dims_first_a, dims_first_b, dims_second, dims_last]
  simp only [addf_apply, truncf_apply, maximumf_apply, broadcast_apply, broadcastTo_1b_ab_apply, shapeCast_a_1a_apply,
    matmul_entry, zero_word]
  rfl

/-- Against the whole-array function: when row p of the staged input blocks is row r of the input arrays and the
    staged weights are the weight arrays, the stored value at (p, q) is the node network of the arrays at (r, q). -/
theorem entry_of_rows (A : Mat 100000 3) (B : Mat 100000 4) (wa : Mat 3 40) (wb : Mat 4 40) (b1 : Row 40) (w2 : Mat 40 40)
    (b2 : Row 40) (w3 : Mat 40 3) (b3 : Row 3)
    (x0 : Vec Ideal S2000x3 .f32) (x1 : Vec Ideal S2000x4 .f32) (x2 : Vec Ideal S3x40 .f32)
    (x3 : Vec Ideal S4x40 .f32) (x4 : Vec Ideal S40 .f32) (x5 : Vec Ideal S40x40 .f32) (x6 : Vec Ideal S40 .f32)
    (x7 : Vec Ideal S40x3 .f32) (x8 : Vec Ideal S3 .f32) (p : Fin 2000) (q : Fin 3) (r : Fin 100000)
    (hA : ∀ l : Fin 3, x0 (ix2 p l) = A (ix2 r l)) (hB : ∀ l : Fin 4, x1 (ix2 p l) = B (ix2 r l))
    (h2 : x2 = wa) (h3 : x3 = wb) (h4 : x4 = b1) (h5 : x5 = w2) (h6 : x6 = b2) (h7 : x7 = w3) (h8 : x8 = b3) :
    k1_pay1 (k1_pay2 x0 x1 x2 x3 x4 x5 x6 x7) (k1_pay3 x8) (ix2 p q) = nodeArrK A B wa wb b1 w2 b2 w3 b3 (ix2 r q) := by
  subst h2 h3 h4 h5 h6 h7 h8
  have eA : row x0 p = row A r := funext hA
  have eB : row x1 p = row B r := funext hB
  rw [body_entry, eA, eB]
  rfl

/-- The same at any entry j of the block and index i of the output array with the same column, the rows matched as
    above. -/
theorem entry_of_block (A : Mat 100000 3) (B : Mat 100000 4) (wa : Mat 3 40) (wb : Mat 4 40) (b1 : Row 40) (w2 : Mat 40 40)
    (b2 : Row 40) (w3 : Mat 40 3) (b3 : Row 3)
    (x0 : Vec Ideal S2000x3 .f32) (x1 : Vec Ideal S2000x4 .f32) (x2 : Vec Ideal S3x40 .f32)
    (x3 : Vec Ideal S4x40 .f32) (x4 : Vec Ideal S40 .f32) (x5 : Vec Ideal S40x40 .f32) (x6 : Vec Ideal S40 .f32)
    (x7 : Vec Ideal S40x3 .f32) (x8 : Vec Ideal S3 .f32) (j : S2000x3.Idx) (i : S100000x3.Idx)
    (hA : ∀ l : Fin 3, x0 (ix2 (j 0) l) = A (ix2 (i 0) l)) (hB : ∀ l : Fin 4, x1 (ix2 (j 0) l) = B (ix2 (i 0) l))
    (h2 : x2 = wa) (h3 : x3 = wb) (h4 : x4 = b1) (h5 : x5 = w2) (h6 : x6 = b2) (h7 : x7 = w3) (h8 : x8 = b3)
    (hq : (i 1).val = (j 1).val) :
    k1_pay1 (k1_pay2 x0 x1 x2 x3 x4 x5 x6 x7) (k1_pay3 x8) j = nodeArrK A B wa wb b1 w2 b2 w3 b3 i := by
  obtain ⟨p, q, rfl⟩ : ∃ (p : Fin 2000) (q : Fin 3), j = ix2 p q := ⟨j 0, j 1, eq_ix2 j⟩
  obtain ⟨r, s, rfl⟩ : ∃ (r : Fin 100000) (s : Fin 3), i = ix2 r s := ⟨i 0, i 1, eq_ix2 i⟩
  have hs : s = q := Fin.ext hq
  subst hs
  exact entry_of_rows A B wa wb b1 w2 b2 w3 b3 x0 x1 x2 x3 x4 x5 x6 x7 x8 p s r hA hB h2 h3 h4 h5 h6 h7 h8

/-! ## Where the blocks sit, and what they hold -/

/-- Where each window's block sits at grid point t, in blocks: the row-blocked windows (the two inputs and the output)
    at block row t, every weight and bias window at the origin.  Decided over the 50 points. -/
theorem block_origin : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = 0 ∧ win1_2.index t (1 : Fin 2) = 0)
    ∧ (win1_3.index t (0 : Fin 2) = 0 ∧ win1_3.index t (1 : Fin 2) = 0)
    ∧ win1_4.index t (0 : Fin 1) = 0
    ∧ (win1_5.index t (0 : Fin 2) = 0 ∧ win1_5.index t (1 : Fin 2) = 0)
    ∧ win1_6.index t (0 : Fin 1) = 0
    ∧ (win1_7.index t (0 : Fin 2) = 0 ∧ win1_7.index t (1 : Fin 2) = 0)
    ∧ win1_8.index t (0 : Fin 1) = 0
    ∧ (win1_9.index t (0 : Fin 2) = t.val ∧ win1_9.index t (1 : Fin 2) = 0) :=
  (by decide +kernel : ∀ t : Fin grid1.N, _)

theorem zero_offsets2 : (![0, 0] : Fin 2 → Nat) = fun _ => 0 := funext fun a => by fin_cases a <;> rfl
theorem zero_offsets1 : (![0] : Fin 1 → Nat) = fun _ => 0 := funext fun a => by fin_cases a <;> rfl

/-- Row (j 0) of the first input's block at point t is the first input array's row under entry j of the output's
    block: both blocks start at row 2000 t. -/
theorem rows_of_A (c : Dev nD) (t : Fin cfg1.N) (j : S2000x3.Idx) (l : Fin 3) :
    (iblk1 V c 0 t : Vec Ideal S2000x3 .f32) (ix2 (j 0) l) = inA V c (ix2 ((((cfg1.win 9).blk t).view.emb j) 0) l) := by
  obtain ⟨⟨a0, a1⟩, -, -, -, -, -, -, -, -, e0, e1⟩ := block_origin t
  show V c (Pipeline.arrRef spec1 0) (((cfg1.win 0).blk t).view.emb (ix2 (j 0) l)) = V c (Pipeline.arrRef spec1 0) _
  congr 1
  funext a; apply Fin.ext
  match a with
  | ⟨0, _⟩ => show win1_0.index t (0 : Fin 2) * 2000 + 1 * (j 0).val = win1_9.index t (0 : Fin 2) * 2000 + 1 * (j 0).val; omega
  | ⟨1, _⟩ => show win1_0.index t (1 : Fin 2) * 3 + 1 * l.val = l.val; omega

/-- The same for the second input, four columns wide. -/
theorem rows_of_B (c : Dev nD) (t : Fin cfg1.N) (j : S2000x3.Idx) (l : Fin 4) :
    (iblk1 V c 1 t : Vec Ideal S2000x4 .f32) (ix2 (j 0) l) = inB V c (ix2 ((((cfg1.win 9).blk t).view.emb j) 0) l) := by
  obtain ⟨-, ⟨a0, a1⟩, -, -, -, -, -, -, -, e0, e1⟩ := block_origin t
  show V c (Pipeline.arrRef spec1 1) (((cfg1.win 1).blk t).view.emb (ix2 (j 0) l)) = V c (Pipeline.arrRef spec1 1) _
  congr 1
  funext a; apply Fin.ext
  match a with
  | ⟨0, _⟩ => show win1_1.index t (0 : Fin 2) * 2000 + 1 * (j 0).val = win1_9.index t (0 : Fin 2) * 2000 + 1 * (j 0).val; omega
  | ⟨1, _⟩ => show win1_1.index t (1 : Fin 2) * 4 + 1 * l.val = l.val; omega

/-- Entry j of the output's block lies in column (j 1) of the output array. -/
theorem column_kept (t : Fin cfg1.N) (j : S2000x3.Idx) : ((((cfg1.win 9).blk t).view.emb j) 1).val = (j 1).val := by
  obtain ⟨-, -, -, -, -, -, -, -, -, e0, e1⟩ := block_origin t
  show win1_9.index t (1 : Fin 2) * 3 + 1 * (j 1).val = (j 1).val
  omega

/- A weight or bias window's block is the whole array: it sits at the origin and has the array's extents. -/
theorem whole_wA (c : Dev nD) (t : Fin cfg1.N) : (iblk1 V c 2 t : Vec Ideal S3x40 .f32) = wA V c := by
  obtain ⟨-, -, ⟨e0, e1⟩, -⟩ := block_origin t
  funext y
  show V c (Pipeline.arrRef spec1 2) (((cfg1.win 2).blk t).view.emb y) = V c (Pipeline.arrRef spec1 2) y
  congr 1
  funext a; apply Fin.ext
  match a with
  | ⟨0, _⟩ => show win1_2.index t (0 : Fin 2) * 3 + 1 * (y 0).val = (y 0).val; omega
  | ⟨1, _⟩ => show win1_2.index t (1 : Fin 2) * 40 + 1 * (y 1).val = (y 1).val; omega

theorem whole_wB (c : Dev nD) (t : Fin cfg1.N) : (iblk1 V c 3 t : Vec Ideal S4x40 .f32) = wB V c := by
  obtain ⟨-, -, -, ⟨e0, e1⟩, -⟩ := block_origin t
  funext y
  show V c (Pipeline.arrRef spec1 3) (((cfg1.win 3).blk t).view.emb y) = V c (Pipeline.arrRef spec1 3) y
  congr 1
  funext a; apply Fin.ext
  match a with
  | ⟨0, _⟩ => show win1_3.index t (0 : Fin 2) * 4 + 1 * (y 0).val = (y 0).val; omega
  | ⟨1, _⟩ => show win1_3.index t (1 : Fin 2) * 40 + 1 * (y 1).val = (y 1).val; omega

theorem whole_bb1 (c : Dev nD) (t : Fin cfg1.N) : (iblk1 V c 4 t : Vec Ideal S40 .f32) = bb1 V c := by
  obtain ⟨-, -, -, -, e0, -⟩ := block_origin t
  funext y
  show V c (Pipeline.arrRef spec1 4) (((cfg1.win 4).blk t).view.emb y) = V c (Pipeline.arrRef spec1 4) y
  congr 1
  funext a; apply Fin.ext
  match a with
  | ⟨0, _⟩ => show win1_4.index t (0 : Fin 1) * 40 + 1 * (y 0).val = (y 0).val; omega

theorem whole_ww2 (c : Dev nD) (t : Fin cfg1.N) : (iblk1 V c 5 t : Vec Ideal S40x40 .f32) = ww2 V c := by
  obtain ⟨-, -, -, -, -, ⟨e0, e1⟩, -⟩ := block_origin t
  funext y
  show V c (Pipeline.arrRef spec1 5) (((cfg1.win 5).blk t).view.emb y) = V c (Pipeline.arrRef spec1 5) y
  congr 1
  funext a; apply Fin.ext
  match a with
  | ⟨0, _⟩ => show win1_5.index t (0 : Fin 2) * 40 + 1 * (y 0).val = (y 0).val; omega
  | ⟨1, _⟩ => show win1_5.index t (1 : Fin 2) * 40 + 1 * (y 1).val = (y 1).val; omega

theorem whole_bb2 (c : Dev nD) (t : Fin cfg1.N) : (iblk1 V c 6 t : Vec Ideal S40 .f32) = bb2 V c := by
  obtain ⟨-, -, -, -, -, -, e0, -⟩ := block_origin t
  funext y
  show V c (Pipeline.arrRef spec1 6) (((cfg1.win 6).blk t).view.emb y) = V c (Pipeline.arrRef spec1 6) y
  congr 1
  funext a; apply Fin.ext
  match a with
  | ⟨0, _⟩ => show win1_6.index t (0 : Fin 1) * 40 + 1 * (y 0).val = (y 0).val; omega

theorem whole_ww3 (c : Dev nD) (t : Fin cfg1.N) : (iblk1 V c 7 t : Vec Ideal S40x3 .f32) = ww3 V c := by
  obtain ⟨-, -, -, -, -, -, -, ⟨e0, e1⟩, -⟩ := block_origin t
  funext y
  show V c (Pipeline.arrRef spec1 7) (((cfg1.win 7).blk t).view.emb y) = V c (Pipeline.arrRef spec1 7) y
  congr 1
  funext a; apply Fin.ext
  match a with
  | ⟨0, _⟩ => show win1_7.index t (0 : Fin 2) * 40 + 1 * (y 0).val = (y 0).val; omega
  | ⟨1, _⟩ => show win1_7.index t (1 : Fin 2) * 3 + 1 * (y 1).val = (y 1).val; omega

theorem whole_bb3 (c : Dev nD) (t : Fin cfg1.N) : (iblk1 V c 8 t : Vec Ideal S3 .f32) = bb3 V c := by
  obtain ⟨-, -, -, -, -, -, -, -, e0, -⟩ := block_origin t
  funext y
  show V c (Pipeline.arrRef spec1 8) (((cfg1.win 8).blk t).view.emb y) = V c (Pipeline.arrRef spec1 8) y
  congr 1
  funext a; apply Fin.ext
  match a with
  | ⟨0, _⟩ => show win1_8.index t (0 : Fin 1) * 3 + 1 * (y 0).val = (y 0).val; omega

/-! ## From the blocks to the array -/

/-- What point t writes back to the output array is block t of the node network of the whole input arrays. -/
theorem written_back (c : Dev nD) (t : Fin cfg1.N) :
    (dat1 (F := Ideal) V c).flushed 9 t
      = ((cfg1.win 9).blk t).view.read (Elt Ideal)
          (nodeArrK (inA V c) (inB V c) (wA V c) (wB V c) (bb1 V c) (ww2 V c) (bb2 V c) (ww3 V c) (bb3 V c)) := by
  show (cfg1.win 9).cut (grid1.coords t) ((dat1 V c).after 9 t) = _
  rw [after1_9]
  unfold out1_9
  rw [View.canon_unit_zero zero_offsets2]
  simp only [View.ld_unit_zero (S := S2000x3) zero_offsets2, View.ld_unit_zero (S := S2000x4) zero_offsets2,
    View.ld_unit_zero (S := S3x40) zero_offsets2, View.ld_unit_zero (S := S4x40) zero_offsets2,
    View.ld_unit_zero (S := S40) zero_offsets1, View.ld_unit_zero (S := S40x40) zero_offsets2,
    View.ld_unit_zero (S := S40x3) zero_offsets2, View.ld_unit_zero (S := S3) zero_offsets1]
  funext j
  exact entry_of_block (inA V c) (inB V c) (wA V c) (wB V c) (bb1 V c) (ww2 V c) (bb2 V c) (ww3 V c) (bb3 V c)
    (iblk1 V c 0 t) (iblk1 V c 1 t) (iblk1 V c 2 t) (iblk1 V c 3 t) (iblk1 V c 4 t) (iblk1 V c 5 t) (iblk1 V c 6 t)
    (iblk1 V c 7 t) (iblk1 V c 8 t) j (((cfg1.win 9).blk t).view.emb j)
    (rows_of_A V c t j) (rows_of_B V c t j) (whole_wA V c t) (whole_wB V c t) (whole_bb1 V c t) (whole_ww2 V c t)
    (whole_bb2 V c t) (whole_ww3 V c t) (whole_bb3 V c t) (column_kept t j)

/-- An index of the output array lies in point t's block iff each coordinate lies in the block's range on its axis. -/
theorem mem_block (t : Fin cfg1.N) (i : S100000x3.Idx) :
    i ∈ ((cfg1.win 9).blk t).view.set ↔ ∀ a : Fin 2, win1_9.index t a * S2000x3.size a ≤ (i a).val
      ∧ (i a).val < win1_9.index t a * S2000x3.size a + S2000x3.size a := by
  show i ∈ ((View.whole main_v21).slice (win1_9.rect t)).set ↔ _
  rw [View.set_slice_whole, Rect.mem_set_unit]
  exact Iff.rfl

/-- Every row r of the output array lies in the block of the point r / 2000, which writes back. -/
theorem rows_covered (i : S100000x3.Idx) :
    ∃ t : Fin cfg1.N, (cfg1.win 9).flush t = true ∧ i ∈ ((cfg1.win 9).blk t).view.set := by
  have hi0 : (i 0).val < 100000 := (i 0).isLt
  have hi1 : (i 1).val < 3 := (i 1).isLt
  have hN : cfg1.N = 50 := N_1
  let t : Fin cfg1.N := ⟨(i 0).val / 2000, by rw [hN]; omega⟩
  obtain ⟨-, -, -, -, -, -, -, -, -, e0, e1⟩ := block_origin t
  have ht : t.val = (i 0).val / 2000 := rfl
  refine ⟨t, flush1_9 t, ?_⟩
  rw [mem_block]
  intro a
  match a with
  | ⟨0, _⟩ => show win1_9.index t (0 : Fin 2) * 2000 ≤ (i 0).val ∧ (i 0).val < win1_9.index t (0 : Fin 2) * 2000 + 2000; omega
  | ⟨1, _⟩ => show win1_9.index t (1 : Fin 2) * 3 ≤ (i 1).val ∧ (i 1).val < win1_9.index t (1 : Fin 2) * 3 + 3; omega

/-- After all 50 points the output array is the node network of every row of the inputs. -/
theorem final1 (c : Dev nD) :
    (dat1 (F := Ideal) V c).arrAt 9 cfg1.N
      = nodeArrK (inA V c) (inB V c) (wA V c) (wB V c) (bb1 V c) (ww2 V c) (bb2 V c) (ww3 V c) (bb3 V c) :=
  (dat1 V c).arrAt_eq_of_cover 9 _ (fun t _ => written_back V c t) rows_covered

end Cert.KernelIdeal.KVal1

end
-- ==== Proof.KVal2.lean ====
/-
  The value of the third network region: after all four hundred grid points, the region's output array is the
  logistic of the edge network applied row by row to the region's three row-blocked inputs, with the weights and
  biases as the region finds them.

  First the body's stored value at one entry of a block of five thousand rows: three plain matrix products into a
  zero splat added in order, a bias row broadcast over the rows, a rectifier, a second plain product and bias, a
  rectifier, a last plain product and bias, and the logistic.  Then the blocks: grid point t stages rows
  5000 t … 5000 t + 4999 of the row-blocked inputs and all of each weight and bias array, and writes rows
  5000 t … of the output; the row r of the output is written by the point r / 5000.
-/
import proofs.«423598_j5866925326701_3_alg».proof.Proof.Gen.KernelIdeal.Frame
import proofs.«423598_j5866925326701_3_alg».proof.Proof.Net
import proofs.«423598_j5866925326701_3_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.KVal2

open Cert.KernelIdeal Cert.KernelIdeal.Gen Cert.Net Idealize.ShloMosaic Idealize.ShloMosaic.ValueIdx Idealize.ShloMosaic.TcCoe
open Idealize.ShloMosaic.Pipeline (Dat)
open scoped BigOperators

/-! ## The body's stored value at one entry -/

/-- A bias row of length n, cast to one row and broadcast over m rows, read at (p, k): the bias at k. -/
theorem biasRow_apply {m n : Nat} (b : FVec Ideal ⟨1, ![n]⟩ .f32) (h1 : (⟨1, ![n]⟩ : Shape).ShapeCasts ⟨2, ![1, n]⟩)
    (h2 : (⟨2, ![1, n]⟩ : Shape).Broadcasts ⟨2, ![m, n]⟩) (p : Fin m) (k : Fin n) :
    broadcastTo ⟨2, ![m, n]⟩ (shapeCast ⟨2, ![1, n]⟩ b h1) h2 (ix2 p k) = b (ix1 k) := by
  rw [broadcastTo_1b_ab_apply, shapeCast_a_1a_apply]

/-- A plain product into a zero splat at entry (p, q): the sum over the contraction of left (p, k) times right (k, q). -/
theorem mm_apply {M K N : Nat} (l : FVec Ideal ⟨2, ![M, K]⟩ .bf16) (r : FVec Ideal ⟨2, ![K, N]⟩ .bf16) (p : Fin M) (q : Fin N) :
    matmul (DotDims.plain M K N) none l r (constant ⟨2, ![M, N]⟩ .f32 0x00000000#32) (ix2 p q)
      = ∑ k : Fin K, l (ix2 p k) * r (ix2 k q) :=
  PlainDot.matmul_zero_plain_apply none l r (ix2 p q)

/-- The first two layers at entry (p, k) of a block: the second layer's pre-activation of row p. -/
theorem layers12_apply (x0 x1 : Vec Ideal S5000x3 .f32) (x2 : Vec Ideal S5000x4 .f32) (x3 x4 : Vec Ideal S3x40 .f32)
    (x5 : Vec Ideal S4x40 .f32) (x6 : Vec Ideal S40 .f32) (x7 : Vec Ideal S40x40 .f32) (x8 : Vec Ideal S40 .f32)
    (p : Fin 5000) (k : Fin 40) :
    k2_pay2 x0 x1 x2 x3 x4 x5 x6 x7 x8 (ix2 p k)
      = (∑ j : Fin 40, max (Spec.lin3 (row (n := 5000) (k := 3) x0 p) (row (n := 5000) (k := 3) x1 p) (row (n := 5000) (k := 4) x2 p)
            (ent (n := 3) (k := 40) x3) (ent (n := 3) (k := 40) x4) (ent (n := 4) (k := 40) x5) (vec (n := 40) x6) j) 0
            * ent (n := 40) (k := 40) x7 j k) + vec (n := 40) x8 k := by
  unfold k2_pay2
  simp only [shapeCast_self]
  rw [addf_apply, biasRow_apply]
  rw [show dot_S5000x40_S40x40_S5000x40_1_0_0_1_n_n = DotDims.plain 5000 40 40 from rfl, mm_apply]
  refine congrArg (· + x8 (ix1 k)) (Finset.sum_congr rfl fun j _ => ?_)
  rw [truncf_apply, truncf_apply, maximumf_apply, broadcast_apply, addf_apply, biasRow_apply, addf_apply, addf_apply]
  rw [show dot_S5000x3_S3x40_S5000x40_1_0_0_1_n_n = DotDims.plain 5000 3 40 from rfl,
    show dot_S5000x4_S4x40_S5000x40_1_0_0_1_n_n = DotDims.plain 5000 4 40 from rfl, mm_apply, mm_apply, mm_apply]
  rw [show FloatOps.ofBits (F := Ideal) .f32 0x00000000#32 = 0 from Ideal.ofBits_zero_f32]
  rfl

/-- The last layer and the logistic at entry (p, q) of a block, from the second layer's pre-activations. -/
theorem layer3_apply (h : FVec Ideal S5000x40 .f32) (x9 : Vec Ideal S40x1 .f32) (x10 : Vec Ideal S1 .f32)
    (p : Fin 5000) (q : Fin 1) :
    k2_pay1 h x9 x10 (ix2 p q)
      = Ideal.logistic ((∑ k : Fin 40, max (h (ix2 p k)) 0 * ent (n := 40) (k := 1) x9 k q) + vec (n := 1) x10 q) := by
  unfold k2_pay1
  simp only [shapeCast_self]
  show Ideal.logistic _ = _
  rw [addf_apply, biasRow_apply,
    show dot_S5000x40_S40x1_S5000x1_1_0_0_1_n_n = DotDims.plain 5000 40 1 from rfl, mm_apply]
  refine congrArg (fun z => Ideal.logistic (z + x10 (ix1 q))) (Finset.sum_congr rfl fun k _ => ?_)
  rw [truncf_apply, truncf_apply, maximumf_apply, broadcast_apply,
    show FloatOps.ofBits (F := Ideal) .f32 0x00000000#32 = 0 from Ideal.ofBits_zero_f32]
  rfl

/-- The body's stored value at entry (p, q) of a block: the logistic of the edge network on row p of the blocks. -/
theorem stored_apply (x0 x1 : Vec Ideal S5000x3 .f32) (x2 : Vec Ideal S5000x4 .f32) (x3 x4 : Vec Ideal S3x40 .f32)
    (x5 : Vec Ideal S4x40 .f32) (x6 : Vec Ideal S40 .f32) (x7 : Vec Ideal S40x40 .f32) (x8 : Vec Ideal S40 .f32)
    (x9 : Vec Ideal S40x1 .f32) (x10 : Vec Ideal S1 .f32) (p : Fin 5000) (q : Fin 1) :
    k2_pay1 (k2_pay2 x0 x1 x2 x3 x4 x5 x6 x7 x8) x9 x10 (ix2 p q)
      = Ideal.logistic (Spec.edge (row (n := 5000) (k := 3) x0 p) (row (n := 5000) (k := 3) x1 p) (row (n := 5000) (k := 4) x2 p)
          (ent (n := 3) (k := 40) x3) (ent (n := 3) (k := 40) x4) (ent (n := 4) (k := 40) x5) (vec (n := 40) x6)
          (ent (n := 40) (k := 40) x7) (vec (n := 40) x8) (ent (n := 40) (k := 1) x9) (vec (n := 1) x10) q) := by
  rw [layer3_apply]
  simp only [layers12_apply]
  rfl

/-! ## From the blocks to the array -/

variable (V : (c : Dev nD) → (b : Ref sig .tc) → Buf (Elt Ideal) ((c : Thread nD τ).loc b))

/- the region's input arrays as the region finds them, each at its literal type -/
abbrev inA (c : Dev nD) : Mat 2000000 3 := V c (Pipeline.arrRef spec2 0)
abbrev inB (c : Dev nD) : Mat 2000000 3 := V c (Pipeline.arrRef spec2 1)
abbrev inC (c : Dev nD) : Mat 2000000 4 := V c (Pipeline.arrRef spec2 2)
abbrev wA (c : Dev nD) : Mat 3 40 := V c (Pipeline.arrRef spec2 3)
abbrev wB (c : Dev nD) : Mat 3 40 := V c (Pipeline.arrRef spec2 4)
abbrev wC (c : Dev nD) : Mat 4 40 := V c (Pipeline.arrRef spec2 5)
abbrev bb1 (c : Dev nD) : Row 40 := V c (Pipeline.arrRef spec2 6)
abbrev ww2 (c : Dev nD) : Mat 40 40 := V c (Pipeline.arrRef spec2 7)
abbrev bb2 (c : Dev nD) : Row 40 := V c (Pipeline.arrRef spec2 8)
abbrev ww3 (c : Dev nD) : Mat 40 1 := V c (Pipeline.arrRef spec2 9)
abbrev bb3 (c : Dev nD) : Row 1 := V c (Pipeline.arrRef spec2 10)

/-- The whole output array: the logistic of the edge network on every row of the inputs. -/
abbrev outArr (c : Dev nD) : Mat 2000000 1 :=
  fun i => Ideal.logistic (edgeArrK (o := 1) (inA V c) (inB V c) (inC V c) (wA V c) (wB V c) (wC V c) (bb1 V c) (ww2 V c) (bb2 V c) (ww3 V c) (bb3 V c) i)

theorem zero2 : (![0, 0] : Fin 2 → Nat) = fun _ => 0 := funext fun a => by fin_cases a <;> rfl
theorem zero1 : (![0] : Fin 1 → Nat) = fun _ => 0 := funext fun a => by fin_cases a; rfl

/-- The index maps, decided once over the grid: the row-blocked windows (the three inputs and the output) are at
    block t of their rows and block 0 of their columns; every weight and bias window is at block 0. -/
theorem idx_facts : ∀ t : Fin cfg2.N,
    (win2_0.index t (0 : Fin 2) = t.val ∧ win2_0.index t (1 : Fin 2) = 0)
    ∧ (win2_1.index t (0 : Fin 2) = t.val ∧ win2_1.index t (1 : Fin 2) = 0)
    ∧ (win2_2.index t (0 : Fin 2) = t.val ∧ win2_2.index t (1 : Fin 2) = 0)
    ∧ (win2_3.index t (0 : Fin 2) = 0 ∧ win2_3.index t (1 : Fin 2) = 0)
    ∧ (win2_4.index t (0 : Fin 2) = 0 ∧ win2_4.index t (1 : Fin 2) = 0)
    ∧ (win2_5.index t (0 : Fin 2) = 0 ∧ win2_5.index t (1 : Fin 2) = 0)
    ∧ win2_6.index t (0 : Fin 1) = 0
    ∧ (win2_7.index t (0 : Fin 2) = 0 ∧ win2_7.index t (1 : Fin 2) = 0)
    ∧ win2_8.index t (0 : Fin 1) = 0
    ∧ (win2_9.index t (0 : Fin 2) = 0 ∧ win2_9.index t (1 : Fin 2) = 0)
    ∧ win2_10.index t (0 : Fin 1) = 0
    ∧ (win2_11.index t (0 : Fin 2) = t.val ∧ win2_11.index t (1 : Fin 2) = 0) :=
  (by decide +kernel : ∀ t : Fin grid2.N, _)

theorem point_lt (t : Fin cfg2.N) : t.val < 400 := lt_of_lt_of_eq t.isLt N_2

/-- Row p of the first input's block at point t is row 5000 t + p of the array. -/
theorem rowsA (c : Dev nD) (t : Fin cfg2.N) (p : Fin 5000) (r : Fin 2000000) (hr : r.val = 5000 * t.val + p.val) :
    row (n := 5000) (k := 3) (iblk2 V c 0 t) p = row (inA V c) r := by
  obtain ⟨⟨e0, e1⟩, -⟩ := idx_facts t
  funext l
  have h : ((cfg2.win 0).blk t).view.emb (ix2 p l) = ix2 r l := by
    funext a; apply Fin.ext
    match a with
    | ⟨0, _⟩ => show win2_0.index t (0 : Fin 2) * 5000 + 1 * p.val = r.val; omega
    | ⟨1, _⟩ => show win2_0.index t (1 : Fin 2) * 3 + 1 * l.val = l.val; omega
  show V c (Pipeline.arrRef spec2 0) (((cfg2.win 0).blk t).view.emb (ix2 p l)) = V c (Pipeline.arrRef spec2 0) (ix2 r l)
  rw [h]

/-- Row p of the second input's block at point t is row 5000 t + p of the array. -/
theorem rowsB (c : Dev nD) (t : Fin cfg2.N) (p : Fin 5000) (r : Fin 2000000) (hr : r.val = 5000 * t.val + p.val) :
    row (n := 5000) (k := 3) (iblk2 V c 1 t) p = row (inB V c) r := by
  obtain ⟨-, ⟨e0, e1⟩, -⟩ := idx_facts t
  funext l
  have h : ((cfg2.win 1).blk t).view.emb (ix2 p l) = ix2 r l := by
    funext a; apply Fin.ext
    match a with
    | ⟨0, _⟩ => show win2_1.index t (0 : Fin 2) * 5000 + 1 * p.val = r.val; omega
    | ⟨1, _⟩ => show win2_1.index t (1 : Fin 2) * 3 + 1 * l.val = l.val; omega
  show V c (Pipeline.arrRef spec2 1) (((cfg2.win 1).blk t).view.emb (ix2 p l)) = V c (Pipeline.arrRef spec2 1) (ix2 r l)
  rw [h]

/-- Row p of the third input's block at point t is row 5000 t + p of the array. -/
theorem rowsC (c : Dev nD) (t : Fin cfg2.N) (p : Fin 5000) (r : Fin 2000000) (hr : r.val = 5000 * t.val + p.val) :
    row (n := 5000) (k := 4) (iblk2 V c 2 t) p = row (inC V c) r := by
  obtain ⟨-, -, ⟨e0, e1⟩, -⟩ := idx_facts t
  funext l
  have h : ((cfg2.win 2).blk t).view.emb (ix2 p l) = ix2 r l := by
    funext a; apply Fin.ext
    match a with
    | ⟨0, _⟩ => show win2_2.index t (0 : Fin 2) * 5000 + 1 * p.val = r.val; omega
    | ⟨1, _⟩ => show win2_2.index t (1 : Fin 2) * 4 + 1 * l.val = l.val; omega
  show V c (Pipeline.arrRef spec2 2) (((cfg2.win 2).blk t).view.emb (ix2 p l)) = V c (Pipeline.arrRef spec2 2) (ix2 r l)
  rw [h]

/-- Every weight and bias window stages its whole array at every point. -/
theorem wholeWA (c : Dev nD) (t : Fin cfg2.N) : (iblk2 V c 3 t : Vec Ideal S3x40 .f32) = wA V c := by
  obtain ⟨-, -, -, ⟨e0, e1⟩, -⟩ := idx_facts t
  funext y
  have h : ((cfg2.win 3).blk t).view.emb y = y := by
    funext a; apply Fin.ext
    match a with
    | ⟨0, _⟩ => show win2_3.index t (0 : Fin 2) * 3 + 1 * (y 0).val = (y 0).val; omega
    | ⟨1, _⟩ => show win2_3.index t (1 : Fin 2) * 40 + 1 * (y 1).val = (y 1).val; omega
  show V c (Pipeline.arrRef spec2 3) (((cfg2.win 3).blk t).view.emb y) = V c (Pipeline.arrRef spec2 3) y
  rw [h]

theorem wholeWB (c : Dev nD) (t : Fin cfg2.N) : (iblk2 V c 4 t : Vec Ideal S3x40 .f32) = wB V c := by
  obtain ⟨-, -, -, -, ⟨e0, e1⟩, -⟩ := idx_facts t
  funext y
  have h : ((cfg2.win 4).blk t).view.emb y = y := by
    funext a; apply Fin.ext
    match a with
    | ⟨0, _⟩ => show win2_4.index t (0 : Fin 2) * 3 + 1 * (y 0).val = (y 0).val; omega
    | ⟨1, _⟩ => show win2_4.index t (1 : Fin 2) * 40 + 1 * (y 1).val = (y 1).val; omega
  show V c (Pipeline.arrRef spec2 4) (((cfg2.win 4).blk t).view.emb y) = V c (Pipeline.arrRef spec2 4) y
  rw [h]

theorem wholeWC (c : Dev nD) (t : Fin cfg2.N) : (iblk2 V c 5 t : Vec Ideal S4x40 .f32) = wC V c := by
  obtain ⟨-, -, -, -, -, ⟨e0, e1⟩, -⟩ := idx_facts t
  funext y
  have h : ((cfg2.win 5).blk t).view.emb y = y := by
    funext a; apply Fin.ext
    match a with
    | ⟨0, _⟩ => show win2_5.index t (0 : Fin 2) * 4 + 1 * (y 0).val = (y 0).val; omega
    | ⟨1, _⟩ => show win2_5.index t (1 : Fin 2) * 40 + 1 * (y 1).val = (y 1).val; omega
  show V c (Pipeline.arrRef spec2 5) (((cfg2.win 5).blk t).view.emb y) = V c (Pipeline.arrRef spec2 5) y
  rw [h]

theorem wholeB1 (c : Dev nD) (t : Fin cfg2.N) : (iblk2 V c 6 t : Vec Ideal S40 .f32) = bb1 V c := by
  obtain ⟨-, -, -, -, -, -, e0, -⟩ := idx_facts t
  funext y
  have h : ((cfg2.win 6).blk t).view.emb y = y := by
    funext a; apply Fin.ext
    match a with
    | ⟨0, _⟩ => show win2_6.index t (0 : Fin 1) * 40 + 1 * (y 0).val = (y 0).val; omega
  show V c (Pipeline.arrRef spec2 6) (((cfg2.win 6).blk t).view.emb y) = V c (Pipeline.arrRef spec2 6) y
  rw [h]

theorem wholeW2 (c : Dev nD) (t : Fin cfg2.N) : (iblk2 V c 7 t : Vec Ideal S40x40 .f32) = ww2 V c := by
  obtain ⟨-, -, -, -, -, -, -, ⟨e0, e1⟩, -⟩ := idx_facts t
  funext y
  have h : ((cfg2.win 7).blk t).view.emb y = y := by
    funext a; apply Fin.ext
    match a with
    | ⟨0, _⟩ => show win2_7.index t (0 : Fin 2) * 40 + 1 * (y 0).val = (y 0).val; omega
    | ⟨1, _⟩ => show win2_7.index t (1 : Fin 2) * 40 + 1 * (y 1).val = (y 1).val; omega
  show V c (Pipeline.arrRef spec2 7) (((cfg2.win 7).blk t).view.emb y) = V c (Pipeline.arrRef spec2 7) y
  rw [h]

theorem wholeB2 (c : Dev nD) (t : Fin cfg2.N) : (iblk2 V c 8 t : Vec Ideal S40 .f32) = bb2 V c := by
  obtain ⟨-, -, -, -, -, -, -, -, e0, -⟩ := idx_facts t
  funext y
  have h : ((cfg2.win 8).blk t).view.emb y = y := by
    funext a; apply Fin.ext
    match a with
    | ⟨0, _⟩ => show win2_8.index t (0 : Fin 1) * 40 + 1 * (y 0).val = (y 0).val; omega
  show V c (Pipeline.arrRef spec2 8) (((cfg2.win 8).blk t).view.emb y) = V c (Pipeline.arrRef spec2 8) y
  rw [h]

theorem wholeW3 (c : Dev nD) (t : Fin cfg2.N) : (iblk2 V c 9 t : Vec Ideal S40x1 .f32) = ww3 V c := by
  obtain ⟨-, -, -, -, -, -, -, -, -, ⟨e0, e1⟩, -⟩ := idx_facts t
  funext y
  have h : ((cfg2.win 9).blk t).view.emb y = y := by
    funext a; apply Fin.ext
    match a with
    | ⟨0, _⟩ => show win2_9.index t (0 : Fin 2) * 40 + 1 * (y 0).val = (y 0).val; omega
    | ⟨1, _⟩ => show win2_9.index t (1 : Fin 2) * 1 + 1 * (y 1).val = (y 1).val; omega
  show V c (Pipeline.arrRef spec2 9) (((cfg2.win 9).blk t).view.emb y) = V c (Pipeline.arrRef spec2 9) y
  rw [h]

theorem wholeB3 (c : Dev nD) (t : Fin cfg2.N) : (iblk2 V c 10 t : Vec Ideal S1 .f32) = bb3 V c := by
  obtain ⟨-, -, -, -, -, -, -, -, -, -, e0, -⟩ := idx_facts t
  funext y
  have h : ((cfg2.win 10).blk t).view.emb y = y := by
    funext a; apply Fin.ext
    match a with
    | ⟨0, _⟩ => show win2_10.index t (0 : Fin 1) * 1 + 1 * (y 0).val = (y 0).val; omega
  show V c (Pipeline.arrRef spec2 10) (((cfg2.win 10).blk t).view.emb y) = V c (Pipeline.arrRef spec2 10) y
  rw [h]

/-- What point t writes back is block t of the whole output array: rows 5000 t … 5000 t + 4999. -/
theorem flushed_eq (c : Dev nD) (t : Fin cfg2.N) :
    (dat2 (F := Ideal) V c).flushed 11 t = ((cfg2.win 11).blk t).view.read (Elt Ideal) (outArr V c) := by
  show (cfg2.win 11).cut (grid2.coords t) ((dat2 (F := Ideal) V c).after 11 t) = _
  rw [after2_11]
  unfold out2_11
  rw [View.canon_unit_zero zero2]
  simp only [View.ld_unit_zero (S := S5000x3) zero2, View.ld_unit_zero (S := S5000x4) zero2, View.ld_unit_zero (S := S3x40) zero2,
    View.ld_unit_zero (S := S4x40) zero2, View.ld_unit_zero (S := S40) zero1, View.ld_unit_zero (S := S40x40) zero2,
    View.ld_unit_zero (S := S40x1) zero2, View.ld_unit_zero (S := S1) zero1]
  funext j
  obtain ⟨-, -, -, -, -, -, -, -, -, -, -, e0, e1⟩ := idx_facts t
  have ht := point_lt t
  have hp : (j 0).val < 5000 := (j 0).isLt
  have hq : (j 1).val < 1 := (j 1).isLt
  have hx : (win2 11).xinj (grid2.coords t) j = ix2 (⟨(j 0).val, hp⟩ : Fin 5000) (⟨(j 1).val, hq⟩ : Fin 1) := by
    funext a
    match a with
    | ⟨0, _⟩ => rfl
    | ⟨1, _⟩ => rfl
  have hr : 5000 * t.val + (j 0).val < 2000000 := by omega
  have hi : ((cfg2.win 11).blk t).view.emb j
      = ix2 (⟨5000 * t.val + (j 0).val, hr⟩ : Fin 2000000) (⟨(j 1).val, hq⟩ : Fin 1) := by
    funext a; apply Fin.ext
    match a with
    | ⟨0, _⟩ => show win2_11.index t (0 : Fin 2) * 5000 + 1 * (j 0).val = 5000 * t.val + (j 0).val; omega
    | ⟨1, _⟩ => show win2_11.index t (1 : Fin 2) * 1 + 1 * (j 1).val = (j 1).val; omega
  show k2_pay1 (F := Ideal) _ _ _ ((win2 11).xinj (grid2.coords t) j) = outArr V c (((cfg2.win 11).blk t).view.emb j)
  rw [hx, hi]
  refine (stored_apply _ _ _ _ _ _ _ _ _ _ _ _ _).trans (congrArg Ideal.logistic ?_)
  rw [rowsA V c t ⟨(j 0).val, hp⟩ ⟨5000 * t.val + (j 0).val, hr⟩ rfl, rowsB V c t ⟨(j 0).val, hp⟩ ⟨5000 * t.val + (j 0).val, hr⟩ rfl,
    rowsC V c t ⟨(j 0).val, hp⟩ ⟨5000 * t.val + (j 0).val, hr⟩ rfl, wholeWA, wholeWB, wholeWC, wholeB1, wholeW2, wholeB2,
    wholeW3, wholeB3]
  rfl

/-- An index of the output array is in point t's block iff each coordinate is in the block's range on its axis. -/
theorem mem_blk (t : Fin cfg2.N) (i : S2000000x1.Idx) :
    i ∈ ((cfg2.win 11).blk t).view.set
      ↔ ∀ a : Fin 2, win2_11.index t a * S5000x1.size a ≤ (i a).val ∧ (i a).val < win2_11.index t a * S5000x1.size a + S5000x1.size a := by
  show i ∈ ((View.whole main_v30).slice (win2_11.rect t)).set ↔ _
  rw [View.set_slice_whole, Rect.mem_set_unit]
  exact Iff.rfl

/-- Every row of the output is written by some point: row r by the point r / 5000. -/
theorem cover (i : S2000000x1.Idx) :
    ∃ t : Fin cfg2.N, (cfg2.win 11).flush t = true ∧ i ∈ ((cfg2.win 11).blk t).view.set := by
  have hi0 : (i 0).val < 2000000 := (i 0).isLt
  have hi1 : (i 1).val < 1 := (i 1).isLt
  have hN : cfg2.N = 400 := N_2
  obtain ⟨t, ht⟩ : ∃ t : Fin cfg2.N, t.val = (i 0).val / 5000 := ⟨⟨(i 0).val / 5000, by rw [hN]; omega⟩, rfl⟩
  obtain ⟨-, -, -, -, -, -, -, -, -, -, -, e0, e1⟩ := idx_facts t
  refine ⟨t, flush2_11 t, ?_⟩
  rw [mem_blk]
  intro a
  match a with
  | ⟨0, _⟩ =>
    show win2_11.index t (0 : Fin 2) * 5000 ≤ (i 0).val ∧ (i 0).val < win2_11.index t (0 : Fin 2) * 5000 + 5000
    omega
  | ⟨1, _⟩ =>
    show win2_11.index t (1 : Fin 2) * 1 ≤ (i 1).val ∧ (i 1).val < win2_11.index t (1 : Fin 2) * 1 + 1
    omega

/-- After all four hundred points the output array is the logistic of the edge network on every row of the inputs. -/
theorem final2 (c : Dev nD) :
    (dat2 (F := Ideal) V c).arrAt 11 cfg2.N
      = fun i => Ideal.logistic (edgeArrK (o := 1) (inA V c) (inB V c) (inC V c) (wA V c) (wB V c) (wC V c) (bb1 V c) (ww2 V c) (bb2 V c) (ww3 V c) (bb3 V c) i) :=
  (dat2 (F := Ideal) V c).arrAt_eq_of_cover 11 (outArr V c) (fun t _ => flushed_eq V c t) cover

end Cert.KernelIdeal.KVal2

end
-- ==== Proof.Weights.lean ====
/-
  The weight preparation of the program, read as matrices.

  Each stored weight matrix is output-major.  The program transposes it, and for a first layer it then cuts the
  transposed matrix into blocks of consecutive rows, one block per part of the concatenated input.  Entry (l, j)
  of a transposed matrix is entry (j, l) of the stored one; entry (l, j) of the block that starts at row s is entry
  (j, s + l) of the stored one.
-/
import proofs.«423598_j5866925326701_3_alg».proof.KernelIdeal
import proofs.«423598_j5866925326701_3_alg».proof.Proof.Net
import Idealize.ShloMosaic.Lib.Pipeline.Value
import Idealize.ShloMosaic.Lib.ValueIdx
import Idealize.ShloMosaic.PureOps.Ideal

noncomputable section

namespace Cert.KernelIdeal.Weights

open Cert.KernelIdeal Cert.Net Idealize.ShloMosaic Idealize.ShloMosaic.ValueIdx

/-! ## At any extents -/

/-- Swapping the two axes of a stored matrix gives its transpose. -/
theorem transpose_eq_tr {a b : Nat} (W : Mat a b) (ht : (⟨2, ![a, b]⟩ : Shape).Transposes [1, 0] ⟨2, ![b, a]⟩) :
    transpose ⟨2, ![b, a]⟩ [1, 0] W ht = tr W := by
  funext i
  rw [transpose_apply [1, 0] W ht i (ix2 (i 1) (i 0)) (fun c => match c with
    | ⟨0, _⟩ => rfl
    | ⟨1, _⟩ => rfl)]
  rfl

/-- Rows s, …, s + k − 1 of the transpose are the block of the stored matrix's columns s, …, s + k − 1, transposed. -/
theorem slice_transpose_eq_trBlock {a b : Nat} (s k : Nat) (hsk : s + k ≤ b) (W : Mat a b)
    (ht : (⟨2, ![a, b]⟩ : Shape).Transposes [1, 0] ⟨2, ![b, a]⟩)
    (hs : (⟨2, ![b, a]⟩ : Shape).Slices ![s, 0] ⟨2, ![k, a]⟩) :
    extractStridedSlice ⟨2, ![k, a]⟩ ![s, 0] (transpose ⟨2, ![b, a]⟩ [1, 0] W ht) hs = trBlock W s k hsk := by
  funext i
  have hi : s + (i 0).val < b := by have := (i 0).isLt; change (i 0).val < k at this; omega
  rw [extractStridedSlice_apply ![s, 0] _ hs i (ix2 ⟨s + (i 0).val, hi⟩ (i 1)) (fun c => match c with
    | ⟨0, _⟩ => rfl
    | ⟨1, _⟩ => by show (i 1).val = 0 + (i 1).val; omega)]
  rw [transpose_apply [1, 0] W ht _ (ix2 (i 1) ⟨s + (i 0).val, hi⟩) (fun c => match c with
    | ⟨0, _⟩ => rfl
    | ⟨1, _⟩ => rfl)]
  rfl

variable [Facts]
open Facts₀ Facts

/-! ## The program's transposes -/

theorem tr_40x40 (W : Mat 40 40) : transpose S40x40 [1, 0] W transposes_S40x40_S40x40_1_0 = tr W :=
  transpose_eq_tr W _
theorem tr_4x40 (W : Mat 4 40) : transpose S40x4 [1, 0] W transposes_S4x40_S40x4_1_0 = tr W :=
  transpose_eq_tr W _
theorem tr_3x40 (W : Mat 3 40) : transpose S40x3 [1, 0] W transposes_S3x40_S40x3_1_0 = tr W :=
  transpose_eq_tr W _
theorem tr_1x40 (W : Mat 1 40) : transpose S40x1 [1, 0] W transposes_S1x40_S40x1_1_0 = tr W :=
  transpose_eq_tr W _

/-! ## The first layers' blocks: 40 × 10 cut 3 + 3 + 4, and 40 × 7 cut 3 + 4 -/

theorem blk10_0 (W : Mat 40 10) : extractStridedSlice S3x40 ![0, 0] (transpose S10x40 [1, 0] W transposes_S40x10_S10x40_1_0) slices_S10x40_S3x40_0_0 = trBlock W 0 3 (by omega) :=
  slice_transpose_eq_trBlock 0 3 _ W _ _
theorem blk10_3 (W : Mat 40 10) : extractStridedSlice S3x40 ![3, 0] (transpose S10x40 [1, 0] W transposes_S40x10_S10x40_1_0) slices_S10x40_S3x40_3_0 = trBlock W 3 3 (by omega) :=
  slice_transpose_eq_trBlock 3 3 _ W _ _
theorem blk10_6 (W : Mat 40 10) : extractStridedSlice S4x40 ![6, 0] (transpose S10x40 [1, 0] W transposes_S40x10_S10x40_1_0) slices_S10x40_S4x40_6_0 = trBlock W 6 4 (by omega) :=
  slice_transpose_eq_trBlock 6 4 _ W _ _
theorem blk7_0 (W : Mat 40 7) : extractStridedSlice S3x40 ![0, 0] (transpose S7x40 [1, 0] W transposes_S40x7_S7x40_1_0) slices_S7x40_S3x40_0_0 = trBlock W 0 3 (by omega) :=
  slice_transpose_eq_trBlock 0 3 _ W _ _
theorem blk7_3 (W : Mat 40 7) : extractStridedSlice S4x40 ![3, 0] (transpose S7x40 [1, 0] W transposes_S40x7_S7x40_1_0) slices_S7x40_S4x40_3_0 = trBlock W 3 4 (by omega) :=
  slice_transpose_eq_trBlock 3 4 _ W _ _

end Cert.KernelIdeal.Weights

end
-- ==== Proof.KValue.lean ====
/-
  The kernel program's result as ONE function of its arguments.

  Region 0 computes the edge messages from the rows of x taken at the two rows of the edge-index array; a host
  scatter-add sums the messages into the nodes; region 1 computes the updated node features from x and those sums;
  region 2 scores every edge from the rows of the updated features taken at the same indices and the messages.  Each
  region's output array is the whole-array network of its input arrays (the three region modules); the input arrays are
  what the host side leaves at the region's entry (the boundary module); a block of rows of a transposed weight matrix
  is the stored matrix read with its coordinates swapped (the weights module).
-/
import proofs.«423598_j5866925326701_3_alg».proof.Proof.KGlue
import proofs.«423598_j5866925326701_3_alg».proof.Proof.KVal0
import proofs.«423598_j5866925326701_3_alg».proof.Proof.KVal1
import proofs.«423598_j5866925326701_3_alg».proof.Proof.KVal2
import proofs.«423598_j5866925326701_3_alg».proof.Proof.Weights

set_option maxRecDepth 16384

noncomputable section

namespace Cert.KernelIdeal.KValue

open Cert.KernelIdeal Cert.KernelIdeal.Gen Cert.Net Cert.KernelIdeal.IndexRange Cert.KernelIdeal.Glue Cert.KernelIdeal.Weights
open Idealize.ShloMosaic Idealize.ShloMosaic.TcCoe Idealize.SL.Sem

/-! ## The networks respect equality of their arrays -/

theorem edgeArrK_congr {n o : Nat} {A A' B B' : Mat n 3} {C C' : Mat n 4} {wa wa' wb wb' : Mat 3 40} {wc wc' : Mat 4 40}
    {b1 b1' : Row 40} {w2 w2' : Mat 40 40} {b2 b2' : Row 40} {w3 w3' : Mat 40 o} {b3 b3' : Row o}
    (hA : A = A') (hB : B = B') (hC : C = C') (ha : wa = wa') (hb : wb = wb') (hc : wc = wc') (h1 : b1 = b1')
    (h2 : w2 = w2') (h3 : b2 = b2') (h4 : w3 = w3') (h5 : b3 = b3') :
    edgeArrK A B C wa wb wc b1 w2 b2 w3 b3 = edgeArrK A' B' C' wa' wb' wc' b1' w2' b2' w3' b3' := by
  subst hA hB hC ha hb hc h1 h2 h3 h4 h5; rfl

theorem nodeArrK_congr {n o : Nat} {A A' : Mat n 3} {B B' : Mat n 4} {wa wa' : Mat 3 40} {wb wb' : Mat 4 40}
    {b1 b1' : Row 40} {w2 w2' : Mat 40 40} {b2 b2' : Row 40} {w3 w3' : Mat 40 o} {b3 b3' : Row o}
    (hA : A = A') (hB : B = B') (ha : wa = wa') (hb : wb = wb') (h1 : b1 = b1')
    (h2 : w2 = w2') (h3 : b2 = b2') (h4 : w3 = w3') (h5 : b3 = b3') :
    nodeArrK A B wa wb b1 w2 b2 w3 b3 = nodeArrK A' B' wa' wb' b1' w2' b2' w3' b3' := by
  subst hA hB ha hb h1 h2 h3 h4 h5; rfl

/-! ## The program as a function of its arguments -/

section Pure
variable (x : Mat 100000 3) (ei : IVec S2x2000000 32) (ea : Mat 2000000 4)
  (W1 : Mat 40 10) (b1 : Row 40) (W2 : Mat 40 40) (b2 : Row 40) (W3 : Mat 4 40) (b3 : Row 4)
  (U1 : Mat 40 7) (c1 : Row 40) (U2 : Mat 40 40) (c2 : Row 40) (U3 : Mat 3 40) (c3 : Row 3)
  (R1 : Mat 40 10) (d1 : Row 40) (R2 : Mat 40 40) (d2 : Row 40) (R3 : Mat 1 40) (d3 : Row 1)

/-- The edge messages: the edge network of x's rows at the destination and source indices and the edge attributes. -/
def kMsg : Mat 2000000 4 := edgeArr (takeK x (dstOf ei)) (takeK x (srcOf ei)) ea W1 b1 W2 b2 W3 b3
/-- The messages summed into their destination nodes. -/
def kAgg : Mat 100000 4 :=
  Host.scatterAdd (F := Ideal) scatter_S100000x4_S2000000x1_S2000000x4_1_0_0_1
    (broadcastInDim S100000x4 ![] bcast_S_S100000x4 (constant (F := Ideal) S_ .f32 0x00000000#32))
    (broadcastInDim S2000000x1 ![0] bcast_S2000000_S2000000x1_0 (dstOf ei)) (kMsg x ei ea W1 b1 W2 b2 W3 b3)
/-- The updated node features: the node network of x and the summed messages. -/
def kUpd : Mat 100000 3 := nodeArr x (kAgg x ei ea W1 b1 W2 b2 W3 b3) U1 c1 U2 c2 U3 c3
/-- The edge scores: the logistic of the edge network of the updated features' rows and the messages. -/
def kOut : Mat 2000000 1 := fun i => Ideal.logistic (edgeArr (o := 1)
  (takeK (kUpd x ei ea W1 b1 W2 b2 W3 b3 U1 c1 U2 c2 U3 c3) (dstOf ei))
  (takeK (kUpd x ei ea W1 b1 W2 b2 W3 b3 U1 c1 U2 c2 U3 c3) (srcOf ei))
  (kMsg x ei ea W1 b1 W2 b2 W3 b3) R1 d1 R2 d2 R3 d3 i)

end Pure

/-! ## The three regions' output arrays, and the result -/

section Run
variable (m : (ℓ : Loc nD τ sig) → Buf (Elt Ideal) ℓ) (ρ : Dev nD → PrngReg) (c : Dev nD)

theorem msgs_eq : msgs m ρ c = kMsg (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  (KVal0.final0 (V4 (F := Ideal) m ρ) c).trans
    (edgeArrK_congr (e0_in0 m ρ c) (e0_in1 m ρ c) (e0_in2 m ρ c) ((e0_in3 m ρ c).trans (blk10_0 _)) ((e0_in4 m ρ c).trans (blk10_3 _))
      ((e0_in5 m ρ c).trans (blk10_6 _)) (e0_in6 m ρ c) ((e0_in7 m ρ c).trans (tr_40x40 _)) (e0_in8 m ρ c)
      ((e0_in9 m ρ c).trans (tr_4x40 _)) (e0_in10 m ρ c))

theorem upd_eq : upd m ρ c = kUpd (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) :=
  (KVal1.final1 (V6 (F := Ideal) m ρ) c).trans
    (nodeArrK_congr (e1_in0 m ρ c) ((e1_in1 m ρ c).trans (by rw [msgs_eq]; rfl)) ((e1_in2 m ρ c).trans (blk7_0 _))
      ((e1_in3 m ρ c).trans (blk7_3 _)) (e1_in4 m ρ c) ((e1_in5 m ρ c).trans (tr_40x40 _)) (e1_in6 m ρ c)
      ((e1_in7 m ρ c).trans (tr_3x40 _)) (e1_in8 m ρ c))

/-- The result buffer after the run is the program's function of the launch contents of its arguments. -/
theorem out_eq : W11 (F := Ideal) m ρ c (Proc.devRef .tc main_v30)
    = kOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) :=
  (x2_out m ρ c).trans ((KVal2.final2 (V10 (F := Ideal) m ρ) c).trans (funext fun i => congrArg Ideal.logistic (congrFun
    (edgeArrK_congr ((e2_in0 m ρ c).trans (by rw [upd_eq])) ((e2_in1 m ρ c).trans (by rw [upd_eq]))
      ((e2_in2 m ρ c).trans (msgs_eq m ρ c)) ((e2_in3 m ρ c).trans (blk10_0 _)) ((e2_in4 m ρ c).trans (blk10_3 _))
      ((e2_in5 m ρ c).trans (blk10_6 _)) (e2_in6 m ρ c) ((e2_in7 m ρ c).trans (tr_40x40 _)) (e2_in8 m ρ c)
      ((e2_in9 m ρ c).trans (tr_1x40 _)) (e2_in10 m ρ c)) i)))

end Run

end Cert.KernelIdeal.KValue

end
-- ==== Proof.RefVal.lean ====
/-
  The reference program's three networks, read at an entry and recognised as the whole-array networks.

  Each stage of the reference is: a concatenation of two or three narrow arrays along the columns; a product with the
  transposed first weight matrix and a bias row added; a rectifier; the same with the second weight matrix; a rectifier;
  the same with the last weight matrix.  At an entry (r, q) every product is a finite sum over the contraction, the
  transposes swap the two coordinates, the bias rows are read at the column, and the rectifier is the maximum with zero.
  The sum over the concatenated columns splits into one sum per part, which is how the row network adds them.
  The last stage ends with 1 / (1 + exp (-t)), which over the extended reals is the logistic function.
-/
import proofs.«423598_j5866925326701_3_alg».proof.Proof.Gen.ReferenceIdeal.Run
import proofs.«423598_j5866925326701_3_alg».proof.Proof.Gen.ReferenceIdeal.Read
import proofs.«423598_j5866925326701_3_alg».proof.Proof.Net
import proofs.«423598_j5866925326701_3_alg».proof.Proof.LibPlainDot
import Idealize.ShloMosaic.Lib.Pipeline.Value
import Idealize.ShloMosaic.Lib.ValueIdx
import Idealize.ShloMosaic.Lib.ValueLayout
import Idealize.ShloMosaic.PureOps.Ideal.Laws
noncomputable section
namespace Cert.ReferenceIdeal.RefVal
open Cert.ReferenceIdeal Cert.ReferenceIdeal.Read Cert.Net Idealize.ShloMosaic Idealize.ShloMosaic.ValueIdx

/-! ## Indices from their coordinates -/

/-- A rank-2 index with coordinates a, b is the index built from a and b. -/
theorem ix2_of_val {n0 n1 : Nat} (f : (⟨2, ![n0, n1]⟩ : Shape).Idx) (a : Fin n0) (b : Fin n1)
    (h0 : (f 0).val = a.val) (h1 : (f 1).val = b.val) : f = ix2 a b :=
  funext fun d => Fin.ext (by match d with | ⟨0, _⟩ => exact h0 | ⟨1, _⟩ => exact h1)

/-- A rank-1 index with coordinate a is the index built from a. -/
theorem ix1_of_val {n : Nat} (f : (⟨1, ![n]⟩ : Shape).Idx) (a : Fin n) (h0 : (f 0).val = a.val) : f = ix1 a :=
  funext fun d => Fin.ext (by match d with | ⟨0, _⟩ => exact h0)

/-! ## A concatenation along the columns, read in each part

Columns 0–2 come from the first part, the next three (or four) from the second, columns 6–9 from the third, each at
the column less the widths before it. -/

section Cat
variable {α : Type} {n : Nat}

theorem cat3_fst (A B : (⟨2, ![n, 3]⟩ : Shape).Idx → α) (C : (⟨2, ![n, 4]⟩ : Shape).Idx → α)
    (h : Shape.Concatenates [(⟨2, ![n, 3]⟩ : Shape), ⟨2, ![n, 3]⟩, ⟨2, ![n, 4]⟩] ⟨2, ![n, 10]⟩ 1) (r : Fin n) (l : Fin 3) :
    concatenate ⟨2, ![n, 10]⟩ 1 [⟨⟨2, ![n, 3]⟩, A⟩, ⟨⟨2, ![n, 3]⟩, B⟩, ⟨⟨2, ![n, 4]⟩, C⟩] h (ix2 r ⟨l.val, by omega⟩) = A (ix2 r l) := by
  refine concatenate_apply_piece (t := ⟨2, ![n, 10]⟩) 1 [⟨⟨2, ![n, 3]⟩, A⟩, ⟨⟨2, ![n, 3]⟩, B⟩, ⟨⟨2, ![n, 4]⟩, C⟩] h _ 0 (by simp) ⟨2, ![n, 3]⟩ A rfl rfl 0 rfl (ix2 r l) ?_ ?_
  · intro b hb
    match b with
    | ⟨0, _⟩ => rfl
    | ⟨1, _⟩ => exact absurd rfl hb
  · show 0 + l.val = l.val
    omega

theorem cat3_snd (A B : (⟨2, ![n, 3]⟩ : Shape).Idx → α) (C : (⟨2, ![n, 4]⟩ : Shape).Idx → α)
    (h : Shape.Concatenates [(⟨2, ![n, 3]⟩ : Shape), ⟨2, ![n, 3]⟩, ⟨2, ![n, 4]⟩] ⟨2, ![n, 10]⟩ 1) (r : Fin n) (l : Fin 3) :
    concatenate ⟨2, ![n, 10]⟩ 1 [⟨⟨2, ![n, 3]⟩, A⟩, ⟨⟨2, ![n, 3]⟩, B⟩, ⟨⟨2, ![n, 4]⟩, C⟩] h (ix2 r ⟨3 + l.val, by omega⟩) = B (ix2 r l) := by
  refine concatenate_apply_piece (t := ⟨2, ![n, 10]⟩) 1 [⟨⟨2, ![n, 3]⟩, A⟩, ⟨⟨2, ![n, 3]⟩, B⟩, ⟨⟨2, ![n, 4]⟩, C⟩] h _ 1 (by simp) ⟨2, ![n, 3]⟩ B rfl rfl 3 rfl (ix2 r l) ?_ ?_
  · intro b hb
    match b with
    | ⟨0, _⟩ => rfl
    | ⟨1, _⟩ => exact absurd rfl hb
  · rfl

theorem cat3_trd (A B : (⟨2, ![n, 3]⟩ : Shape).Idx → α) (C : (⟨2, ![n, 4]⟩ : Shape).Idx → α)
    (h : Shape.Concatenates [(⟨2, ![n, 3]⟩ : Shape), ⟨2, ![n, 3]⟩, ⟨2, ![n, 4]⟩] ⟨2, ![n, 10]⟩ 1) (r : Fin n) (l : Fin 4) :
    concatenate ⟨2, ![n, 10]⟩ 1 [⟨⟨2, ![n, 3]⟩, A⟩, ⟨⟨2, ![n, 3]⟩, B⟩, ⟨⟨2, ![n, 4]⟩, C⟩] h (ix2 r ⟨6 + l.val, by omega⟩) = C (ix2 r l) := by
  refine concatenate_apply_piece (t := ⟨2, ![n, 10]⟩) 1 [⟨⟨2, ![n, 3]⟩, A⟩, ⟨⟨2, ![n, 3]⟩, B⟩, ⟨⟨2, ![n, 4]⟩, C⟩] h _ 2 (by simp) ⟨2, ![n, 4]⟩ C rfl rfl 6 rfl (ix2 r l) ?_ ?_
  · intro b hb
    match b with
    | ⟨0, _⟩ => rfl
    | ⟨1, _⟩ => exact absurd rfl hb
  · rfl

theorem cat2_fst (A : (⟨2, ![n, 3]⟩ : Shape).Idx → α) (B : (⟨2, ![n, 4]⟩ : Shape).Idx → α)
    (h : Shape.Concatenates [(⟨2, ![n, 3]⟩ : Shape), ⟨2, ![n, 4]⟩] ⟨2, ![n, 7]⟩ 1) (r : Fin n) (l : Fin 3) :
    concatenate ⟨2, ![n, 7]⟩ 1 [⟨⟨2, ![n, 3]⟩, A⟩, ⟨⟨2, ![n, 4]⟩, B⟩] h (ix2 r ⟨l.val, by omega⟩) = A (ix2 r l) := by
  refine concatenate_apply_piece (t := ⟨2, ![n, 7]⟩) 1 [⟨⟨2, ![n, 3]⟩, A⟩, ⟨⟨2, ![n, 4]⟩, B⟩] h _ 0 (by simp) ⟨2, ![n, 3]⟩ A rfl rfl 0 rfl (ix2 r l) ?_ ?_
  · intro b hb
    match b with
    | ⟨0, _⟩ => rfl
    | ⟨1, _⟩ => exact absurd rfl hb
  · show 0 + l.val = l.val
    omega

theorem cat2_snd (A : (⟨2, ![n, 3]⟩ : Shape).Idx → α) (B : (⟨2, ![n, 4]⟩ : Shape).Idx → α)
    (h : Shape.Concatenates [(⟨2, ![n, 3]⟩ : Shape), ⟨2, ![n, 4]⟩] ⟨2, ![n, 7]⟩ 1) (r : Fin n) (l : Fin 4) :
    concatenate ⟨2, ![n, 7]⟩ 1 [⟨⟨2, ![n, 3]⟩, A⟩, ⟨⟨2, ![n, 4]⟩, B⟩] h (ix2 r ⟨3 + l.val, by omega⟩) = B (ix2 r l) := by
  refine concatenate_apply_piece (t := ⟨2, ![n, 7]⟩) 1 [⟨⟨2, ![n, 3]⟩, A⟩, ⟨⟨2, ![n, 4]⟩, B⟩] h _ 1 (by simp) ⟨2, ![n, 4]⟩ B rfl rfl 3 rfl (ix2 r l) ?_ ?_
  · intro b hb
    match b with
    | ⟨0, _⟩ => rfl
    | ⟨1, _⟩ => exact absurd rfl hb
  · rfl
end Cat

/-! ## The first layer over a concatenated row

The sum over the ten (or seven) concatenated columns, each times the stored weight at (j, column), splits into the
partial products of the parts against the matching column blocks of the weight matrix. -/

/-- three parts of widths 3, 3, 4 -/
theorem lin3_of_cat {n : Nat} (A B : Mat n 3) (C : Mat n 4)
    (h : Shape.Concatenates [(⟨2, ![n, 3]⟩ : Shape), ⟨2, ![n, 3]⟩, ⟨2, ![n, 4]⟩] ⟨2, ![n, 10]⟩ 1)
    (W : Mat 40 10) (b : Row 40) (r : Fin n) (j : Fin 40) :
    (∑ k : Fin 10, concatenate ⟨2, ![n, 10]⟩ 1 [⟨⟨2, ![n, 3]⟩, A⟩, ⟨⟨2, ![n, 3]⟩, B⟩, ⟨⟨2, ![n, 4]⟩, C⟩] h (ix2 r k) * W (ix2 j k))
        + b (ix1 j)
      = Spec.lin3 (row A r) (row B r) (row C r)
          (ent (trBlock W 0 3 (by omega))) (ent (trBlock W 3 3 (by omega))) (ent (trBlock W 6 4 (by omega))) (vec b) j := by
  rw [Spec.sum10_split]
  simp only [cat3_fst, cat3_snd, cat3_trd, Spec.lin3, row, ent, vec, trBlock, mk2_ix2, Nat.zero_add]

/-- two parts of widths 3, 4 -/
theorem lin2_of_cat {n : Nat} (A : Mat n 3) (B : Mat n 4)
    (h : Shape.Concatenates [(⟨2, ![n, 3]⟩ : Shape), ⟨2, ![n, 4]⟩] ⟨2, ![n, 7]⟩ 1)
    (W : Mat 40 7) (b : Row 40) (r : Fin n) (j : Fin 40) :
    (∑ k : Fin 7, concatenate ⟨2, ![n, 7]⟩ 1 [⟨⟨2, ![n, 3]⟩, A⟩, ⟨⟨2, ![n, 4]⟩, B⟩] h (ix2 r k) * W (ix2 j k)) + b (ix1 j)
      = Spec.lin2 (row A r) (row B r) (ent (trBlock W 0 3 (by omega))) (ent (trBlock W 3 4 (by omega))) (vec b) j := by
  rw [Spec.sum7_split]
  simp only [cat2_fst, cat2_snd, Spec.lin2, row, ent, vec, trBlock, mk2_ix2, Nat.zero_add]

/-! ## The three stages -/

variable (x : Mat 100000 3) (ei : IVec S2x2000000 32) (ea : Mat 2000000 4)
  (W1 : Mat 40 10) (b1 : Row 40) (W2 : Mat 40 40) (b2 : Row 40) (W3 : Mat 4 40) (b3 : Row 4)
  (U1 : Mat 40 7) (c1 : Row 40) (U2 : Mat 40 40) (c2 : Row 40) (U3 : Mat 3 40) (c3 : Row 3)
  (R1 : Mat 40 10) (d1 : Row 40) (R2 : Mat 40 40) (d2 : Row 40) (R3 : Mat 1 40) (d3 : Row 1)

/-! ### The edge messages -/

/-- first layer of the message network at an entry: the three partial products over the columns of the gathered rows and the edge attributes, then the bias -/
theorem msg_first (r : Fin 2000000) (j : Fin 40) :
    val_main_v23 (F := Ideal) x ei ea W1 b1 (ix2 r j)
      = Spec.lin3 (row (val_main_v10 (F := Ideal) x ei) r) (row (val_main_v17 (F := Ideal) x ei) r) (row (ea) r)
          (ent (trBlock W1 0 3 (by omega))) (ent (trBlock W1 3 3 (by omega))) (ent (trBlock W1 6 4 (by omega)))
          (vec b1) j := by
  have hl : ∀ k : Fin 10, lidx_main_v20 (ix2 r j) k = ix2 r k := fun k => ix2_of_val _ _ _ rfl rfl
  have hr : ∀ k : Fin 10, idx_main_v19 (ridx_main_v20 (ix2 r j) k) = ix2 j k := fun k => ix2_of_val _ _ _ rfl rfl
  have hb : idx_main_v21 (idx_main_v22 (ix2 r j)) = ix1 j := ix1_of_val _ _ rfl
  have hsum : val_main_v20 (F := Ideal) x ei ea W1 (ix2 r j)
      = ∑ k : Fin 10, val_main_v18 (F := Ideal) x ei ea (ix2 r k) * W1 (ix2 j k) := by
    rw [val_main_v20_apply]
    refine Finset.sum_congr rfl fun k _ => ?_
    rw [val_main_v19_apply, hl, hr]
  rw [val_main_v23_apply, hsum, val_main_v22_apply, val_main_v21_apply, hb, Ideal.addf_def]
  unfold val_main_v18
  generalize val_main_v10 (F := Ideal) x ei = Y1
  generalize val_main_v17 (F := Ideal) x ei = Y2
  exact lin3_of_cat Y1 Y2 ea _ W1 b1 r j

/-- second layer of the message network at an entry: the rectified first layer against row k of the second weight matrix, then the bias -/
theorem msg_second (r : Fin 2000000) (k : Fin 40) :
    val_main_v29 (F := Ideal) x ei ea W1 b1 W2 b2 (ix2 r k)
      = (∑ j : Fin 40, max (val_main_v23 (F := Ideal) x ei ea W1 b1 (ix2 r j)) 0 * W2 (ix2 k j)) + b2 (ix1 k) := by
  have hl : ∀ j : Fin 40, lidx_main_v26 (ix2 r k) j = ix2 r j := fun j => ix2_of_val _ _ _ rfl rfl
  have hr : ∀ j : Fin 40, idx_main_v25 (ridx_main_v26 (ix2 r k) j) = ix2 k j :=
    fun j => ix2_of_val _ _ _ rfl rfl
  have hb : idx_main_v27 (idx_main_v28 (ix2 r k)) = ix1 k := ix1_of_val _ _ rfl
  have hsum : val_main_v26 (F := Ideal) x ei ea W1 b1 W2 (ix2 r k)
      = ∑ j : Fin 40, max (val_main_v23 (F := Ideal) x ei ea W1 b1 (ix2 r j)) 0 * W2 (ix2 k j) := by
    rw [val_main_v26_apply]
    refine Finset.sum_congr rfl fun j _ => ?_
    rw [val_main_v25_apply, hl, hr, val_main_v24_apply, val_main_call0_v0_apply, val_main_call0_cst_apply,
      Ideal.maximumf_def, Ideal.ofBits_def, Ideal.ofBits_zero_f32]
  rw [val_main_v29_apply, hsum, val_main_v28_apply, val_main_v27_apply, hb, Ideal.addf_def]

/-- last layer of the message network at an entry -/
theorem msg_third (r : Fin 2000000) (q : Fin 4) :
    val_main_v35 (F := Ideal) x ei ea W1 b1 W2 b2 W3 b3 (ix2 r q)
      = (∑ j : Fin 40, max (val_main_v29 (F := Ideal) x ei ea W1 b1 W2 b2 (ix2 r j)) 0 * W3 (ix2 q j)) + b3 (ix1 q) := by
  have hl : ∀ j : Fin 40, lidx_main_v32 (ix2 r q) j = ix2 r j := fun j => ix2_of_val _ _ _ rfl rfl
  have hr : ∀ j : Fin 40, idx_main_v31 (ridx_main_v32 (ix2 r q) j) = ix2 q j :=
    fun j => ix2_of_val _ _ _ rfl rfl
  have hb : idx_main_v33 (idx_main_v34 (ix2 r q)) = ix1 q := ix1_of_val _ _ rfl
  have hsum : val_main_v32 (F := Ideal) x ei ea W1 b1 W2 b2 W3 (ix2 r q)
      = ∑ j : Fin 40, max (val_main_v29 (F := Ideal) x ei ea W1 b1 W2 b2 (ix2 r j)) 0 * W3 (ix2 q j) := by
    rw [val_main_v32_apply]
    refine Finset.sum_congr rfl fun j _ => ?_
    rw [val_main_v31_apply, hl, hr, val_main_v30_apply, val_main_call1_v0_apply, val_main_call1_cst_apply,
      Ideal.maximumf_def, Ideal.ofBits_def, Ideal.ofBits_zero_f32]
  rw [val_main_v35_apply, hsum, val_main_v34_apply, val_main_v33_apply, hb, Ideal.addf_def]

/-- the edge messages: the three-layer network of the row [x[dst], x[src], edge_attr] -/
theorem msg_eq : val_main_v35 (F := Ideal) x ei ea W1 b1 W2 b2 W3 b3
    = edgeArr (val_main_v10 (F := Ideal) x ei) (val_main_v17 (F := Ideal) x ei) ea W1 b1 W2 b2 W3 b3 := by
  funext i
  obtain ⟨r, q, rfl⟩ : ∃ (r : Fin 2000000) (q : Fin 4), i = ix2 r q := ⟨i 0, i 1, eq_ix2 i⟩
  rw [msg_third]
  simp only [msg_second, msg_first]
  generalize val_main_v10 (F := Ideal) x ei = Y1
  generalize val_main_v17 (F := Ideal) x ei = Y2
  rfl

/-! ### The node update -/

/-- first layer of the node network at an entry: the two partial products over the node's own columns and the aggregated messages, then the bias -/
theorem upd_first (r : Fin 100000) (j : Fin 40) :
    val_main_v44 (F := Ideal) x ei ea W1 b1 W2 b2 W3 b3 U1 c1 (ix2 r j)
      = Spec.lin2 (row (x) r) (row (val_main_v38 (F := Ideal) x ei ea W1 b1 W2 b2 W3 b3) r)
          (ent (trBlock U1 0 3 (by omega))) (ent (trBlock U1 3 4 (by omega))) (vec c1) j := by
  have hl : ∀ k : Fin 7, lidx_main_v41 (ix2 r j) k = ix2 r k := fun k => ix2_of_val _ _ _ rfl rfl
  have hr : ∀ k : Fin 7, idx_main_v40 (ridx_main_v41 (ix2 r j) k) = ix2 j k := fun k => ix2_of_val _ _ _ rfl rfl
  have hb : idx_main_v42 (idx_main_v43 (ix2 r j)) = ix1 j := ix1_of_val _ _ rfl
  have hsum : val_main_v41 (F := Ideal) x ei ea W1 b1 W2 b2 W3 b3 U1 (ix2 r j)
      = ∑ k : Fin 7, val_main_v39 (F := Ideal) x ei ea W1 b1 W2 b2 W3 b3 (ix2 r k) * U1 (ix2 j k) := by
    rw [val_main_v41_apply]
    refine Finset.sum_congr rfl fun k _ => ?_
    rw [val_main_v40_apply, hl, hr]
  rw [val_main_v44_apply, hsum, val_main_v43_apply, val_main_v42_apply, hb, Ideal.addf_def]
  unfold val_main_v39
  generalize val_main_v38 (F := Ideal) x ei ea W1 b1 W2 b2 W3 b3 = Y
  exact lin2_of_cat x Y _ U1 c1 r j

/-- second layer of the node network at an entry -/
theorem upd_second (r : Fin 100000) (k : Fin 40) :
    val_main_v50 (F := Ideal) x ei ea W1 b1 W2 b2 W3 b3 U1 c1 U2 c2 (ix2 r k)
      = (∑ j : Fin 40, max (val_main_v44 (F := Ideal) x ei ea W1 b1 W2 b2 W3 b3 U1 c1 (ix2 r j)) 0 * U2 (ix2 k j)) + c2 (ix1 k) := by
  have hl : ∀ j : Fin 40, lidx_main_v47 (ix2 r k) j = ix2 r j := fun j => ix2_of_val _ _ _ rfl rfl
  have hr : ∀ j : Fin 40, idx_main_v46 (ridx_main_v47 (ix2 r k) j) = ix2 k j :=
    fun j => ix2_of_val _ _ _ rfl rfl
  have hb : idx_main_v48 (idx_main_v49 (ix2 r k)) = ix1 k := ix1_of_val _ _ rfl
  have hsum : val_main_v47 (F := Ideal) x ei ea W1 b1 W2 b2 W3 b3 U1 c1 U2 (ix2 r k)
      = ∑ j : Fin 40, max (val_main_v44 (F := Ideal) x ei ea W1 b1 W2 b2 W3 b3 U1 c1 (ix2 r j)) 0 * U2 (ix2 k j) := by
    rw [val_main_v47_apply]
    refine Finset.sum_congr rfl fun j _ => ?_
    rw [val_main_v46_apply, hl, hr, val_main_v45_apply, val_main_call2_v0_apply, val_main_call2_cst_apply,
      Ideal.maximumf_def, Ideal.ofBits_def, Ideal.ofBits_zero_f32]
  rw [val_main_v50_apply, hsum, val_main_v49_apply, val_main_v48_apply, hb, Ideal.addf_def]

/-- last layer of the node network at an entry -/
theorem upd_third (r : Fin 100000) (q : Fin 3) :
    val_main_v56 (F := Ideal) x ei ea W1 b1 W2 b2 W3 b3 U1 c1 U2 c2 U3 c3 (ix2 r q)
      = (∑ j : Fin 40, max (val_main_v50 (F := Ideal) x ei ea W1 b1 W2 b2 W3 b3 U1 c1 U2 c2 (ix2 r j)) 0 * U3 (ix2 q j)) + c3 (ix1 q) := by
  have hl : ∀ j : Fin 40, lidx_main_v53 (ix2 r q) j = ix2 r j := fun j => ix2_of_val _ _ _ rfl rfl
  have hr : ∀ j : Fin 40, idx_main_v52 (ridx_main_v53 (ix2 r q) j) = ix2 q j :=
    fun j => ix2_of_val _ _ _ rfl rfl
  have hb : idx_main_v54 (idx_main_v55 (ix2 r q)) = ix1 q := ix1_of_val _ _ rfl
  have hsum : val_main_v53 (F := Ideal) x ei ea W1 b1 W2 b2 W3 b3 U1 c1 U2 c2 U3 (ix2 r q)
      = ∑ j : Fin 40, max (val_main_v50 (F := Ideal) x ei ea W1 b1 W2 b2 W3 b3 U1 c1 U2 c2 (ix2 r j)) 0 * U3 (ix2 q j) := by
    rw [val_main_v53_apply]
    refine Finset.sum_congr rfl fun j _ => ?_
    rw [val_main_v52_apply, hl, hr, val_main_v51_apply, val_main_call3_v0_apply, val_main_call3_cst_apply,
      Ideal.maximumf_def, Ideal.ofBits_def, Ideal.ofBits_zero_f32]
  rw [val_main_v56_apply, hsum, val_main_v55_apply, val_main_v54_apply, hb, Ideal.addf_def]

/-- the node update: the three-layer network of the row [x, aggr], aggr the scatter-added messages -/
theorem upd_eq : val_main_v56 (F := Ideal) x ei ea W1 b1 W2 b2 W3 b3 U1 c1 U2 c2 U3 c3
    = nodeArr x (val_main_v38 (F := Ideal) x ei ea W1 b1 W2 b2 W3 b3) U1 c1 U2 c2 U3 c3 := by
  funext i
  obtain ⟨r, q, rfl⟩ : ∃ (r : Fin 100000) (q : Fin 3), i = ix2 r q := ⟨i 0, i 1, eq_ix2 i⟩
  rw [upd_third]
  simp only [upd_second, upd_first]
  generalize val_main_v38 (F := Ideal) x ei ea W1 b1 W2 b2 W3 b3 = Y
  rfl

/-! ### The edge score -/

/-- first layer of the score network at an entry: the three partial products over the columns of the gathered updated rows and the edge message, then the bias -/
theorem score_first (r : Fin 2000000) (j : Fin 40) :
    val_main_v76 (F := Ideal) x ei ea W1 b1 W2 b2 W3 b3 U1 c1 U2 c2 U3 c3 R1 d1 (ix2 r j)
      = Spec.lin3 (row (val_main_v63 (F := Ideal) x ei ea W1 b1 W2 b2 W3 b3 U1 c1 U2 c2 U3 c3) r) (row (val_main_v70 (F := Ideal) x ei ea W1 b1 W2 b2 W3 b3 U1 c1 U2 c2 U3 c3) r) (row (val_main_v35 (F := Ideal) x ei ea W1 b1 W2 b2 W3 b3) r)
          (ent (trBlock R1 0 3 (by omega))) (ent (trBlock R1 3 3 (by omega))) (ent (trBlock R1 6 4 (by omega)))
          (vec d1) j := by
  have hl : ∀ k : Fin 10, lidx_main_v73 (ix2 r j) k = ix2 r k := fun k => ix2_of_val _ _ _ rfl rfl
  have hr : ∀ k : Fin 10, idx_main_v72 (ridx_main_v73 (ix2 r j) k) = ix2 j k := fun k => ix2_of_val _ _ _ rfl rfl
  have hb : idx_main_v74 (idx_main_v75 (ix2 r j)) = ix1 j := ix1_of_val _ _ rfl
  have hsum : val_main_v73 (F := Ideal) x ei ea W1 b1 W2 b2 W3 b3 U1 c1 U2 c2 U3 c3 R1 (ix2 r j)
      = ∑ k : Fin 10, val_main_v71 (F := Ideal) x ei ea W1 b1 W2 b2 W3 b3 U1 c1 U2 c2 U3 c3 (ix2 r k) * R1 (ix2 j k) := by
    rw [val_main_v73_apply]
    refine Finset.sum_congr rfl fun k _ => ?_
    rw [val_main_v72_apply, hl, hr]
  rw [val_main_v76_apply, hsum, val_main_v75_apply, val_main_v74_apply, hb, Ideal.addf_def]
  unfold val_main_v71
  generalize val_main_v63 (F := Ideal) x ei ea W1 b1 W2 b2 W3 b3 U1 c1 U2 c2 U3 c3 = Y1
  generalize val_main_v70 (F := Ideal) x ei ea W1 b1 W2 b2 W3 b3 U1 c1 U2 c2 U3 c3 = Y2
  generalize val_main_v35 (F := Ideal) x ei ea W1 b1 W2 b2 W3 b3 = Y3
  exact lin3_of_cat Y1 Y2 Y3 _ R1 d1 r j

/-- second layer of the score network at an entry -/
theorem score_second (r : Fin 2000000) (k : Fin 40) :
    val_main_v82 (F := Ideal) x ei ea W1 b1 W2 b2 W3 b3 U1 c1 U2 c2 U3 c3 R1 d1 R2 d2 (ix2 r k)
      = (∑ j : Fin 40, max (val_main_v76 (F := Ideal) x ei ea W1 b1 W2 b2 W3 b3 U1 c1 U2 c2 U3 c3 R1 d1 (ix2 r j)) 0 * R2 (ix2 k j)) + d2 (ix1 k) := by
  have hl : ∀ j : Fin 40, lidx_main_v79 (ix2 r k) j = ix2 r j := fun j => ix2_of_val _ _ _ rfl rfl
  have hr : ∀ j : Fin 40, idx_main_v78 (ridx_main_v79 (ix2 r k) j) = ix2 k j :=
    fun j => ix2_of_val _ _ _ rfl rfl
  have hb : idx_main_v80 (idx_main_v81 (ix2 r k)) = ix1 k := ix1_of_val _ _ rfl
  have hsum : val_main_v79 (F := Ideal) x ei ea W1 b1 W2 b2 W3 b3 U1 c1 U2 c2 U3 c3 R1 d1 R2 (ix2 r k)
      = ∑ j : Fin 40, max (val_main_v76 (F := Ideal) x ei ea W1 b1 W2 b2 W3 b3 U1 c1 U2 c2 U3 c3 R1 d1 (ix2 r j)) 0 * R2 (ix2 k j) := by
    rw [val_main_v79_apply]
    refine Finset.sum_congr rfl fun j _ => ?_
    rw [val_main_v78_apply, hl, hr, val_main_v77_apply, val_main_call4_v0_apply, val_main_call4_cst_apply,
      Ideal.maximumf_def, Ideal.ofBits_def, Ideal.ofBits_zero_f32]
  rw [val_main_v82_apply, hsum, val_main_v81_apply, val_main_v80_apply, hb, Ideal.addf_def]

/-- last layer of the score network at an entry (one output column) -/
theorem score_third (r : Fin 2000000) (q : Fin 1) :
    val_main_v88 (F := Ideal) x ei ea W1 b1 W2 b2 W3 b3 U1 c1 U2 c2 U3 c3 R1 d1 R2 d2 R3 d3 (ix2 r q)
      = (∑ j : Fin 40, max (val_main_v82 (F := Ideal) x ei ea W1 b1 W2 b2 W3 b3 U1 c1 U2 c2 U3 c3 R1 d1 R2 d2 (ix2 r j)) 0 * R3 (ix2 q j)) + d3 (ix1 q) := by
  have hl : ∀ j : Fin 40, lidx_main_v85 (ix2 r q) j = ix2 r j := fun j => ix2_of_val _ _ _ rfl rfl
  have hr : ∀ j : Fin 40, idx_main_v84 (ridx_main_v85 (ix2 r q) j) = ix2 q j :=
    fun j => ix2_of_val _ _ _ rfl rfl
  have hb : idx_main_v86 (idx_main_v87 (ix2 r q)) = ix1 q := ix1_of_val _ _ (by have := q.isLt; show 0 = q.val; omega)
  have hsum : val_main_v85 (F := Ideal) x ei ea W1 b1 W2 b2 W3 b3 U1 c1 U2 c2 U3 c3 R1 d1 R2 d2 R3 (ix2 r q)
      = ∑ j : Fin 40, max (val_main_v82 (F := Ideal) x ei ea W1 b1 W2 b2 W3 b3 U1 c1 U2 c2 U3 c3 R1 d1 R2 d2 (ix2 r j)) 0 * R3 (ix2 q j) := by
    rw [val_main_v85_apply]
    refine Finset.sum_congr rfl fun j _ => ?_
    rw [val_main_v84_apply, hl, hr, val_main_v83_apply, val_main_call5_v0_apply, val_main_call5_cst_apply,
      Ideal.maximumf_def, Ideal.ofBits_def, Ideal.ofBits_zero_f32]
  rw [val_main_v88_apply, hsum, val_main_v87_apply, val_main_v86_apply, hb, Ideal.addf_def]

/-- the word 0x3F800000 is the number one -/
theorem ofBits_one_f32 : Ideal.ofBits .f32 0x3F800000#32 = 1 := by
  simp [Ideal.ofBits, Ideal.ieee, -EReal.coe_mul]; norm_num

/-- one divided by one plus the exponential of the negation is the logistic function -/
theorem logistic_spelled (y : EReal) :
    FloatOps.hostDivf (F := Ideal) (φ := .f32) (FloatOps.ofBits .f32 0x3F800000#32)
      (FloatOps.addf (FloatOps.ofBits .f32 0x3F800000#32) (FloatOps.hostUnary .exp (FloatOps.hostNegf y))) = Ideal.logistic y := by
  simp only [Ideal.hostDivf_def, Ideal.addf_def, Ideal.hostUnary_exp_def, Ideal.hostNegf_def, Ideal.negf_def, Ideal.ofBits_def,
    ofBits_one_f32]
  rfl

/-- the edge score: the logistic function of the three-layer network of the row [x_tilde[dst], x_tilde[src], e_msg] -/
theorem score_eq : val_main_v94 (F := Ideal) x ei ea W1 b1 W2 b2 W3 b3 U1 c1 U2 c2 U3 c3 R1 d1 R2 d2 R3 d3
    = fun i => Ideal.logistic (edgeArr (o := 1)
        (val_main_v63 (F := Ideal) x ei ea W1 b1 W2 b2 W3 b3 U1 c1 U2 c2 U3 c3)
        (val_main_v70 (F := Ideal) x ei ea W1 b1 W2 b2 W3 b3 U1 c1 U2 c2 U3 c3)
        (val_main_v35 (F := Ideal) x ei ea W1 b1 W2 b2 W3 b3) R1 d1 R2 d2 R3 d3 i) := by
  funext i
  obtain ⟨r, q, rfl⟩ : ∃ (r : Fin 2000000) (q : Fin 1), i = ix2 r q := ⟨i 0, i 1, eq_ix2 i⟩
  rw [val_main_v94_apply, val_main_v93_apply, val_main_cst_8_apply, val_main_v92_apply, val_main_v91_apply,
    val_main_cst_7_apply, val_main_v90_apply, val_main_v89_apply, logistic_spelled, score_third]
  simp only [score_second, score_first]
  generalize val_main_v63 (F := Ideal) x ei ea W1 b1 W2 b2 W3 b3 U1 c1 U2 c2 U3 c3 = Y1
  generalize val_main_v70 (F := Ideal) x ei ea W1 b1 W2 b2 W3 b3 U1 c1 U2 c2 U3 c3 = Y2
  generalize val_main_v35 (F := Ideal) x ei ea W1 b1 W2 b2 W3 b3 = Y3
  rfl

end Cert.ReferenceIdeal.RefVal

end
-- ==== Proof.Bridge.lean ====
/-
  The two programs compute one function.

  Both take the rows of a table at the entries of the edge-index array after wrapping a negative index; the kernel
  program's take also masks rows whose index is out of range, which under the precondition (every index names a row)
  never happens, so its take is the reference's gather.  The scatter-add into the nodes is the same operation applied
  to equal messages.  The three networks are the same whole-array functions (the region modules on one side, the
  reference's stages read at an index on the other).
-/
import proofs.«423598_j5866925326701_3_alg».proof.Proof.KValue
import proofs.«423598_j5866925326701_3_alg».proof.Proof.RefVal

set_option maxRecDepth 16384

noncomputable section

namespace Cert.Bridge

open Cert.Net Cert.KernelIdeal.IndexRange Cert.KernelIdeal.KValue Cert.ReferenceIdeal.Read Idealize.ShloMosaic

variable (x : Mat 100000 3) (ei : IVec Cert.KernelIdeal.S2x2000000 32) (ea : Mat 2000000 4)
  (W1 : Mat 40 10) (b1 : Row 40) (W2 : Mat 40 40) (b2 : Row 40) (W3 : Mat 4 40) (b3 : Row 4)
  (U1 : Mat 40 7) (c1 : Row 40) (U2 : Mat 40 40) (c2 : Row 40) (U3 : Mat 3 40) (c3 : Row 3)
  (R1 : Mat 40 10) (d1 : Row 40) (R2 : Mat 40 40) (d2 : Row 40) (R3 : Mat 1 40) (d3 : Row 1)

/-- The reference's wrapped index columns are the kernel program's. -/
theorem wrap_dst : val_main_v9 (F := Ideal) ei = wrapIdx (dstOf ei) := rfl
theorem wrap_src : val_main_v16 (F := Ideal) ei = wrapIdx (srcOf ei) := rfl
theorem wrap_dst2 : val_main_v62 (F := Ideal) ei = wrapIdx (dstOf ei) := rfl
theorem wrap_src2 : val_main_v69 (F := Ideal) ei = wrapIdx (srcOf ei) := rfl

/-- A gather at in-range indices is the masked take. -/
theorem gather_eq_take (X : Mat 100000 3) (d : IVec Cert.KernelIdeal.S2000000 32) (hd : InRange d) :
    Host.gather Cert.ReferenceIdeal.gather_S100000x3_S2000000x1_S2000000x3_1_0_n_n_0_1_13 X (wrapIdx d) = takeK X d :=
  (takeK_eq_gather X d hd).symm

variable (hin : ∀ j : Cert.KernelIdeal.S2x2000000.Idx, 0 ≤ (ei j).toInt ∧ (ei j).toInt < 100000)
include hin

theorem msg_bridge : val_main_v35 (F := Ideal) x ei ea W1 b1 W2 b2 W3 b3 = kMsg x ei ea W1 b1 W2 b2 W3 b3 := by
  obtain ⟨hs, hd⟩ := row_inRange ei hin
  rw [Cert.ReferenceIdeal.RefVal.msg_eq]
  unfold kMsg val_main_v10 val_main_v17
  rw [wrap_dst, wrap_src, gather_eq_take _ _ hd, gather_eq_take _ _ hs]

theorem agg_bridge : val_main_v38 (F := Ideal) x ei ea W1 b1 W2 b2 W3 b3 = kAgg x ei ea W1 b1 W2 b2 W3 b3 := by
  unfold val_main_v38 kAgg
  rw [msg_bridge x ei ea W1 b1 W2 b2 W3 b3 hin]
  rfl

theorem upd_bridge : val_main_v56 (F := Ideal) x ei ea W1 b1 W2 b2 W3 b3 U1 c1 U2 c2 U3 c3 = kUpd x ei ea W1 b1 W2 b2 W3 b3 U1 c1 U2 c2 U3 c3 := by
  rw [Cert.ReferenceIdeal.RefVal.upd_eq, agg_bridge x ei ea W1 b1 W2 b2 W3 b3 hin]
  rfl

/-- The reference's result is the kernel program's function of the same arguments. -/
theorem out_bridge : val_main_v94 (F := Ideal) x ei ea W1 b1 W2 b2 W3 b3 U1 c1 U2 c2 U3 c3 R1 d1 R2 d2 R3 d3 = kOut x ei ea W1 b1 W2 b2 W3 b3 U1 c1 U2 c2 U3 c3 R1 d1 R2 d2 R3 d3 := by
  obtain ⟨hs, hd⟩ := row_inRange ei hin
  rw [Cert.ReferenceIdeal.RefVal.score_eq]
  unfold kOut val_main_v63 val_main_v70
  rw [upd_bridge x ei ea W1 b1 W2 b2 W3 b3 U1 c1 U2 c2 U3 c3 hin, msg_bridge x ei ea W1 b1 W2 b2 W3 b3 hin, wrap_dst2, wrap_src2, gather_eq_take _ _ hd, gather_eq_take _ _ hs]

end Cert.Bridge

end
-- ==== Proof.lean ====
/-
  The certificate: the kernel program (three row-blocked networks around host gathers and a host scatter-add) computes,
  at the exact values, the reference's function of the same arguments, for every edge-index array whose entries name
  rows of the node table.

  The frames of the two kernel programs are the generated ones; the reference's frame is its generated run with the
  result dropped; the ideal pass rewrote nothing, so there is nothing to preserve.  For the value claim the kernel
  program's result buffer ends at one function of its arguments (the run with the result named, and that function read
  off the three regions and the host stretches between them), the reference's at its stages' composed term, and the two
  are one function under the precondition's range for the indices.
-/
import proofs.«423598_j5866925326701_3_alg».proof.Defs
import proofs.«423598_j5866925326701_3_alg».proof.Proof.Gen.Kernel
import proofs.«423598_j5866925326701_3_alg».proof.Proof.Gen.Kernel.Frame
import proofs.«423598_j5866925326701_3_alg».proof.Proof.Gen.KernelIdeal
import proofs.«423598_j5866925326701_3_alg».proof.Proof.Gen.KernelIdeal.Frame
import proofs.«423598_j5866925326701_3_alg».proof.Proof.Gen.ReferenceIdeal
import proofs.«423598_j5866925326701_3_alg».proof.Proof.Gen.ReferenceIdeal.Run
import proofs.«423598_j5866925326701_3_alg».proof.Proof.Gen.ReferenceIdeal.Read
import proofs.«423598_j5866925326701_3_alg».proof.Proof.Gen.Pre_finite_inputs
import proofs.«423598_j5866925326701_3_alg».proof.Proof.KRun
import proofs.«423598_j5866925326701_3_alg».proof.Proof.KValue
import proofs.«423598_j5866925326701_3_alg».proof.Proof.Bridge
import Idealize.ShloMosaic.Adequacy
import Idealize.ShloMosaic.Init

set_option maxRecDepth 16384

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both programs end with the kernel program's function of the arguments in their result buffers: the kernel program
    by its run and the reading of its regions, the reference by its run and the agreement of the two functions on
    index arrays in range, which the precondition gives. -/
theorem algebraic : Cert.algebraic_KernelIdeal_ReferenceIdeal := by
  intro m ρ m' ρ' hpre hagree
  refine ⟨fun c => Cert.KernelIdeal.KValue.kOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)), ?_, ?_⟩
  · exact (θ_run Cert.KernelIdeal.defs _ _).mono
      (fun r h c => ⟨(h c).1.trans (Cert.KernelIdeal.KValue.out_eq m ρ c), (h c).2⟩)
      (Cert.KernelIdeal.ValueRun.run (F := Ideal) m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8, h9, h10, h11, h12, h13, h14, h15, h16, h17, h18, h19, h20⟩ := hagree c
    rw [Cert.ReferenceIdeal.Read.val_main_v94_eq, h0, h1, h2, h3, h4, h5, h6, h7, h8, h9, h10, h11, h12, h13, h14, h15, h16, h17,
      h18, h19, h20]
    exact Cert.Bridge.out_bridge _ _ _ _ _ _ _ _ _ _ _ _ _ _ _ _ _ _ _ _ _
      (Cert.KernelIdeal.IndexRange.idx_of_pre _ _ _ _ _ _ _ _ _ _ _ _ _ _ _ _ _ _ _ _ _ (hpre c))

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
